-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) (main_arg2 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Pre_finite_inputs_ReferenceIdeal.lean ====
abbrev S512x1024 : Shape := ⟨2, ![512, 1024]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x1024 .f32) (main_arg1 : FVec F S1024 .f32) (main_arg2 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S512x256 : Shape := ⟨2, ![512, 256]⟩
abbrev S256 : Shape := ⟨1, ![256]⟩
abbrev S4x2x512 : Shape := ⟨3, ![4, 2, 512]⟩
abbrev S3 : Shape := ⟨1, ![3]⟩
abbrev S_ : Shape := ⟨0, ![]⟩
abbrev S512 : Shape := ⟨1, ![512]⟩
abbrev S1x1x512 : Shape := ⟨3, ![1, 1, 512]⟩
abbrev S1 : Shape := ⟨1, ![1]⟩
abbrev S1x2x512 : Shape := ⟨3, ![1, 2, 512]⟩
abbrev S2x512 : Shape := ⟨2, ![2, 512]⟩
abbrev S1x256 : Shape := ⟨2, ![1, 256]⟩
abbrev S1x512 : Shape := ⟨2, ![1, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S256, .f32⟩
  | .hbm, ⟨3, _⟩ => ⟨S512x256, .bf16⟩
  | .local _ .vmem, ⟨0, _⟩ => ⟨S512x256, .f32⟩
  | .local _ .vmem, ⟨1, _⟩ => ⟨S256, .f32⟩
  | .local _ .vmem, ⟨2, _⟩ => ⟨S256, .f32⟩
  | .local _ .vmem, ⟨3, _⟩ => ⟨S512x256, .bf16⟩
  | .local _ .vmem, ⟨4, _⟩ => ⟨S4x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v54 : BitVec 32 := Scalar.addi v2 c1_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1_i32_46 : BitVec 32 := 1#32
  let v65 : BitVec 32 := Scalar.muli v64 c1_i32_46
  let v66 : BitVec 32 := Scalar.addi c0_i32_47 v65
  v66.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v75 : BitVec 32 := Scalar.addi v2 c2_i32_52
  let c4_i32_53 : BitVec 32 := 4#32
  let c0_i32_54 : BitVec 32 := 0#32
  let v76 : BitVec 1 := Scalar.cmpi .eq c4_i32_53 c0_i32_54
  let c1_i32_55 : BitVec 32 := 1#32
  let v77 : BitVec 32 := Scalar.select v76 c1_i32_55 c4_i32_53
  let v78 : BitVec 32 := Scalar.remsi v75 v77
  let c0_i32_57 : BitVec 32 := 0#32
  let v80 : BitVec 1 := Scalar.cmpi .slt v78 c0_i32_57
  let c0_i32_58 : BitVec 32 := 0#32
  let v81 : BitVec 1 := Scalar.cmpi .slt v77 c0_i32_58
  let v82 : BitVec 1 := Scalar.xori v80 v81
  let c0_i32_56 : BitVec 32 := 0#32
  let v79 : BitVec 1 := Scalar.cmpi .ne v78 c0_i32_56
  let v83 : BitVec 1 := Scalar.andi v82 v79
  let v84 : BitVec 32 := Scalar.addi v78 v77
  let v85 : BitVec 32 := Scalar.select v83 v84 v78
  let c1_i32_63 : BitVec 32 := 1#32
  let v86 : BitVec 32 := Scalar.muli v85 c1_i32_63
  let v87 : BitVec 32 := Scalar.addi c0_i32_64 v86
  v87.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v96 : BitVec 32 := Scalar.addi v2 c3_i32_69
  let c4_i32_70 : BitVec 32 := 4#32
  let c0_i32_71 : BitVec 32 := 0#32
  let v97 : BitVec 1 := Scalar.cmpi .eq c4_i32_70 c0_i32_71
  let c1_i32_72 : BitVec 32 := 1#32
  let v98 : BitVec 32 := Scalar.select v97 c1_i32_72 c4_i32_70
  let v99 : BitVec 32 := Scalar.remsi v96 v98
  let c0_i32_74 : BitVec 32 := 0#32
  let v101 : BitVec 1 := Scalar.cmpi .slt v99 c0_i32_74
  let c0_i32_75 : BitVec 32 := 0#32
  let v102 : BitVec 1 := Scalar.cmpi .slt v98 c0_i32_75
  let v103 : BitVec 1 := Scalar.xori v101 v102
  let c0_i32_73 : BitVec 32 := 0#32
  let v100 : BitVec 1 := Scalar.cmpi .ne v99 c0_i32_73
  let v104 : BitVec 1 := Scalar.andi v103 v100
  let v105 : BitVec 32 := Scalar.addi v99 v98
  let v106 : BitVec 32 := Scalar.select v104 v105 v99
  let c1_i32_80 : BitVec 32 := 1#32
  let v107 : BitVec 32 := Scalar.muli v106 c1_i32_80
  let v108 : BitVec 32 := Scalar.addi c0_i32_81 v107
  v108.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  inb_S4x2x512_S1x1x512_0_0_0 : ∀ a, (![0, 0, 0] : Fin 3 → Nat) a + S1x1x512.size a ≤ S4x2x512.size a
  h_S1x1x512 : 0 < S1x1x512.numel
  shapeCasts_S1x1x512_S512 : S1x1x512.ShapeCasts S512
  shapeCasts_S512_S1x1x512 : S512.ShapeCasts S1x1x512
  inb_S4x2x512_S1x1x512_0_1_0 : ∀ a, (![0, 1, 0] : Fin 3 → Nat) a + S1x1x512.size a ≤ S4x2x512.size a
  hamt_3 : (3#32 : BitVec 32).msb = false
  inb_S3_S1_0 : ∀ a, (![0] : Fin 1 → Nat) a + S1.size a ≤ S3.size a
  squeezes_S1_S_ : S1.Squeezes S_
  inb_S4x2x512_S1x2x512_3_0_0 : ∀ a, (![3, 0, 0] : Fin 3 → Nat) a + S1x2x512.size a ≤ S4x2x512.size a
  squeezes_S1x2x512_S2x512 : S1x2x512.Squeezes S2x512
  inb_S4x2x512_S1x2x512_0_0_0 : ∀ a, (![0, 0, 0] : Fin 3 → Nat) a + S1x2x512.size a ≤ S4x2x512.size a
  inb_S3_S1_1 : ∀ a, (![1] : Fin 1 → Nat) a + S1.size a ≤ S3.size a
  inb_S4x2x512_S1x2x512_2_0_0 : ∀ a, (![2, 0, 0] : Fin 3 → Nat) a + S1x2x512.size a ≤ S4x2x512.size a
  inb_S3_S1_2 : ∀ a, (![2] : Fin 1 → Nat) a + S1.size a ≤ S3.size a
  inb_S4x2x512_S1x2x512_1_0_0 : ∀ a, (![1, 0, 0] : Fin 3 → Nat) a + S1x2x512.size a ≤ S4x2x512.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  h_S1x2x512 : 0 < S1x2x512.numel
  shapeCasts_S1x2x512_S2x512 : S1x2x512.ShapeCasts S2x512
  slices_S2x512_o0_0_S1x512 : S2x512.Slices ![0, 0] S1x512
  shapeCasts_S1x512_S512 : S1x512.ShapeCasts S512
  slices_S2x512_o1_0_S1x512 : S2x512.Slices ![1, 0] S1x512
  shapeCasts_S512_S512x1 : S512.ShapeCasts S512x1
  broadcasts_S512x1_S512x256 : S512x1.Broadcasts S512x256
  broadcasts_S1x256_S512x256 : S1x256.Broadcasts S512x256
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  hcc0_scratch1 : 4 + S3.numel ≤ 10
  hcc0_scratch2 : 7 + S3.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch1 : DmaSems sig S3 := SemArray.consecutive 4 S3 hcc0_scratch1
abbrev cc0_scratch2 : DmaSems sig S3 := SemArray.consecutive 7 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .i32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x1024, .f32⟩
  | .hbm, ⟨34, _⟩ => ⟨S512x1024, .f32⟩
  | .hbm, ⟨35, _⟩ => ⟨S1x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1024, .f32⟩
  | .hbm, ⟨43, _⟩ => ⟨S512x1024, .f32⟩
  | .hbm, ⟨44, _⟩ => ⟨S1x1024, .f32⟩
  | .hbm, ⟨45, _⟩ => ⟨S512x1024, .f32⟩
  | .hbm, ⟨46, _⟩ => ⟨S512x1024, .f32⟩
  | .hbm, ⟨47, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S512x1024_S512_d1 : S512x1024.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bitsLt_bf16_f32 : FTy.bits .bf16 < FTy.bits .f32

variable [Facts₀]

class Facts : Prop extends Facts₀ where

variable [Facts]
-- ==== Proof.Vals.lean ====
/-
  What a device of the mesh computes, as pure functions of the arrays it and its three peers hold.

  Each device owns one block of 256 columns of the 512 x 1024 input. From its block it makes a SLAB of statistics,
  2 x 512: for every row the sum of the block's entries and the sum of their squares. Every device sends its slab to
  the three others; slot k of a device's 4 x 2 x 512 scratch ends up holding the slab of the device k places further
  round the ring (slot 0 its own). The result block is then a function of the device's own input block, its blocks of
  the scale and shift vectors, and the four slabs.
-/
import proofs.«900543_g7700000000000544_dist_layernorm_colshard_i_m512_n256_v7x_i4_bf16_1_alg».proof.Proof.Gen.KernelIdeal.Skeleton
import Idealize.ShloMosaic.Lib.ValueIdx

noncomputable section

namespace Cert.KernelIdeal.Vals

open Cert.KernelIdeal Cert.KernelIdeal.Gen
open Idealize.ShloMosaic Idealize.ShloMosaic.ValueIdx

variable {F : FTy → Type} [FloatOps F]

/-- The device `k` places after `c` round the ring of four. -/
def rot (c : Dev nD) (k : Nat) : Dev nD := ⟨(c.val + k) % 4, Nat.mod_lt _ (by decide)⟩

/-- One device's statistics of its block `x`: plane 0 the row sums, plane 1 the row sums of squares. -/
def slab (x : Vec F S512x256 .f32) : Vec F S1x2x512 .f32 := fun i =>
  if (i 1).val = 0 then k0_pay2 x (ix3 (0 : Fin 1) (0 : Fin 1) (i 2)) else k0_pay3 x (ix3 (0 : Fin 1) (0 : Fin 1) (i 2))

/-- The result block from the device's own blocks and the four slabs in scratch order. -/
def kout (x : Vec F S512x256 .f32) (g b : Vec F S256 .f32) (s0 s1 s2 s3 : Vec F S1x2x512 .f32) : Vec F S512x256 .bf16 :=
  k0_pay7 (k0_pay1 x) (k0_pay4 g) (k0_pay5 b) (k0_pay6 s0 s1) s2 s3

/-- Device `c`'s result block when device `d` holds the blocks `xs d`, `gs d`, `bs d`. -/
def outAt (xs : Dev nD → Vec F S512x256 .f32) (gs bs : Dev nD → Vec F S256 .f32) (c : Dev nD) : Vec F S512x256 .bf16 :=
  kout (xs c) (gs c) (bs c) (slab (xs c)) (slab (xs (rot c 1))) (slab (xs (rot c 2))) (slab (xs (rot c 3)))

end Cert.KernelIdeal.Vals

end
-- ==== Proof.Proto.Cells.lean ====
/-
  The ring of four devices and what each holds.

  Device c signals each of the three others' barrier semaphore once and waits for three units on its own; then it sends its
  slab of statistics (slot 0 of its 4 x 2 x 512 scratch) to the device k places further on, k = 1, 2, 3, where it lands in
  slot 4 - k; the k-th transfer has a send semaphore on the sender and a receive semaphore on the receiver of its own.
  So slot s of device c ends up holding the slab of the device s places further round the ring: `scr c` below is the whole
  scratch in that final state, and every statement about a slot's contents is a statement about `scr c` on that slot.
-/
import proofs.«900543_g7700000000000544_dist_layernorm_colshard_i_m512_n256_v7x_i4_bf16_1_alg».proof.Proof.Vals
import proofs.«900543_g7700000000000544_dist_layernorm_colshard_i_m512_n256_v7x_i4_bf16_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem rot_rot (c : Dev nD) (a b : Nat) : rot (rot c a) b = rot c (a + b) := by
  unfold rot; exact Fin.ext (by simp only []; omega)
theorem rot_four (c : Dev nD) : rot c 4 = c := by revert c; decide
theorem rot_zero (c : Dev nD) : rot c 0 = c := by revert c; decide

/-- The kernel's `device_id` chains: signal k and transfer k name the device k places further on. -/
theorem k0_dev1_eq (c : Dev nD) : k0_dev1 c = (rot c 1).val := by revert c; decide +kernel
theorem k0_dev2_eq (c : Dev nD) : k0_dev2 c = (rot c 2).val := by revert c; decide +kernel
theorem k0_dev3_eq (c : Dev nD) : k0_dev3 c = (rot c 3).val := by revert c; decide +kernel
theorem k0_dev4_eq (c : Dev nD) : k0_dev4 c = (rot c 1).val := by revert c; decide +kernel
theorem k0_dev5_eq (c : Dev nD) : k0_dev5 c = (rot c 2).val := by revert c; decide +kernel
theorem k0_dev6_eq (c : Dev nD) : k0_dev6 c = (rot c 3).val := by revert c; decide +kernel
theorem dev1_eq (c : Dev nD) : (⟨k0_dev1 c, k0_dev1_lt c⟩ : Dev nD) = rot c 1 := Fin.ext (k0_dev1_eq c)
theorem dev2_eq (c : Dev nD) : (⟨k0_dev2 c, k0_dev2_lt c⟩ : Dev nD) = rot c 2 := Fin.ext (k0_dev2_eq c)
theorem dev3_eq (c : Dev nD) : (⟨k0_dev3 c, k0_dev3_lt c⟩ : Dev nD) = rot c 3 := Fin.ext (k0_dev3_eq c)
theorem dev4_eq (c : Dev nD) : (⟨k0_dev4 c, k0_dev4_lt c⟩ : Dev nD) = rot c 1 := Fin.ext (k0_dev4_eq c)
theorem dev5_eq (c : Dev nD) : (⟨k0_dev5 c, k0_dev5_lt c⟩ : Dev nD) = rot c 2 := Fin.ext (k0_dev5_eq c)
theorem dev6_eq (c : Dev nD) : (⟨k0_dev6 c, k0_dev6_lt c⟩ : Dev nD) = rot c 3 := Fin.ext (k0_dev6_eq c)

/-! ## The memrefs and cells -/

abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .bf16 := Memref.whole cc0_stg3_0
abbrev rM : Memref sig .tc .vmem S4x2x512 .f32 := Memref.whole cc0_scratch0

/-- Slot s of the scratch as the 2 x 512 memref the transfers go through. -/
abbrev slot0 : Memref sig .tc .vmem S2x512 .f32 :=
  ((rM.slice (Rect.unit (s := S4x2x512) ![0, 0, 0] S1x2x512.size inb_S4x2x512_S1x2x512_0_0_0) (fun _ => rfl)).squeeze S2x512 squeezes_S1x2x512_S2x512)
abbrev slot1 : Memref sig .tc .vmem S2x512 .f32 :=
  ((rM.slice (Rect.unit (s := S4x2x512) ![1, 0, 0] S1x2x512.size inb_S4x2x512_S1x2x512_1_0_0) (fun _ => rfl)).squeeze S2x512 squeezes_S1x2x512_S2x512)
abbrev slot2 : Memref sig .tc .vmem S2x512 .f32 :=
  ((rM.slice (Rect.unit (s := S4x2x512) ![2, 0, 0] S1x2x512.size inb_S4x2x512_S1x2x512_2_0_0) (fun _ => rfl)).squeeze S2x512 squeezes_S1x2x512_S2x512)
abbrev slot3 : Memref sig .tc .vmem S2x512 .f32 :=
  ((rM.slice (Rect.unit (s := S4x2x512) ![3, 0, 0] S1x2x512.size inb_S4x2x512_S1x2x512_3_0_0) (fun _ => rfl)).squeeze S2x512 squeezes_S1x2x512_S2x512)

/-- The runtime's barrier semaphore of collective id 0 (unscoped); the three send and three receive DMA semaphores. -/
abbrev barS : Sem sig := (SemArray.scalar (sig.barrier 0 rfl) : Sems sig S_).sem
abbrev sendS (j : Fin 3) : DmaSem sig := ⟨4 + j.val, by have := j.isLt; show 4 + j.val < 10; omega⟩
abbrev recvS (j : Fin 3) : DmaSem sig := ⟨7 + j.val, by have := j.isLt; show 7 + j.val < 10; omega⟩

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

example : ((cc0_scratch1.slice (Rect.unit (s := S3) ![0] S1.size inb_S3_S1_0)).squeeze S_ squeezes_S1_S_).sem = sendS 0 := by rfl
example : ((cc0_scratch2.slice (Rect.unit (s := S3) ![2] S1.size inb_S3_S1_2)).squeeze S_ squeezes_S1_S_).sem = recvS 2 := by rfl

abbrev N : ℕ := (slot0 : Memref sig .tc .vmem S2x512 .f32).view.dmaCredit
theorem N_pos : 0 < N := View.dmaCredit_pos _ (by decide)

/-! ## Rectangles the body accesses -/

abbrev rx : Rect S512x256 := Rect.unit (s := S512x256) ![0, 0] S512x256.size inb_S512x256_S512x256_0_0
abbrev rv : Rect S256 := Rect.unit (s := S256) ![0] S256.size inb_S256_S256_0
abbrev r00 : Rect S4x2x512 := Rect.unit (s := S4x2x512) ![0, 0, 0] S1x1x512.size inb_S4x2x512_S1x1x512_0_0_0
abbrev r01 : Rect S4x2x512 := Rect.unit (s := S4x2x512) ![0, 1, 0] S1x1x512.size inb_S4x2x512_S1x1x512_0_1_0
abbrev rs0 : Rect S4x2x512 := Rect.unit (s := S4x2x512) ![0, 0, 0] S1x2x512.size inb_S4x2x512_S1x2x512_0_0_0
abbrev rs1 : Rect S4x2x512 := Rect.unit (s := S4x2x512) ![1, 0, 0] S1x2x512.size inb_S4x2x512_S1x2x512_1_0_0
abbrev rs2 : Rect S4x2x512 := Rect.unit (s := S4x2x512) ![2, 0, 0] S1x2x512.size inb_S4x2x512_S1x2x512_2_0_0
abbrev rs3 : Rect S4x2x512 := Rect.unit (s := S4x2x512) ![3, 0, 0] S1x2x512.size inb_S4x2x512_S1x2x512_3_0_0

/-! ## Contents -/

/-- What the three input staging buffers of device `c` hold when the body runs: its blocks, as launched. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))
def bstg (c : Dev nD) : (cc0_stg2_0 : Ref sig .tc).ty.Contents (Elt F) :=
  (win0_2.blk (0 : Fin 1)).view.read (Elt F) (m ((c : Thread nD τ).loc main_arg2))

/-- The scratch of device `c` in its final state: slot s holds the slab of the device s places further round the ring. -/
def scr (c : Dev nD) : (cc0_scratch0 : Ref sig .tc).ty.Contents (Elt F) := fun i =>
  slab (xstg m (rot c (i 0).val)) (ValueIdx.ix3 (0 : Fin 1) (i 1) (i 2))

/-- The result block device `c` stores. -/
def outv (c : Dev nD) : (cc0_stg3_0 : Ref sig .tc).ty.Contents (Elt F) :=
  kout (xstg m c) (gstg m c) (bstg m c) (slab (xstg m c)) (slab (xstg m (rot c 1))) (slab (xstg m (rot c 2))) (slab (xstg m (rot c 3)))

omit [FloatOps F] in
theorem xstg_eq (c : Dev nD) : xstg m c = m ((c : Thread nD τ).loc main_arg0) := by
  unfold xstg
  exact Memref.read_access_unit_zero (Elt F) main_arg0 (off := fun a => win0_0.index (0 : Fin 1) a * win0_0.size a)
    (funext fun a => Nat.zero_mul _) _ _
omit [FloatOps F] in
theorem gstg_eq (c : Dev nD) : gstg m c = m ((c : Thread nD τ).loc main_arg1) := by
  unfold gstg
  exact Memref.read_access_unit_zero (Elt F) main_arg1 (off := fun a => win0_1.index (0 : Fin 1) a * win0_1.size a)
    (funext fun a => Nat.zero_mul _) _ _
omit [FloatOps F] in
theorem bstg_eq (c : Dev nD) : bstg m c = m ((c : Thread nD τ).loc main_arg2) := by
  unfold bstg
  exact Memref.read_access_unit_zero (Elt F) main_arg2 (off := fun a => win0_2.index (0 : Fin 1) a * win0_2.size a)
    (funext fun a => Nat.zero_mul _) _ _

/-- The result block is `outAt` of the three argument arrays as launched. -/
theorem outv_eq (c : Dev nD) :
    outv m c = outAt (fun d => m ((d : Thread nD τ).loc main_arg0)) (fun d => m ((d : Thread nD τ).loc main_arg1)) (fun d => m ((d : Thread nD τ).loc main_arg2)) c := by
  unfold outv outAt; simp only [xstg_eq, gstg_eq, bstg_eq]

/-! ## Points-to of a slot -/

/-- Share `q` of the elements of slot `s` (one of `slot0` … `slot3`) of device `c`'s scratch, at contents `f` (a valuation of the
    whole scratch, read on the slot only). -/
abbrev slotPts (s : Memref sig .tc .vmem S2x512 .f32) (c : Dev nD) (q : PosShare TreeShare) (f : Buf (Elt F) (s.view.loc (c : Thread nD τ))) : sProp 𝕄 :=
  s.view.loc (c : Thread nD τ) ↦[s.view.set]{q} f

/-! ### The slots' element sets

Slot s is the rectangle of the scratch at first coordinate s, whole on the two other axes: an index lies in it exactly when
its first coordinate is s. -/

/-- An index of the scratch lies in the rectangle 1 x 2 x 512 at offset (s, 0, 0) exactly when its first coordinate is s:
    the two other axes are covered whole. -/
theorem mem_rs (s : Nat) (inb : ∀ a, (![s, 0, 0] : Fin 3 → Nat) a + S1x2x512.size a ≤ S4x2x512.size a) (i : S4x2x512.Idx) :
    i ∈ (Rect.unit (s := S4x2x512) ![s, 0, 0] S1x2x512.size inb).set ↔ (i 0).val = s := by
  rw [Rect.mem_set_unit]
  constructor
  · intro h
    have h0 := h (0 : Fin 3)
    have e1 : (![s, 0, 0] : Fin 3 → Nat) 0 = s := rfl
    have e2 : S1x2x512.size (0 : Fin 3) = 1 := rfl
    rw [e1, e2] at h0
    omega
  · intro h a
    match a with
    | ⟨0, _⟩ =>
      show s ≤ (i 0).val ∧ (i 0).val < s + 1
      omega
    | ⟨1, _⟩ =>
      show 0 ≤ (i 1).val ∧ (i 1).val < 0 + 2
      have h2 : (i 1).val < 2 := (i 1).isLt
      omega
    | ⟨2, _⟩ =>
      show 0 ≤ (i 2).val ∧ (i 2).val < 0 + 512
      have h2 : (i 2).val < 512 := (i 2).isLt
      omega

/-- Dropping the unit axis keeps a slot's elements: they are its rectangle's. -/
theorem slot0_set : (slot0 : Memref sig .tc .vmem S2x512 .f32).view.set = rs0.set := by
  simp only [Memref.view_squeeze, Memref.view_slice, Memref.view_whole, View.set_reshape, View.set_slice_whole]
theorem slot1_set : (slot1 : Memref sig .tc .vmem S2x512 .f32).view.set = rs1.set := by
  simp only [Memref.view_squeeze, Memref.view_slice, Memref.view_whole, View.set_reshape, View.set_slice_whole]
theorem slot2_set : (slot2 : Memref sig .tc .vmem S2x512 .f32).view.set = rs2.set := by
  simp only [Memref.view_squeeze, Memref.view_slice, Memref.view_whole, View.set_reshape, View.set_slice_whole]
theorem slot3_set : (slot3 : Memref sig .tc .vmem S2x512 .f32).view.set = rs3.set := by
  simp only [Memref.view_squeeze, Memref.view_slice, Memref.view_whole, View.set_reshape, View.set_slice_whole]

theorem mem_slot0 (i : S4x2x512.Idx) : i ∈ (slot0 : Memref sig .tc .vmem S2x512 .f32).view.set ↔ (i 0).val = 0 := by
  rw [slot0_set]; exact mem_rs 0 _ i
theorem mem_slot1 (i : S4x2x512.Idx) : i ∈ (slot1 : Memref sig .tc .vmem S2x512 .f32).view.set ↔ (i 0).val = 1 := by
  rw [slot1_set]; exact mem_rs 1 _ i
theorem mem_slot2 (i : S4x2x512.Idx) : i ∈ (slot2 : Memref sig .tc .vmem S2x512 .f32).view.set ↔ (i 0).val = 2 := by
  rw [slot2_set]; exact mem_rs 2 _ i
theorem mem_slot3 (i : S4x2x512.Idx) : i ∈ (slot3 : Memref sig .tc .vmem S2x512 .f32).view.set ↔ (i 0).val = 3 := by
  rw [slot3_set]; exact mem_rs 3 _ i

omit [FloatOps F] in
/-- The whole scratch is its four slots. -/
theorem scratch_split (c : Dev nD) (f : Buf (Elt F) ((c : Thread nD τ).loc cc0_scratch0)) :
    ((((c : Thread nD τ).loc cc0_scratch0) ↦{fullShare} f : sProp 𝕄))
      ⊣⊢ iprop(slotPts slot0 c fullShare f ∗ slotPts slot1 c fullShare f ∗ slotPts slot2 c fullShare f ∗ slotPts slot3 c fullShare f) := by
  -- every index has first coordinate 0, 1, 2 or 3: the four slots cover the scratch
  have hU : (Finset.univ : Finset S4x2x512.Idx) = (slot0 : Memref sig .tc .vmem S2x512 .f32).view.set ∪ ((slot1 : Memref sig .tc .vmem S2x512 .f32).view.set ∪ ((slot2 : Memref sig .tc .vmem S2x512 .f32).view.set ∪ (slot3 : Memref sig .tc .vmem S2x512 .f32).view.set)) := by
    ext i
    refine ⟨fun _ => ?_, fun _ => Finset.mem_univ _⟩
    have h4 : (i 0).val < 4 := (i 0).isLt
    rcases (by omega : (i 0).val = 0 ∨ (i 0).val = 1 ∨ (i 0).val = 2 ∨ (i 0).val = 3) with h | h | h | h
    · exact Finset.mem_union_left _ ((mem_slot0 i).mpr h)
    · exact Finset.mem_union_right _ (Finset.mem_union_left _ ((mem_slot1 i).mpr h))
    · exact Finset.mem_union_right _ (Finset.mem_union_right _ (Finset.mem_union_left _ ((mem_slot2 i).mpr h)))
    · exact Finset.mem_union_right _ (Finset.mem_union_right _ (Finset.mem_union_right _ ((mem_slot3 i).mpr h)))
  -- and slots at different first coordinates share no index
  have d0 : Disjoint (slot0 : Memref sig .tc .vmem S2x512 .f32).view.set ((slot1 : Memref sig .tc .vmem S2x512 .f32).view.set ∪ ((slot2 : Memref sig .tc .vmem S2x512 .f32).view.set ∪ (slot3 : Memref sig .tc .vmem S2x512 .f32).view.set)) := by
    rw [Finset.disjoint_left]
    intro i h0 h
    have e0 := (mem_slot0 i).mp h0
    rcases Finset.mem_union.mp h with h | h
    · have := (mem_slot1 i).mp h; omega
    · rcases Finset.mem_union.mp h with h | h
      · have := (mem_slot2 i).mp h; omega
      · have := (mem_slot3 i).mp h; omega
  have d1 : Disjoint (slot1 : Memref sig .tc .vmem S2x512 .f32).view.set ((slot2 : Memref sig .tc .vmem S2x512 .f32).view.set ∪ (slot3 : Memref sig .tc .vmem S2x512 .f32).view.set) := by
    rw [Finset.disjoint_left]
    intro i h0 h
    have e0 := (mem_slot1 i).mp h0
    rcases Finset.mem_union.mp h with h | h
    · have := (mem_slot2 i).mp h; omega
    · have := (mem_slot3 i).mp h; omega
  have d2 : Disjoint (slot2 : Memref sig .tc .vmem S2x512 .f32).view.set (slot3 : Memref sig .tc .vmem S2x512 .f32).view.set := by
    rw [Finset.disjoint_left]
    intro i h0 h
    have e0 := (mem_slot2 i).mp h0
    have := (mem_slot3 i).mp h; omega
  refine (BIBase.BiEntails.of_eq (congrArg (fun S => (pointsTo ((c : Thread nD τ).loc cc0_scratch0) S fullShare f : sProp 𝕄)) hU)).trans ?_
  refine (pointsTo_union d0).trans (sep_congr_right ?_)
  refine (pointsTo_union d1).trans (sep_congr_right ?_)
  exact pointsTo_union d2

/-! ## The view facts the body needs -/

section ViewFacts
variable (c : Dev nD)

/-- The whole scratch's view places every index at itself. -/
theorem rM_setOn (M : Finset S4x2x512.Idx) : (rM : Memref sig .tc .vmem S4x2x512 .f32).view.setOn M = M := by
  show M.map (Function.Embedding.refl _) = M
  exact Finset.map_refl

/-- A store through a rectangle of the whole scratch touches the rectangle's indices. -/
theorem access_setOn_univ (r : Rect S4x2x512) : ((rM : Memref sig .tc .vmem S4x2x512 .f32).access r).setOn Finset.univ = r.set := by
  show ((View.whole cc0_scratch0).slice r).set = r.set
  exact View.set_slice_whole cc0_scratch0 r

/-- A row of slot 0 (plane a, all 512 columns) lies in slot 0's rectangle: its first coordinate is 0. -/
theorem row_sub_rs0 (a : Nat) (inb : ∀ k, (![0, a, 0] : Fin 3 → Nat) k + S1x1x512.size k ≤ S4x2x512.size k) :
    (Rect.unit (s := S4x2x512) ![0, a, 0] S1x1x512.size inb).set ⊆ rs0.set := by
  intro i hi
  have h0 : (0 : ℕ) ≤ (i 0).val ∧ (i 0).val < 0 + 1 := Rect.mem_set_unit.mp hi (0 : Fin 3)
  exact (mem_rs 0 _ i).mpr (by omega)

omit [FloatOps F] in
theorem sub_r00 : (rM : Memref sig .tc .vmem S4x2x512 .f32).view.setOn r00.toLoadRect.set ⊆ (slot0 : Memref sig .tc .vmem S2x512 .f32).view.set := by
  rw [rM_setOn, slot0_set]; exact row_sub_rs0 0 _
omit [FloatOps F] in
theorem sub_r01 : (rM : Memref sig .tc .vmem S4x2x512 .f32).view.setOn r01.toLoadRect.set ⊆ (slot0 : Memref sig .tc .vmem S2x512 .f32).view.set := by
  rw [rM_setOn, slot0_set]; exact row_sub_rs0 1 _
omit [FloatOps F] in
theorem sub_w00 : ((rM : Memref sig .tc .vmem S4x2x512 .f32).access r00).setOn Finset.univ ⊆ (slot0 : Memref sig .tc .vmem S2x512 .f32).view.set := by
  rw [access_setOn_univ, slot0_set]; exact row_sub_rs0 0 _
omit [FloatOps F] in
theorem sub_w01 : ((rM : Memref sig .tc .vmem S4x2x512 .f32).access r01).setOn Finset.univ ⊆ (slot0 : Memref sig .tc .vmem S2x512 .f32).view.set := by
  rw [access_setOn_univ, slot0_set]; exact row_sub_rs0 1 _
omit [FloatOps F] in
theorem sub_rs0 : (rM : Memref sig .tc .vmem S4x2x512 .f32).view.setOn rs0.toLoadRect.set ⊆ (slot0 : Memref sig .tc .vmem S2x512 .f32).view.set := by
  rw [rM_setOn, slot0_set]
omit [FloatOps F] in
theorem sub_rs1 : (rM : Memref sig .tc .vmem S4x2x512 .f32).view.setOn rs1.toLoadRect.set ⊆ (slot1 : Memref sig .tc .vmem S2x512 .f32).view.set := by
  rw [rM_setOn, slot1_set]
omit [FloatOps F] in
theorem sub_rs2 : (rM : Memref sig .tc .vmem S4x2x512 .f32).view.setOn rs2.toLoadRect.set ⊆ (slot2 : Memref sig .tc .vmem S2x512 .f32).view.set := by
  rw [rM_setOn, slot2_set]
omit [FloatOps F] in
theorem sub_rs3 : (rM : Memref sig .tc .vmem S4x2x512 .f32).view.setOn rs3.toLoadRect.set ⊆ (slot3 : Memref sig .tc .vmem S2x512 .f32).view.set := by
  rw [rM_setOn, slot3_set]

/-! ### Contents at an index

A slab's entry depends on its plane and its row only; slot s of the scratch puts its index (a, r) at (s, a, r). With these two
facts every statement about a slot's contents is an equation between entries of slabs. -/

/-- Entry (plane a, row r) of a device's slab: plane 0 the row sums, any other plane the row sums of squares. -/
def slabAt (x : Vec F S512x256 .f32) (a : ℕ) (r : Fin 512) : F .f32 :=
  if a = 0 then k0_pay2 x (ValueIdx.ix3 (0 : Fin 1) (0 : Fin 1) r) else k0_pay3 x (ValueIdx.ix3 (0 : Fin 1) (0 : Fin 1) r)

theorem slab_apply (x : Vec F S512x256 .f32) (i : S1x2x512.Idx) : slab x i = slabAt x (i 1).val (i 2) := rfl

theorem scr_apply (c : Dev nD) (i : S4x2x512.Idx) : scr m c i = slabAt (xstg m (rot c (i 0).val)) (i 1).val (i 2) := rfl

/-- The 2 x 512 view of the slot at first coordinate s. -/
abbrev slotV (s : Nat) (inb : ∀ a, (![s, 0, 0] : Fin 3 → Nat) a + S1x2x512.size a ≤ S4x2x512.size a) : View sig .tc .vmem S2x512 .f32 :=
  (((rM : Memref sig .tc .vmem S4x2x512 .f32).slice (Rect.unit (s := S4x2x512) ![s, 0, 0] S1x2x512.size inb) (fun _ => rfl)).squeeze S2x512 squeezes_S1x2x512_S2x512).view

/-- Slot s puts its index (a, r) at (s, a, r) of the scratch. -/
theorem slotV_emb (s : Nat) (inb : ∀ a, (![s, 0, 0] : Fin 3 → Nat) a + S1x2x512.size a ≤ S4x2x512.size a) (z : S2x512.Idx) :
    (((slotV s inb).emb z : S4x2x512.Idx) 0).val = s ∧ (((slotV s inb).emb z : S4x2x512.Idx) 1).val = (z 0).val
      ∧ (((slotV s inb).emb z : S4x2x512.Idx) 2).val = (z 1).val := by
  have e : ((slotV s inb).emb z : S4x2x512.Idx) = (Rect.unit (s := S4x2x512) ![s, 0, 0] S1x2x512.size inb).emb (Fin.cons ⟨0, Nat.one_pos⟩ z) :=
    congrArg (Rect.unit (s := S4x2x512) ![s, 0, 0] S1x2x512.size inb).emb
      (Shape.reshapeEquiv_cons_one (n := 2) (d := ![2, 512]) squeezes_S1x2x512_S2x512.numel_eq z)
  rw [e]
  refine ⟨?_, ?_, ?_⟩
  · show s + 1 * 0 = s; omega
  · show 0 + 1 * (z 0).val = (z 0).val; omega
  · show 0 + 1 * (z 1).val = (z 1).val; omega

omit [FloatOps F] in
theorem slotV_read (s : Nat) (inb : ∀ a, (![s, 0, 0] : Fin 3 → Nat) a + S1x2x512.size a ≤ S4x2x512.size a)
    (f : (cc0_scratch0 : Ref sig .tc).ty.Contents (Elt F)) (z : S2x512.Idx) :
    (slotV s inb).read (Elt F) f z = f ((slotV s inb).emb z) := by
  rw [View.read_apply]; exact cast_eq _ _

omit [FloatOps F] in
theorem slotV_write_emb (s : Nat) (inb : ∀ a, (![s, 0, 0] : Fin 3 → Nat) a + S1x2x512.size a ≤ S4x2x512.size a)
    (f : (cc0_scratch0 : Ref sig .tc).ty.Contents (Elt F)) (w : S2x512.Idx → F .f32) (z : S2x512.Idx) :
    (slotV s inb).write (Elt F) f w Finset.univ ((slotV s inb).emb z) = w z := by
  rw [View.write_emb_of_mem _ _ (Finset.mem_univ z)]; exact cast_eq _ _

/-- Every element of slot s is the image of its last two coordinates. -/
theorem eq_slotV_emb (s : Nat) (inb : ∀ a, (![s, 0, 0] : Fin 3 → Nat) a + S1x2x512.size a ≤ S4x2x512.size a)
    (i : S4x2x512.Idx) (h0 : (i 0).val = s) :
    i = (slotV s inb).emb (ValueIdx.ix2 (i 1 : Fin 2) (i 2 : Fin 512)) := by
  obtain ⟨e0, e1, e2⟩ := slotV_emb s inb (ValueIdx.ix2 (i 1 : Fin 2) (i 2 : Fin 512))
  funext k
  match k with
  | ⟨0, _⟩ => exact Fin.ext (h0.trans e0.symm)
  | ⟨1, _⟩ => exact Fin.ext e1.symm
  | ⟨2, _⟩ => exact Fin.ext e2.symm

/-- What slot 0 of a sender holding its own slab reads, written into slot s of a receiver whose s-th successor is the sender,
    is the receiver's final contents on slot s. -/
theorem landing_gen (s : Nat) (inb : ∀ a, (![s, 0, 0] : Fin 3 → Nat) a + S1x2x512.size a ≤ S4x2x512.size a)
    (c d : Dev nD) (hd : rot d s = c)
    (fs : (cc0_scratch0 : Ref sig .tc).ty.Contents (Elt F)) (hfs : ∀ i : S4x2x512.Idx, (i 0).val = 0 → fs i = scr m c i)
    (fd : (cc0_scratch0 : Ref sig .tc).ty.Contents (Elt F)) (i : S4x2x512.Idx) (h0 : (i 0).val = s) :
    ((slotV s inb).write (Elt F) fd ((slotV 0 inb_S4x2x512_S1x2x512_0_0_0).read (Elt F) fs) Finset.univ) i = scr m d i := by
  have hi := eq_slotV_emb s inb i h0
  obtain ⟨a0, a1, a2⟩ := slotV_emb 0 inb_S4x2x512_S1x2x512_0_0_0 (ValueIdx.ix2 (i 1 : Fin 2) (i 2 : Fin 512))
  refine (congrArg ((slotV s inb).write (Elt F) fd ((slotV 0 inb_S4x2x512_S1x2x512_0_0_0).read (Elt F) fs) Finset.univ) hi).trans ?_
  rw [slotV_write_emb, slotV_read, hfs _ a0, scr_apply, scr_apply, a0, a1, h0, hd, rot_zero]
  congr 1
  exact Fin.ext a2

/-- Loading slot s of a scratch that holds its final contents there gives the slab of the device s places further on. -/
theorem read_slot_gen (s : Nat) (inb : ∀ a, (![s, 0, 0] : Fin 3 → Nat) a + S1x2x512.size a ≤ S4x2x512.size a)
    (c : Dev nD) (f : (cc0_scratch0 : Ref sig .tc).ty.Contents (Elt F)) (hf : ∀ i : S4x2x512.Idx, (i 0).val = s → f i = scr m c i) :
    (rM : Memref sig .tc .vmem S4x2x512 .f32).view.readAt (Elt F) (Rect.unit (s := S4x2x512) ![s, 0, 0] S1x2x512.size inb).toLoadRect f
      = slab (xstg m (rot c s)) := by
  funext x
  show f ((Rect.unit (s := S4x2x512) ![s, 0, 0] S1x2x512.size inb).toLoadRect.idx x) = _
  have h0 : (((Rect.unit (s := S4x2x512) ![s, 0, 0] S1x2x512.size inb).toLoadRect.idx x : S4x2x512.Idx) 0).val = s := by
    show s + 1 * (x 0).val = s
    have : (x 0).val < 1 := (x 0).isLt
    omega
  rw [hf _ h0, scr_apply, slab_apply, h0]
  congr 1
  · show 0 + 1 * (x 1).val = (x 1).val; omega
  · apply Fin.ext; show 0 + 1 * (x 2).val = (x 2).val; omega

omit [FloatOps F] in
/-- A store through the row rectangle (plane a of slot 0) leaves its payload at the row's elements, -/
theorem row_write_hit (a : Nat) (inb : ∀ k, (![0, a, 0] : Fin 3 → Nat) k + S1x1x512.size k ≤ S4x2x512.size k)
    (g : (cc0_scratch0 : Ref sig .tc).ty.Contents (Elt F)) (w : S1x1x512.Idx → F .f32) (y : S1x1x512.Idx) :
    (((rM : Memref sig .tc .vmem S4x2x512 .f32).access (Rect.unit (s := S4x2x512) ![0, a, 0] S1x1x512.size inb) : View sig .tc _ _ _).write (Elt F) g w Finset.univ)
      (((rM : Memref sig .tc .vmem S4x2x512 .f32).access (Rect.unit (s := S4x2x512) ![0, a, 0] S1x1x512.size inb) : View sig .tc _ _ _).emb y) = w y := by
  rw [View.write_emb_of_mem _ _ (Finset.mem_univ y)]; exact cast_eq _ _

omit [FloatOps F] in
/-- and every element of another plane as it was. -/
theorem row_write_miss (a : Nat) (inb : ∀ k, (![0, a, 0] : Fin 3 → Nat) k + S1x1x512.size k ≤ S4x2x512.size k)
    (g : (cc0_scratch0 : Ref sig .tc).ty.Contents (Elt F)) (w : S1x1x512.Idx → F .f32) (i : S4x2x512.Idx) (h : (i 1).val ≠ a) :
    (((rM : Memref sig .tc .vmem S4x2x512 .f32).access (Rect.unit (s := S4x2x512) ![0, a, 0] S1x1x512.size inb) : View sig .tc _ _ _).write (Elt F) g w Finset.univ) i = g i := by
  refine View.write_of_not_mem _ _ _ ?_
  rw [access_setOn_univ]
  intro hi
  have h1 : a ≤ (i 1).val ∧ (i 1).val < a + 1 := Rect.mem_set_unit.mp hi (1 : Fin 3)
  omega

/-- An element of slot 0 in plane a is the row rectangle's image of its column. -/
theorem eq_row_emb (a : Nat) (inb : ∀ k, (![0, a, 0] : Fin 3 → Nat) k + S1x1x512.size k ≤ S4x2x512.size k)
    (i : S4x2x512.Idx) (h0 : (i 0).val = 0) (h1 : (i 1).val = a) :
    i = ((rM : Memref sig .tc .vmem S4x2x512 .f32).access (Rect.unit (s := S4x2x512) ![0, a, 0] S1x1x512.size inb) : View sig .tc _ _ _).emb
      (ValueIdx.ix3 (0 : Fin 1) (0 : Fin 1) (i 2 : Fin 512)) := by
  funext k
  match k with
  | ⟨0, _⟩ => exact Fin.ext (show (i 0).val = 0 + 1 * 0 by omega)
  | ⟨1, _⟩ => exact Fin.ext (show (i 1).val = a + 1 * 0 by omega)
  | ⟨2, _⟩ => exact Fin.ext (show (i 2).val = 0 + 1 * (i 2).val by omega)

/-- After the store of the row sums to plane 0 and of the row sums of squares to plane 1, slot 0 holds the device's own slab. -/
theorem stores_gen (c : Dev nD) (f : (cc0_scratch0 : Ref sig .tc).ty.Contents (Elt F)) (i : S4x2x512.Idx) (h0 : (i 0).val = 0) :
    (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ) i = scr m c i := by
  have h2 : (i 1).val < 2 := (i 1).isLt
  rw [scr_apply, h0, rot_zero]
  by_cases h1 : (i 1).val = 0
  · rw [row_write_miss 1 inb_S4x2x512_S1x1x512_0_1_0 _ _ i (by omega)]
    refine (congrArg (((rM : Memref sig .tc .vmem S4x2x512 .f32).access r00 : View sig .tc _ _ _).write (Elt F) f (k0_pay2 (xstg m c)) Finset.univ)
      (eq_row_emb 0 inb_S4x2x512_S1x1x512_0_0_0 i h0 h1)).trans ?_
    rw [row_write_hit 0 inb_S4x2x512_S1x1x512_0_0_0, h1]
    rfl
  · have h1' : (i 1).val = 1 := by omega
    refine (congrArg (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ)
      (eq_row_emb 1 inb_S4x2x512_S1x1x512_0_1_0 i h0 h1')).trans ?_
    rw [row_write_hit 1 inb_S4x2x512_S1x1x512_0_1_0, h1']
    rfl

/-- The two stores of the row sums and the row sums of squares leave slot 0 at the device's own slab. -/
theorem stores_eq (f : Buf (Elt F) ((c : Thread nD τ).loc cc0_scratch0)) :
    ∀ i ∈ (slot0 : Memref sig .tc .vmem S2x512 .f32).view.set,
      (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ) i = scr m c i :=
  fun i hi => stores_gen m c f i ((mem_slot0 i).mp hi)

/-- A slab sent from slot 0 of device `c` lands in slot s of the device 4 - s places further on as that device's final contents. -/
theorem landing1 (fs : Buf (Elt F) ((c : Thread nD τ).loc cc0_scratch0)) (hfs : ∀ i ∈ (slot0 : Memref sig .tc .vmem S2x512 .f32).view.set, fs i = scr m c i)
    (fd : Buf (Elt F) (((rot c 3 : Dev nD) : Thread nD τ).loc cc0_scratch0)) :
    ∀ i ∈ (slot1 : Memref sig .tc .vmem S2x512 .f32).view.set,
      ((slot1 : Memref sig .tc .vmem S2x512 .f32).view.write (Elt F) fd ((slot0 : Memref sig .tc .vmem S2x512 .f32).view.read (Elt F) fs) Finset.univ) i = scr m (rot c 3) i :=
  fun i hi => landing_gen m 1 _ c (rot c 3) ((rot_rot c 3 1).trans (rot_four c)) fs (fun j hj => hfs j ((mem_slot0 j).mpr hj)) fd i ((mem_slot1 i).mp hi)
theorem landing2 (fs : Buf (Elt F) ((c : Thread nD τ).loc cc0_scratch0)) (hfs : ∀ i ∈ (slot0 : Memref sig .tc .vmem S2x512 .f32).view.set, fs i = scr m c i)
    (fd : Buf (Elt F) (((rot c 2 : Dev nD) : Thread nD τ).loc cc0_scratch0)) :
    ∀ i ∈ (slot2 : Memref sig .tc .vmem S2x512 .f32).view.set,
      ((slot2 : Memref sig .tc .vmem S2x512 .f32).view.write (Elt F) fd ((slot0 : Memref sig .tc .vmem S2x512 .f32).view.read (Elt F) fs) Finset.univ) i = scr m (rot c 2) i :=
  fun i hi => landing_gen m 2 _ c (rot c 2) ((rot_rot c 2 2).trans (rot_four c)) fs (fun j hj => hfs j ((mem_slot0 j).mpr hj)) fd i ((mem_slot2 i).mp hi)
theorem landing3 (fs : Buf (Elt F) ((c : Thread nD τ).loc cc0_scratch0)) (hfs : ∀ i ∈ (slot0 : Memref sig .tc .vmem S2x512 .f32).view.set, fs i = scr m c i)
    (fd : Buf (Elt F) (((rot c 1 : Dev nD) : Thread nD τ).loc cc0_scratch0)) :
    ∀ i ∈ (slot3 : Memref sig .tc .vmem S2x512 .f32).view.set,
      ((slot3 : Memref sig .tc .vmem S2x512 .f32).view.write (Elt F) fd ((slot0 : Memref sig .tc .vmem S2x512 .f32).view.read (Elt F) fs) Finset.univ) i = scr m (rot c 1) i :=
  fun i hi => landing_gen m 3 _ c (rot c 1) ((rot_rot c 1 3).trans (rot_four c)) fs (fun j hj => hfs j ((mem_slot0 j).mpr hj)) fd i ((mem_slot3 i).mp hi)

/-- Reading slot s of a scratch that holds its final contents there gives the slab of the device s places further on. -/
theorem read_slot0 (f : Buf (Elt F) ((c : Thread nD τ).loc cc0_scratch0)) (hf : ∀ i ∈ (slot0 : Memref sig .tc .vmem S2x512 .f32).view.set, f i = scr m c i) :
    (rM : Memref sig .tc .vmem S4x2x512 .f32).view.readAt (Elt F) rs0.toLoadRect f = slab (xstg m c) :=
  (read_slot_gen m 0 _ c f (fun i hi => hf i ((mem_slot0 i).mpr hi))).trans (by rw [rot_zero])
theorem read_slot1 (f : Buf (Elt F) ((c : Thread nD τ).loc cc0_scratch0)) (hf : ∀ i ∈ (slot1 : Memref sig .tc .vmem S2x512 .f32).view.set, f i = scr m c i) :
    (rM : Memref sig .tc .vmem S4x2x512 .f32).view.readAt (Elt F) rs1.toLoadRect f = slab (xstg m (rot c 1)) :=
  read_slot_gen m 1 _ c f (fun i hi => hf i ((mem_slot1 i).mpr hi))
theorem read_slot2 (f : Buf (Elt F) ((c : Thread nD τ).loc cc0_scratch0)) (hf : ∀ i ∈ (slot2 : Memref sig .tc .vmem S2x512 .f32).view.set, f i = scr m c i) :
    (rM : Memref sig .tc .vmem S4x2x512 .f32).view.readAt (Elt F) rs2.toLoadRect f = slab (xstg m (rot c 2)) :=
  read_slot_gen m 2 _ c f (fun i hi => hf i ((mem_slot2 i).mpr hi))
theorem read_slot3 (f : Buf (Elt F) ((c : Thread nD τ).loc cc0_scratch0)) (hf : ∀ i ∈ (slot3 : Memref sig .tc .vmem S2x512 .f32).view.set, f i = scr m c i) :
    (rM : Memref sig .tc .vmem S4x2x512 .f32).view.readAt (Elt F) rs3.toLoadRect f = slab (xstg m (rot c 3)) :=
  read_slot_gen m 3 _ c f (fun i hi => hf i ((mem_slot3 i).mpr hi))

/-- The zero offsets of a rank-2 and of a rank-1 rectangle, as constant functions. -/
theorem zeros2 : (![0, 0] : Fin 2 → Nat) = fun _ => 0 := by
  funext a; match a with | ⟨0, _⟩ => rfl | ⟨1, _⟩ => rfl
theorem zeros1 : (![0] : Fin 1 → Nat) = fun _ => 0 := by
  funext a; match a with | ⟨0, _⟩ => rfl

omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 zeros2 _ f
omit [FloatOps F] in
theorem read_g (f : (cc0_stg1_0 : Ref sig .tc).ty.Contents (Elt F)) : (gM : Memref sig .tc .vmem S256 .f32).view.readAt (Elt F) rv.toLoadRect f = f :=
  Memref.readAt_unit_zero (Elt F) cc0_stg1_0 zeros1 _ f
omit [FloatOps F] in
theorem read_b (f : (cc0_stg2_0 : Ref sig .tc).ty.Contents (Elt F)) : (bM : Memref sig .tc .vmem S256 .f32).view.readAt (Elt F) rv.toLoadRect f = f :=
  Memref.readAt_unit_zero (Elt F) cc0_stg2_0 zeros1 _ f
omit [FloatOps F] in
theorem write_out (f w : (cc0_stg3_0 : Ref sig .tc).ty.Contents (Elt F)) :
    ((oM : Memref sig .tc .vmem S512x256 .bf16).access rx : View sig .tc _ _ _).write (Elt F) f w Finset.univ = w :=
  Memref.write_access_unit_zero_univ (Elt F) cc0_stg3_0 zeros2 _ f w

end ViewFacts

end Cert.KernelIdeal.Proto

end
-- ==== Proof.Proto.Sched.lean ====
/-
  The schedule of the ring's semaphores, one round each.

  A device's barrier cell has three duties of one unit, duty k paid by the device whose (k+1)-th signal reaches it, that is
  the device 3 - k places further on; with its unit that device hands over slot k + 1 of its own scratch — the slot the
  owner's transfer to it will land in — and the fact that its receive cell 2 - k is at round 0.
  Send cell j of a device has one duty: the transfer's credit, which returns the share of slot 0 the transfer read.
  Receive cell j of a device has one duty: the credit of the transfer from the device 3 - j places further on, landing
  in slot 3 - j, which returns that slot at its final contents.
-/
import proofs.«900543_g7700000000000544_dist_layernorm_colshard_i_m512_n256_v7x_i4_bf16_1_alg».proof.Proof.Proto.Cells
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shares of slot 0: one per transfer that reads it, one for the device's own loads -/

abbrev qS (j : Fin 3) : PosShare TreeShare :=
  match j with | 0 => fullShare.left.left | 1 => fullShare.left.right | 2 => fullShare.right.left
abbrev qMine : PosShare TreeShare := fullShare.right.right

/-! ## The schedule -/

/-- The slot of the payer's scratch that barrier duty `k` hands over. -/
abbrev slotOfDuty (k : Fin 3) : Memref sig .tc .vmem S2x512 .f32 := match k with | 0 => slot1 | 1 => slot2 | 2 => slot3
/-- The slot transfer `j` lands in, on the receiver. -/
abbrev slotOfRecv (j : Fin 3) : Memref sig .tc .vmem S2x512 .f32 := match j with | 0 => slot3 | 1 => slot2 | 2 => slot1

/-- What the payer of barrier duty `k` of device `c`'s cell — the device 3 - k places on — hands `c`. -/
def barPay (c : Dev nD) (k : Fin 3) : sProp 𝕄 := match k with
  | 0 => iprop((∃ f, slotPts slot1 (rot c 3) fullShare f) ∗ reached ER (recvCell (rot c 3) 2) 0)
  | 1 => iprop((∃ f, slotPts slot2 (rot c 2) fullShare f) ∗ reached ER (recvCell (rot c 2) 1) 0)
  | 2 => iprop((∃ f, slotPts slot3 (rot c 1) fullShare f) ∗ reached ER (recvCell (rot c 1) 0) 0)
/-- What the landing of transfer `j` hands the receiver `c`: the slot at its final contents. -/
def recvPay (c : Dev nD) (j : Fin 3) : sProp 𝕄 := match j with
  | 0 => slotPts slot3 c fullShare (scr m c)
  | 1 => slotPts slot2 c fullShare (scr m c)
  | 2 => slotPts slot1 c fullShare (scr m c)
/-- What the send credit of transfer `j` hands the sender `c` back: the share of slot 0 the transfer read. -/
def sendPay (c : Dev nD) (j : Fin 3) : sProp 𝕄 := slotPts slot0 c (qS j) (scr m c)

abbrev IsBar (g : GSem nD τ sig) : Prop := g.1.2 = .tc ∧ g.2 = .reg barS
abbrev IsXfer (g : GSem nD τ sig) : Prop := g.1.2 = .tc ∧ ∃ j : Fin 3, g.2 = .dma (sendS j) ∨ g.2 = .dma (recvS j)

def ringRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp)
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) m).payload g r d) := by
  show BI.Storable upEmb (if g.2 = .reg barS then barPay g.1.1 d
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp))
  unfold barPay recvPay sendPay
  (repeat' split) <;> infer_instance

theorem barPay_0 (c : Dev nD) : (barPay c 0 : sProp 𝕄) = iprop((∃ f, slotPts slot1 (rot c 3) fullShare f) ∗ reached ER (recvCell (rot c 3) 2) 0) := rfl
theorem barPay_1 (c : Dev nD) : (barPay c 1 : sProp 𝕄) = iprop((∃ f, slotPts slot2 (rot c 2) fullShare f) ∗ reached ER (recvCell (rot c 2) 1) 0) := rfl
theorem barPay_2 (c : Dev nD) : (barPay c 2 : sProp 𝕄) = iprop((∃ f, slotPts slot3 (rot c 1) fullShare f) ∗ reached ER (recvCell (rot c 1) 0) 0) := rfl
theorem recvPay_0 (c : Dev nD) : recvPay m c 0 = slotPts slot3 c fullShare (scr m c) := rfl
theorem recvPay_1 (c : Dev nD) : recvPay m c 1 = slotPts slot2 c fullShare (scr m c) := rfl
theorem recvPay_2 (c : Dev nD) : recvPay m c 2 = slotPts slot1 c fullShare (scr m c) := rfl

section Sched
variable (c : Dev nD) (j : Fin 3)

theorem send_ne_bar : (SemLoc.dma (sendS j) : SemLoc sig) ≠ .reg barS := fun h => by cases h
theorem recv_ne_bar : (SemLoc.dma (recvS j) : SemLoc sig) ≠ .reg barS := fun h => by cases h
theorem send_ne_recv (j' : Fin 3) : (SemLoc.dma (sendS j) : SemLoc sig) ≠ .dma (recvS j') := by revert j j'; decide
theorem recv_ne_send (j' : Fin 3) : (SemLoc.dma (recvS j) : SemLoc sig) ≠ .dma (sendS j') := by revert j j'; decide
theorem send_inj {j j' : Fin 3} (h : (SemLoc.dma (sendS j) : SemLoc sig) = .dma (sendS j')) : j = j' := by revert j j'; decide
theorem recv_inj {j j' : Fin 3} (h : (SemLoc.dma (recvS j) : SemLoc sig) = .dma (recvS j')) : j = j' := by revert j j'; decide
theorem not_bar_send : ¬ IsBar (sendCell c j) := fun h => send_ne_bar j h.2
theorem not_bar_recv : ¬ IsBar (recvCell c j) := fun h => recv_ne_bar j h.2

theorem duties_bar : (ringRd (F := F) m).duties (barCell c) 0 = Finset.univ := by dsimp only [ringRd]; exact if_pos ⟨rfl, rfl, rfl⟩
theorem duties_send : (ringRd (F := F) m).duties (sendCell c j) 0 = {0} := by
  dsimp only [ringRd]; rw [if_neg (fun h => not_bar_send c j h.2)]; exact if_pos ⟨rfl, rfl, j, .inl rfl⟩
theorem duties_recv : (ringRd (F := F) m).duties (recvCell c j) 0 = {0} := by
  dsimp only [ringRd]; rw [if_neg (fun h => not_bar_recv c j h.2)]; exact if_pos ⟨rfl, rfl, j, .inr rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Fin 3) : (ringRd (F := F) m).amount (barCell c) 0 d = 1 := by dsimp only [ringRd]; exact if_pos rfl
theorem amount_send (d : Fin 3) : (ringRd (F := F) m).amount (sendCell c j) 0 d = N := by dsimp only [ringRd]; exact if_neg (send_ne_bar j)
theorem amount_recv (d : Fin 3) : (ringRd (F := F) m).amount (recvCell c j) 0 d = N := by dsimp only [ringRd]; exact if_neg (recv_ne_bar j)

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c j) 0 = N := by
  unfold Schedule.expect Schedule.amountOf; rw [duties_recv, Finset.sum_singleton, amount_recv]

theorem payload_bar (d : Fin 3) : (ringRd (F := F) m).payload (barCell c) 0 d = barPay c d := by dsimp only [ringRd]; rw [if_pos rfl]
theorem payload_send (d : Fin 3) : (ringRd (F := F) m).payload (sendCell c j) 0 d = sendPay m c j := by
  dsimp only [ringRd]; rw [if_neg (send_ne_bar j)]
  match j with
  | 0 => exact if_pos rfl
  | 1 => rw [if_neg (by decide)]; exact if_pos rfl
  | 2 => rw [if_neg (by decide), if_neg (by decide)]; exact if_pos rfl
theorem payload_recv (d : Fin 3) : (ringRd (F := F) m).payload (recvCell c j) 0 d = recvPay m c j := by
  dsimp only [ringRd]; rw [if_neg (recv_ne_bar j)]
  match j with
  | 0 => rw [if_neg (by decide), if_neg (by decide), if_neg (by decide)]; exact if_pos rfl
  | 1 => rw [if_neg (by decide), if_neg (by decide), if_neg (by decide), if_neg (by decide)]; exact if_pos rfl
  | 2 => rw [if_neg (by decide), if_neg (by decide), if_neg (by decide), if_neg (by decide), if_neg (by decide)]; exact if_pos rfl

/-- The whole of the barrier cell's round, no duty taken: the three payers' payloads. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_univ_eq_bigSepL [0, 1, 2] (by decide) (by decide)]
  simp only [payload_bar]
  rfl
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c j) 0 \ ∅) (fun d => (ringRd (F := F) m).payload (recvCell c j) 0 d) = recvPay m c j := by
  rw [Finset.sdiff_empty, duties_recv, bigSep_singleton, payload_recv]

end Sched

end Cert.KernelIdeal.Proto

end
-- ==== Proof.Proto.Levels.lean ====
/-
  What each device owes at launch, and why no wait can deadlock.

  At launch device c owes one unit to each other device's barrier cell and one transfer's credit to one receive cell of
  each other device. Levels: a barrier cell is at 1, a receive cell at 2, everything else (the pipeline's staging cells,
  the send cells) at 0. A wait is allowed at a level below everything the waiter still owes: the staging waits happen
  owing barrier and receive cells (levels 1 and 2) or nothing; the barrier wait happens owing receive cells only; the
  receive and send waits happen owing nothing.
-/
import proofs.«900543_g7700000000000544_dist_layernorm_colshard_i_m512_n256_v7x_i4_bf16_1_alg».proof.Proof.Proto.Sched
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def tR0 (c : Dev nD) : CellTallies nD τ sig Unit := tallyAt (recvCell (rot c 1) 0) () N
def tR1 (c : Dev nD) : CellTallies nD τ sig Unit := tallyAt (recvCell (rot c 2) 1) () N
def tR2 (c : Dev nD) : CellTallies nD τ sig Unit := tallyAt (recvCell (rot c 3) 2) () N
def tB0 (c : Dev nD) : CellTallies nD τ sig Unit := tallyAt (barCell (rot c 1)) () 1
def tB1 (c : Dev nD) : CellTallies nD τ sig Unit := tallyAt (barCell (rot c 2)) () 1
def tB2 (c : Dev nD) : CellTallies nD τ sig Unit := tallyAt (barCell (rot c 3)) () 1

/-- Summed so that each signal and each transfer, in program order, peels the last summand. -/
def OR3 (c : Dev nD) : CellTallies nD τ sig Unit := tR2 c
def OR2 (c : Dev nD) : CellTallies nD τ sig Unit := OR3 c + tR1 c
def OR1 (c : Dev nD) : CellTallies nD τ sig Unit := OR2 c + tR0 c
def OB3 (c : Dev nD) : CellTallies nD τ sig Unit := OR1 c + tB2 c
def OB2 (c : Dev nD) : CellTallies nD τ sig Unit := OB3 c + tB1 c
def O₀ (c : Dev nD) : CellTallies nD τ sig Unit := OB2 c + tB0 c

def L (g : GSem nD τ sig) : Finset Unit := if g.1.2 = .tc then {()} else ∅
def lv (g : GSem nD τ sig) (_ : Unit) : ℕ := if g.2 = .reg barS then 1 else if ∃ j : Fin 3, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) (u : Unit) : lv (barCell d) u = 1 := if_pos rfl
theorem lv_recv (d : Dev nD) (j : Fin 3) (u : Unit) : lv (recvCell d j) u = 2 := by
  unfold lv; rw [if_neg (recv_ne_bar j), if_pos ⟨j, rfl⟩]

theorem tally_pos {g0 g : GSem nD τ sig} {n : ℕ} {u : Unit} (h : 0 < tallyAt g0 () n g u) : g = g0 := by
  rw [tallyAt_apply] at h
  by_contra hn
  rw [if_neg (fun h' => hn h'.1)] at h
  exact Nat.lt_irrefl 0 h

theorem OR1_cases {c : Dev nD} {g : GSem nD τ sig} {u : Unit} (h : 0 < OR1 c g u) : ∃ d j, g = recvCell d j := by
  unfold OR1 OR2 OR3 at h
  rcases Pipeline.add_pos_cases h with h | h
  · rcases Pipeline.add_pos_cases h with h | h
    · exact ⟨_, _, tally_pos h⟩
    · exact ⟨_, _, tally_pos h⟩
  · exact ⟨_, _, tally_pos h⟩

theorem O₀_cases {c : Dev nD} {g : GSem nD τ sig} {u : Unit} (h : 0 < O₀ c g u) : (∃ d, g = barCell d) ∨ (∃ d j, g = recvCell d j) := by
  unfold O₀ OB2 OB3 at h
  rcases Pipeline.add_pos_cases h with h | h
  · rcases Pipeline.add_pos_cases h with h | h
    · rcases Pipeline.add_pos_cases h with h | h
      · exact .inr (OR1_cases h)
      · exact .inl ⟨_, tally_pos h⟩
    · exact .inl ⟨_, tally_pos h⟩
  · exact .inl ⟨_, tally_pos h⟩

omit [FloatOps F] in
/-- A wait on a cell at level 0 (a staging cell, a send cell) while owing everything or nothing. -/
theorem mayWait_low (c : Dev nD) (q : DmaSem sig) (hq : ¬ ∃ j : Fin 3, (SemLoc.dma q : SemLoc sig) = .dma (recvS j)) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), SemLoc.dma q) () = 0 := by
      unfold lv; rw [if_neg (fun h => by cases h), if_neg hq]
    rcases O₀_cases hg with ⟨d, rfl⟩ | ⟨d, j, rfl⟩
    · exact ⟨by rw [L_tc]; exact Finset.mem_singleton_self _, by rw [h0, lv_bar]; decide⟩
    · exact ⟨by rw [L_tc]; exact Finset.mem_singleton_self _, by rw [h0, lv_recv]; decide⟩
  · rw [MayWait_zero]; iintro -; iempintro

omit [FloatOps F] in
/-- At its barrier wait a device owes receive credits only: receive cells lie above barrier cells. -/
theorem mayWait_bar (c : Dev nD) :
    (levAts L lv : sProp 𝕄) ⊢ MayWait (c : Thread nD τ) (.reg barS) () (OR1 c) := by
  refine Pipeline.mayWait_of_levAts (by rw [L_tc]; exact Finset.mem_singleton_self _) fun g i hg => ?_
  obtain ⟨d, j, rfl⟩ := OR1_cases hg
  exact ⟨by rw [L_tc]; exact Finset.mem_singleton_self _, by rw [show lv ((c : Thread nD τ), SemLoc.reg barS) () = 1 from if_pos rfl, lv_recv]; decide⟩

end Cert.KernelIdeal.Proto

end
-- ==== Proof.Proto.Ghost.lean ====
/-
  What a device's body starts from and what it hands back: the ghost state of the ring's cells and the pipeline's proof data.

  Persistent, shared by all: every cell's invariant (at some names) and the mark that every cell has reached round 0.
  Linear, per device: its position at round 0 of its own seven cells; the token of every duty IT pays (one duty of each
  other device's barrier cell, one receive duty of each other device, its own three send duties).
  Before the point the device also holds its scratch whole; after it, the scratch at its final contents and its six own
  DMA cells closed at zero.
-/
import proofs.«900543_g7700000000000544_dist_layernorm_colshard_i_m512_n256_v7x_i4_bf16_1_alg».proof.Proof.Proto.Levels
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The ring's seven semaphores of a device, as this proof indexes them: the barrier, the three sends, the three receives; -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- the kernel's OWN (scoped) six, as the launch theorem indexes them. -/
abbrev osem : Fin 6 → SemLoc sig := fun
  | 0 => .dma (sendS 0) | 1 => .dma (sendS 1) | 2 => .dma (sendS 2) | 3 => .dma (recvS 0) | 4 => .dma (recvS 1) | 5 => .dma (recvS 2)

def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records; exact sep_elim_left.trans (bigSep_elim (Finset.mem_univ ck))
theorem reached_at (K : Dev nD × Fin 7 → ℕ) (ck : Dev nD × Fin 7) : records m K ⊢ reached ER (kcell ck) 0 := by
  unfold records; exact sep_elim_right.trans (bigSep_elim (Finset.mem_univ ck))

/-- The tokens of the duties device `c` pays. -/
def payToks (c : Dev nD) : sProp 𝕄 :=
  iprop(dutyTok ER (barCell (rot c 1)) 0 (0 : Fin 3) ∗ dutyTok ER (barCell (rot c 2)) 0 (1 : Fin 3) ∗ dutyTok ER (barCell (rot c 3)) 0 (2 : Fin 3)
    ∗ dutyTok ER (recvCell (rot c 1) 0) 0 (0 : Fin 3) ∗ dutyTok ER (recvCell (rot c 2) 1) 0 (0 : Fin 3) ∗ dutyTok ER (recvCell (rot c 3) 2) 0 (0 : Fin 3)
    ∗ dutyTok ER (sendCell c 0) 0 (0 : Fin 3) ∗ dutyTok ER (sendCell c 1) 0 (0 : Fin 3) ∗ dutyTok ER (sendCell c 2) 0 (0 : Fin 3))

/-- Device `c`'s positions in its own cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

def linear (c : Dev nD) : sProp 𝕄 := iprop(poss c ∗ payToks c)

def ghost (K : Dev nD × Fin 7 → ℕ) (c : Dev nD) : sProp 𝕄 := iprop(records m K ∗ linear c)

/-- The credit device `c` may wait for: three units on its barrier, a transfer's worth on each receive cell. -/
def waitCred (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m K c) ∗ waitCred c ∗ levAts L lv)

def scrPts (c : Dev nD) (f : Buf (Elt F) ((c : Thread nD τ).loc cc0_scratch0)) : sProp 𝕄 := ((c : Thread nD τ).loc cc0_scratch0) ↦{fullShare} f

/-- The six own cells closed, their counters at zero. -/
def closed (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)

def Φ₀ (c : Dev nD) : sProp 𝕄 := iprop(start m c ∗ ∃ f, scrPts c f)
def Φ₁ (c : Dev nD) : sProp 𝕄 := iprop(scrPts c (scr m c) ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => gstg m c
    | ⟨2, _⟩ => bstg m c
    | ⟨3, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Proto.Body.lean ====
/-
  One device's body, stepped effect by effect.

  The device gives each peer, with its barrier signal, the slot of its scratch that peer will write; computes its own slab
  into slot 0; waits for the three peers' signals, which bring the three slots of theirs it will write and the marks that
  their receive cells are open; sends slot 0 to each of them, each transfer reading slot 0 at a share of its own; waits
  for the three landings, which return slots 3, 2, 1 at their final contents; reads the four slabs (slot 0 at the share it
  kept), computes and stores the result block; waits for the three send credits, which return the shares of slot 0;
  closes its six DMA cells and puts the scratch back together.
-/
import proofs.«900543_g7700000000000544_dist_layernorm_colshard_i_m512_n256_v7x_i4_bf16_1_alg».proof.Proof.Proto.Ghost
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem rot13 (c : Dev nD) : rot (rot c 3) 1 = c := by rw [rot_rot]; exact rot_four c
theorem rot31 (c : Dev nD) : rot (rot c 1) 3 = c := by rw [rot_rot]; exact rot_four c
theorem rot22 (c : Dev nD) : rot (rot c 2) 2 = c := by rw [rot_rot]; exact rot_four c

/-- The program's spellings of the six DMA semaphores. -/
theorem semS0_eq : ((SemArray.slice cc0_scratch1 (Rect.unit (s := S3) ![0] S1.size inb_S3_S1_0)).squeeze S_ squeezes_S1_S_).sem = sendS 0 := rfl
theorem semS1_eq : ((SemArray.slice cc0_scratch1 (Rect.unit (s := S3) ![1] S1.size inb_S3_S1_1)).squeeze S_ squeezes_S1_S_).sem = sendS 1 := rfl
theorem semS2_eq : ((SemArray.slice cc0_scratch1 (Rect.unit (s := S3) ![2] S1.size inb_S3_S1_2)).squeeze S_ squeezes_S1_S_).sem = sendS 2 := rfl
theorem semR0_eq : ((SemArray.slice cc0_scratch2 (Rect.unit (s := S3) ![0] S1.size inb_S3_S1_0)).squeeze S_ squeezes_S1_S_).sem = recvS 0 := rfl
theorem semR1_eq : ((SemArray.slice cc0_scratch2 (Rect.unit (s := S3) ![1] S1.size inb_S3_S1_1)).squeeze S_ squeezes_S1_S_).sem = recvS 1 := rfl
theorem semR2_eq : ((SemArray.slice cc0_scratch2 (Rect.unit (s := S3) ![2] S1.size inb_S3_S1_2)).squeeze S_ squeezes_S1_S_).sem = recvS 2 := rfl

section Body

variable (K : Dev nD × Fin 7 → ℕ)

/-- Transfer 0: slot 0 of `c` to slot3 of the device 1 places on (substituted, not rewritten). -/
theorem wp_send_0 (c n : Dev nD) (hn : n = rot c 1)
    {hsc : (slot3 : Memref sig (Dev.tc n : Thread nD τ).2.kind .vmem S2x512 .f32).view.ref.isScScratch = false}
    {hsrc : (slot0 : Memref sig .tc .vmem S2x512 .f32).view.WordExact} {hdst : (slot3 : Memref sig .tc .vmem S2x512 .f32).view.WordExact}
    {hsem : DmaTarget.Typed .vmem (.dma (recvS 0)) (.remote (Dev.tc n : Thread nD τ) (slot3 : Memref sig .tc .vmem S2x512 .f32) (.dma (sendS 0)) hsc)}
    {α : Type} {Q : α → sProp 𝕄} {k : PUnit → Prog (TpuEff nD τ sig (Elt F) Λ₀ .tc) α}
    (fn : Buf (Elt F) ((slot3 : Memref sig .tc .vmem S2x512 .f32).view.loc (rot c 1 : Thread nD τ))) (W : Waits sig Unit) :
    iprop(cellInv ER (ringRd m) (K (c, 1)) (sendCell c 0) ∗ cellInv ER (ringRd m) (K (rot c 1, 4)) (recvCell (rot c 1) 0)
        ∗ slotPts slot0 c (qS 0) (scr m c) ∗ slotPts slot3 (rot c 1) fullShare fn
        ∗ owes (c : Thread nD τ) (OR1 c) W
        ∗ dutyTok ER (sendCell c 0) 0 (0 : Fin 3) ∗ reached ER (sendCell c 0) 0
        ∗ dutyTok ER (recvCell (rot c 1) 0) 0 (0 : Fin 3) ∗ reached ER (recvCell (rot c 1) 0) 0)
      ⊢ iprop(((cred (tallyAt (sendCell c 0) () N) ∗ owes (c : Thread nD τ) (OR2 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sendS 0)) hsc) (.dma (recvS 0)) hsrc hdst hsem) k) Q) := by
  subst hn
  exact Rounds.wp_send_pointsTo 𝒱₀ ER (ringRd m) (c : Thread nD τ) none (κ₁ := K (c, 1)) (κ₂ := K (rot c 1, 4))
    (src := slot0) (dst := slot3) (q := qS 0) (fs := scr m c) (c' := (rot c 1 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 0 0) (amount_recv m (rot c 1) 0 0) (OR2 c) rfl (W := W)
    (by rw [payload_send]; exact BI.Entails.refl _)
    (by rw [payload_recv, recvPay_0]; exact Entails.of_eq (pointsTo_congr (landing3 m c (scr m c) (fun _ _ => rfl) fn)))

/-- Transfer 1: slot 0 of `c` to slot2 of the device 2 places on (substituted, not rewritten). -/
theorem wp_send_1 (c n : Dev nD) (hn : n = rot c 2)
    {hsc : (slot2 : Memref sig (Dev.tc n : Thread nD τ).2.kind .vmem S2x512 .f32).view.ref.isScScratch = false}
    {hsrc : (slot0 : Memref sig .tc .vmem S2x512 .f32).view.WordExact} {hdst : (slot2 : Memref sig .tc .vmem S2x512 .f32).view.WordExact}
    {hsem : DmaTarget.Typed .vmem (.dma (recvS 1)) (.remote (Dev.tc n : Thread nD τ) (slot2 : Memref sig .tc .vmem S2x512 .f32) (.dma (sendS 1)) hsc)}
    {α : Type} {Q : α → sProp 𝕄} {k : PUnit → Prog (TpuEff nD τ sig (Elt F) Λ₀ .tc) α}
    (fn : Buf (Elt F) ((slot2 : Memref sig .tc .vmem S2x512 .f32).view.loc (rot c 2 : Thread nD τ))) (W : Waits sig Unit) :
    iprop(cellInv ER (ringRd m) (K (c, 2)) (sendCell c 1) ∗ cellInv ER (ringRd m) (K (rot c 2, 5)) (recvCell (rot c 2) 1)
        ∗ slotPts slot0 c (qS 1) (scr m c) ∗ slotPts slot2 (rot c 2) fullShare fn
        ∗ owes (c : Thread nD τ) (OR2 c) W
        ∗ dutyTok ER (sendCell c 1) 0 (0 : Fin 3) ∗ reached ER (sendCell c 1) 0
        ∗ dutyTok ER (recvCell (rot c 2) 1) 0 (0 : Fin 3) ∗ reached ER (recvCell (rot c 2) 1) 0)
      ⊢ iprop(((cred (tallyAt (sendCell c 1) () N) ∗ owes (c : Thread nD τ) (OR3 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sendS 1)) hsc) (.dma (recvS 1)) hsrc hdst hsem) k) Q) := by
  subst hn
  exact Rounds.wp_send_pointsTo 𝒱₀ ER (ringRd m) (c : Thread nD τ) none (κ₁ := K (c, 2)) (κ₂ := K (rot c 2, 5))
    (src := slot0) (dst := slot2) (q := qS 1) (fs := scr m c) (c' := (rot c 2 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 1 0) (amount_recv m (rot c 2) 1 0) (OR3 c) rfl (W := W)
    (by rw [payload_send]; exact BI.Entails.refl _)
    (by rw [payload_recv, recvPay_1]; exact Entails.of_eq (pointsTo_congr (landing2 m c (scr m c) (fun _ _ => rfl) fn)))

/-- Transfer 2: slot 0 of `c` to slot1 of the device 3 places on (substituted, not rewritten). -/
theorem wp_send_2 (c n : Dev nD) (hn : n = rot c 3)
    {hsc : (slot1 : Memref sig (Dev.tc n : Thread nD τ).2.kind .vmem S2x512 .f32).view.ref.isScScratch = false}
    {hsrc : (slot0 : Memref sig .tc .vmem S2x512 .f32).view.WordExact} {hdst : (slot1 : Memref sig .tc .vmem S2x512 .f32).view.WordExact}
    {hsem : DmaTarget.Typed .vmem (.dma (recvS 2)) (.remote (Dev.tc n : Thread nD τ) (slot1 : Memref sig .tc .vmem S2x512 .f32) (.dma (sendS 2)) hsc)}
    {α : Type} {Q : α → sProp 𝕄} {k : PUnit → Prog (TpuEff nD τ sig (Elt F) Λ₀ .tc) α}
    (fn : Buf (Elt F) ((slot1 : Memref sig .tc .vmem S2x512 .f32).view.loc (rot c 3 : Thread nD τ))) (W : Waits sig Unit) :
    iprop(cellInv ER (ringRd m) (K (c, 3)) (sendCell c 2) ∗ cellInv ER (ringRd m) (K (rot c 3, 6)) (recvCell (rot c 3) 2)
        ∗ slotPts slot0 c (qS 2) (scr m c) ∗ slotPts slot1 (rot c 3) fullShare fn
        ∗ owes (c : Thread nD τ) (OR3 c) W
        ∗ dutyTok ER (sendCell c 2) 0 (0 : Fin 3) ∗ reached ER (sendCell c 2) 0
        ∗ dutyTok ER (recvCell (rot c 3) 2) 0 (0 : Fin 3) ∗ reached ER (recvCell (rot c 3) 2) 0)
      ⊢ iprop(((cred (tallyAt (sendCell c 2) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sendS 2)) hsc) (.dma (recvS 2)) hsrc hdst hsem) k) Q) := by
  subst hn
  exact Rounds.wp_send_pointsTo 𝒱₀ ER (ringRd m) (c : Thread nD τ) none (κ₁ := K (c, 3)) (κ₂ := K (rot c 3, 6))
    (src := slot0) (dst := slot1) (q := qS 2) (fs := scr m c) (c' := (rot c 3 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 2 0) (amount_recv m (rot c 3) 2 0) (0) (by rw [zero_add]; rfl) (W := W)
    (by rw [payload_send]; exact BI.Entails.refl _)
    (by rw [payload_recv, recvPay_2]; exact Entails.of_eq (pointsTo_congr (landing1 m c (scr m c) (fun _ _ => rfl) fn)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ waitCred c ∗ levAts L lv ∗ ∃ f, scrPts c f)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m c) ∗ stg c cc0_stg1_0 (gstg m c) ∗ stg c cc0_stg2_0 (bstg m c)
    ∗ stg c cc0_stg3_0 (outv m c))

set_option maxHeartbeats 3200000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost linear poss payToks waitCred
  iintro ⟨⟨⟨⟨#HR, ⟨HatB, HatS0, HatS1, HatS2, HatV0, HatV1, HatV2⟩, ⟨HtB0, HtB1, HtB2, HtR0, HtR1, HtR2, HtS0, HtS1, HtS2⟩⟩, ⟨HcB, HcV0, HcV1, HcV2⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, Hk⟩
  have hx : g0 = xstg m c := by rw [hg0]; unfold Dat.before; rw [if_pos (fetch0_0 t₀)]; rfl
  have hgg : g1 = gstg m c := by rw [hg1]; unfold Dat.before; rw [if_pos (fetch0_1 t₀)]; rfl
  have hbb : g2 = bstg m c := by rw [hg2]; unfold Dat.before; rw [if_pos (fetch0_2 t₀)]; rfl
  subst hx hgg hbb
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch by slots
  unfold scrPts
  ihave Hs := (scratch_split c f0).1 $$ Hscr
  icases Hs with ⟨Hs0, Hs1, Hs2, Hs3⟩
  -- the three signals: each hands the peer the slot it will write and the mark that the receive cell it will credit is open
  unfold O₀
  iapply (Rounds.wp_signal 𝒱₀ ER (ringRd m) (c : Thread nD τ) none (dst := (rot c 1 : Thread nD τ)) (κ := K (rot c 1, 0))
      (d := (0 : Fin 3)) (by rw [duties_bar]; exact Finset.mem_univ _) ((amount_bar m (rot c 1) 0).trans (by decide)) () (OB2 c) rfl)
    $$ [HO HtB0 Hs1]
  · isplitr; · iapply (inv_at m K (rot c 1, 0)); iexact HR
    isplitl [HO]; · iexact HO
    isplitl [HtB0]; · iexact HtB0
    isplitl [Hs1]
    · rw [payload_bar, barPay_0, rot31]
      isplitl [Hs1]; · iexists f0; iexact Hs1
      iapply (reached_at m K (c, 6)); iexact HR
    · iapply (reached_at m K (rot c 1, 0)); iexact HR
  iintro HO
  unfold OB2
  iapply (Rounds.wp_signal 𝒱₀ ER (ringRd m) (c : Thread nD τ) none (dst := (rot c 2 : Thread nD τ)) (κ := K (rot c 2, 0))
      (d := (1 : Fin 3)) (by rw [duties_bar]; exact Finset.mem_univ _) ((amount_bar m (rot c 2) 1).trans (by decide)) () (OB3 c) rfl)
    $$ [HO HtB1 Hs2]
  · isplitr; · iapply (inv_at m K (rot c 2, 0)); iexact HR
    isplitl [HO]; · iexact HO
    isplitl [HtB1]; · iexact HtB1
    isplitl [Hs2]
    · rw [payload_bar, barPay_1, rot22]
      isplitl [Hs2]; · iexists f0; iexact Hs2
      iapply (reached_at m K (c, 5)); iexact HR
    · iapply (reached_at m K (rot c 2, 0)); iexact HR
  iintro HO
  unfold OB3
  iapply (Rounds.wp_signal 𝒱₀ ER (ringRd m) (c : Thread nD τ) none (dst := (rot c 3 : Thread nD τ)) (κ := K (rot c 3, 0))
      (d := (2 : Fin 3)) (by rw [duties_bar]; exact Finset.mem_univ _) ((amount_bar m (rot c 3) 2).trans (by decide)) () (OR1 c) rfl)
    $$ [HO HtB2 Hs3]
  · isplitr; · iapply (inv_at m K (rot c 3, 0)); iexact HR
    isplitl [HO]; · iexact HO
    isplitl [HtB2]; · iexact HtB2
    isplitl [Hs3]
    · rw [payload_bar, barPay_2, rot13]
      isplitl [Hs3]; · iexists f0; iexact Hs3
      iapply (reached_at m K (c, 4)); iexact HR
    · iapply (reached_at m K (rot c 3, 0)); iexact HR
  iintro HO
  -- the block is read, its row sums and row sums of squares stored into slot 0
  iapply (wp_load 𝒱₀ (c : Thread nD τ) none Set.univ (m := xM) (Finset.subset_univ _)) $$ Hx; iintro Hx
  rw [read_x]
  iapply (wp_load 𝒱₀ (c : Thread nD τ) none Set.univ (m := rM) sub_r00) $$ Hs0; iintro Hs0
  iapply (wp_store 𝒱₀ (c : Thread nD τ) none Set.univ (m := rM) (r := r00) (Mk := Finset.univ) sub_w00) $$ Hs0; iintro Hs0
  iapply (wp_load 𝒱₀ (c : Thread nD τ) none Set.univ (m := rM) sub_r01) $$ Hs0; iintro Hs0
  iapply (wp_store 𝒱₀ (c : Thread nD τ) none Set.univ (m := rM) (r := r01) (Mk := Finset.univ) sub_w01) $$ Hs0; iintro Hs0
  ihave Hs0 := (Entails.of_eq (pointsTo_congr (stores_eq m c f0))) $$ Hs0
  -- the WAIT for 3 on its own barrier, owing the three receive credits: the peers' slots come with it
  iapply (Rounds.wp_wait_rest_token 𝒱₀ ER (ringRd m) (c : Thread nD τ) none (κ := K (c, 0))
      (wpE_semWait_eq 𝒱₀ (c : Thread nD τ) none Set.univ) (Set.mem_univ _) () (O := OR1 c) (W := W) (R := 0) (m := 0) (T := ∅)
      (by rw [expect_bar]; decide)) $$ [HcB HO HatB]
  · isplitr; · iapply (inv_at m K (c, 0)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [barPay_0, barPay_1, barPay_2]
  icases Hp with ⟨⟨⟨%fa, Hp1⟩, -⟩, ⟨⟨%fb, Hp2⟩, -⟩, ⟨%fc, Hp3⟩, -⟩
  -- slot 0 in four shares: one per transfer, one kept
  ihave Hs0 := (pointsTo_share (PosShare.mem_left_op_right fullShare)).1 $$ Hs0
  icases Hs0 with ⟨HLt, HRt⟩
  ihave HLt := (pointsTo_share (PosShare.mem_left_op_right fullShare.left)).1 $$ HLt
  icases HLt with ⟨H0a, H0b⟩
  ihave HRt := (pointsTo_share (PosShare.mem_left_op_right fullShare.right)).1 $$ HRt
  icases HRt with ⟨H0c, H0m⟩
  -- the three TRANSFERS
  unfold OR1
  iapply (wp_send_0 m K c _ (dev4_eq c) fc (insert (SemLoc.reg barS, ()) W)) $$ [H0a Hp3 HO HtS0 HtR0]
  · isplitr; · iapply (inv_at m K (c, 1)); iexact HR
    isplitr; · iapply (inv_at m K (rot c 1, 4)); iexact HR
    isplitl [H0a]; · iexact H0a
    isplitl [Hp3]; · iexact Hp3
    isplitl [HO]; · iexact HO
    isplitl [HtS0]; · iexact HtS0
    isplitr; · iapply (reached_at m K (c, 1)); iexact HR
    isplitl [HtR0]; · iexact HtR0
    iapply (reached_at m K (rot c 1, 4)); iexact HR
  iintro ⟨HcS0, HO⟩
  unfold OR2
  iapply (wp_send_1 m K c _ (dev5_eq c) fb (insert (SemLoc.reg barS, ()) W)) $$ [H0b Hp2 HO HtS1 HtR1]
  · isplitr; · iapply (inv_at m K (c, 2)); iexact HR
    isplitr; · iapply (inv_at m K (rot c 2, 5)); iexact HR
    isplitl [H0b]; · iexact H0b
    isplitl [Hp2]; · iexact Hp2
    isplitl [HO]; · iexact HO
    isplitl [HtS1]; · iexact HtS1
    isplitr; · iapply (reached_at m K (c, 2)); iexact HR
    isplitl [HtR1]; · iexact HtR1
    iapply (reached_at m K (rot c 2, 5)); iexact HR
  iintro ⟨HcS1, HO⟩
  unfold OR3
  iapply (wp_send_2 m K c _ (dev6_eq c) fa (insert (SemLoc.reg barS, ()) W)) $$ [H0c Hp1 HO HtS2 HtR2]
  · isplitr; · iapply (inv_at m K (c, 3)); iexact HR
    isplitr; · iapply (inv_at m K (rot c 3, 6)); iexact HR
    isplitl [H0c]; · iexact H0c
    isplitl [Hp1]; · iexact Hp1
    isplitl [HO]; · iexact HO
    isplitl [HtS2]; · iexact HtS2
    isplitr; · iapply (reached_at m K (c, 3)); iexact HR
    isplitl [HtR2]; · iexact HtR2
    iapply (reached_at m K (rot c 3, 6)); iexact HR
  iintro ⟨HcS2, HO⟩
  -- the scale and shift blocks
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  -- the three LANDINGS: slots 3, 2, 1 at their final contents
  iapply (Rounds.wp_wait_rest_token 𝒱₀ ER (ringRd m) (c : Thread nD τ) none (κ := K (c, 4)) (sm := SemLoc.dma (recvS 0))
      (wpE_waitDma2_eq 𝒱₀ (c : Thread nD τ) none Set.univ) (Set.mem_univ _) () (O := 0) (W := insert (SemLoc.reg barS, ()) W) (R := 0) (m := 0) (T := ∅)
      (by rw [Nat.zero_add, expect_recv])) $$ [HcV0 HO HatV0]
  · isplitr; · iapply (inv_at m K (c, 4)); iexact HR
    isplitl [HcV0]; · iexact HcV0
    isplitl [HO]; · iexact HO
    isplitr; · rw [MayWait_zero]; iempintro
    iexact HatV0
  iintro ⟨HO, HatV0, -, Hpay⟩
  ihave Hq3 := (Entails.of_eq ((rest_recv m c 0).trans (recvPay_0 m c))) $$ Hpay
  iapply (Rounds.wp_wait_rest_token 𝒱₀ ER (ringRd m) (c : Thread nD τ) none (κ := K (c, 5)) (sm := SemLoc.dma (recvS 1))
      (wpE_waitDma2_eq 𝒱₀ (c : Thread nD τ) none Set.univ) (Set.mem_univ _) () (O := 0) (W := insert (SemLoc.dma (recvS 0), ()) (insert (SemLoc.reg barS, ()) W)) (R := 0) (m := 0) (T := ∅)
      (by rw [Nat.zero_add, expect_recv])) $$ [HcV1 HO HatV1]
  · isplitr; · iapply (inv_at m K (c, 5)); iexact HR
    isplitl [HcV1]; · iexact HcV1
    isplitl [HO]; · iexact HO
    isplitr; · rw [MayWait_zero]; iempintro
    iexact HatV1
  iintro ⟨HO, HatV1, -, Hpay⟩
  ihave Hq2 := (Entails.of_eq ((rest_recv m c 1).trans (recvPay_1 m c))) $$ Hpay
  iapply (Rounds.wp_wait_rest_token 𝒱₀ ER (ringRd m) (c : Thread nD τ) none (κ := K (c, 6)) (sm := SemLoc.dma (recvS 2))
      (wpE_waitDma2_eq 𝒱₀ (c : Thread nD τ) none Set.univ) (Set.mem_univ _) () (O := 0) (W := insert (SemLoc.dma (recvS 1), ()) (insert (SemLoc.dma (recvS 0), ()) (insert (SemLoc.reg barS, ()) W))) (R := 0) (m := 0) (T := ∅)
      (by rw [Nat.zero_add, expect_recv])) $$ [HcV2 HO HatV2]
  · isplitr; · iapply (inv_at m K (c, 6)); iexact HR
    isplitl [HcV2]; · iexact HcV2
    isplitl [HO]; · iexact HO
    isplitr; · rw [MayWait_zero]; iempintro
    iexact HatV2
  iintro ⟨HO, HatV2, -, Hpay⟩
  ihave Hq1 := (Entails.of_eq ((rest_recv m c 2).trans (recvPay_2 m c))) $$ Hpay
  -- the four slabs are read, the result block computed and stored
  iapply (wp_load 𝒱₀ (c : Thread nD τ) none Set.univ (m := rM) sub_rs0) $$ H0m; iintro H0m
  rw [read_slot0 m c _ (fun _ _ => rfl)]
  iapply (wp_load 𝒱₀ (c : Thread nD τ) none Set.univ (m := rM) sub_rs1) $$ Hq1; iintro Hq1
  rw [read_slot1 m c _ (fun _ _ => rfl)]
  iapply (wp_load 𝒱₀ (c : Thread nD τ) none Set.univ (m := rM) sub_rs2) $$ Hq2; iintro Hq2
  rw [read_slot2 m c _ (fun _ _ => rfl)]
  iapply (wp_load 𝒱₀ (c : Thread nD τ) none Set.univ (m := rM) sub_rs3) $$ Hq3; iintro Hq3
  rw [read_slot3 m c _ (fun _ _ => rfl)]
  iapply (wp_load 𝒱₀ (c : Thread nD τ) none Set.univ (m := oM) (Finset.subset_univ _)) $$ Hout; iintro Hout
  iapply (wp_store 𝒱₀ (c : Thread nD τ) none Set.univ (m := oM) (r := rx) (Mk := Finset.univ) (Finset.subset_univ _)) $$ Hout; iintro Hout
  rw [write_out]
  -- the three SEND credits: the shares of slot 0 come back
  iapply (Rounds.wp_wait_rest_token 𝒱₀ ER (ringRd m) (c : Thread nD τ) none (κ := K (c, 1)) (sm := SemLoc.dma (sendS 0))
      (wpE_waitDma2_eq 𝒱₀ (c : Thread nD τ) none Set.univ) (Set.mem_univ _) () (O := 0) (W := insert (SemLoc.dma (recvS 2), ()) (insert (SemLoc.dma (recvS 1), ()) (insert (SemLoc.dma (recvS 0), ()) (insert (SemLoc.reg barS, ()) W)))) (R := 0) (m := 0) (T := ∅)
      (by rw [Nat.zero_add, expect_send])) $$ [HcS0 HO HatS0]
  · isplitr; · iapply (inv_at m K (c, 1)); iexact HR
    isplitl [HcS0]; · iexact HcS0
    isplitl [HO]; · iexact HO
    isplitr; · rw [MayWait_zero]; iempintro
    iexact HatS0
  iintro ⟨HO, HatS0, -, Hpay⟩
  ihave H0a := (Entails.of_eq (rest_send m c 0)) $$ Hpay
  iapply (Rounds.wp_wait_rest_token 𝒱₀ ER (ringRd m) (c : Thread nD τ) none (κ := K (c, 2)) (sm := SemLoc.dma (sendS 1))
      (wpE_waitDma2_eq 𝒱₀ (c : Thread nD τ) none Set.univ) (Set.mem_univ _) () (O := 0) (W := insert (SemLoc.dma (sendS 0), ()) (insert (SemLoc.dma (recvS 2), ()) (insert (SemLoc.dma (recvS 1), ()) (insert (SemLoc.dma (recvS 0), ()) (insert (SemLoc.reg barS, ()) W))))) (R := 0) (m := 0) (T := ∅)
      (by rw [Nat.zero_add, expect_send])) $$ [HcS1 HO HatS1]
  · isplitr; · iapply (inv_at m K (c, 2)); iexact HR
    isplitl [HcS1]; · iexact HcS1
    isplitl [HO]; · iexact HO
    isplitr; · rw [MayWait_zero]; iempintro
    iexact HatS1
  iintro ⟨HO, HatS1, -, Hpay⟩
  ihave H0b := (Entails.of_eq (rest_send m c 1)) $$ Hpay
  iapply (Rounds.wp_wait_rest_token 𝒱₀ ER (ringRd m) (c : Thread nD τ) none (κ := K (c, 3)) (sm := SemLoc.dma (sendS 2))
      (wpE_waitDma2_eq 𝒱₀ (c : Thread nD τ) none Set.univ) (Set.mem_univ _) () (O := 0) (W := insert (SemLoc.dma (sendS 1), ()) (insert (SemLoc.dma (sendS 0), ()) (insert (SemLoc.dma (recvS 2), ()) (insert (SemLoc.dma (recvS 1), ()) (insert (SemLoc.dma (recvS 0), ()) (insert (SemLoc.reg barS, ()) W)))))) (R := 0) (m := 0) (T := ∅)
      (by rw [Nat.zero_add, expect_send])) $$ [HcS2 HO HatS2]
  · isplitr; · iapply (inv_at m K (c, 3)); iexact HR
    isplitl [HcS2]; · iexact HcS2
    isplitl [HO]; · iexact HO
    isplitr; · rw [MayWait_zero]; iempintro
    iexact HatS2
  iintro ⟨HO, HatS2, -, Hpay⟩
  ihave H0c := (Entails.of_eq (rest_send m c 2)) $$ Hpay
  -- the six own cells close: their counters at zero are the core's again
  imod (Rounds.cell_close ER (ringRd m) (Set.mem_univ (K (c, 1))) (fun h => h) (R := 0 + 1) (duties_later m (sendCell c 0))) $$ [HatS0] with HzS0
  · isplitr; · iapply (inv_at m K (c, 1)); iexact HR
    iexact HatS0
  imod (Rounds.cell_close ER (ringRd m) (Set.mem_univ (K (c, 2))) (fun h => h) (R := 0 + 1) (duties_later m (sendCell c 1))) $$ [HatS1] with HzS1
  · isplitr; · iapply (inv_at m K (c, 2)); iexact HR
    iexact HatS1
  imod (Rounds.cell_close ER (ringRd m) (Set.mem_univ (K (c, 3))) (fun h => h) (R := 0 + 1) (duties_later m (sendCell c 2))) $$ [HatS2] with HzS2
  · isplitr; · iapply (inv_at m K (c, 3)); iexact HR
    iexact HatS2
  imod (Rounds.cell_close ER (ringRd m) (Set.mem_univ (K (c, 4))) (fun h => h) (R := 0 + 1) (duties_later m (recvCell c 0))) $$ [HatV0] with HzV0
  · isplitr; · iapply (inv_at m K (c, 4)); iexact HR
    iexact HatV0
  imod (Rounds.cell_close ER (ringRd m) (Set.mem_univ (K (c, 5))) (fun h => h) (R := 0 + 1) (duties_later m (recvCell c 1))) $$ [HatV1] with HzV1
  · isplitr; · iapply (inv_at m K (c, 5)); iexact HR
    iexact HatV1
  imod (Rounds.cell_close ER (ringRd m) (Set.mem_univ (K (c, 6))) (fun h => h) (R := 0 + 1) (duties_later m (recvCell c 2))) $$ [HatV2] with HzV2
  · isplitr; · iapply (inv_at m K (c, 6)); iexact HR
    iexact HatV2
  -- slot 0's shares and the four slots are put back together
  unfold sendPay
  ihave HLt := (pointsTo_share (PosShare.mem_left_op_right fullShare.left)).2 $$ [H0a H0b]
  · isplitl [H0a] <;> iassumption
  ihave HRt := (pointsTo_share (PosShare.mem_left_op_right fullShare.right)).2 $$ [H0c H0m]
  · isplitl [H0c] <;> iassumption
  ihave Hs0 := (pointsTo_share (PosShare.mem_left_op_right fullShare)).2 $$ [HLt HRt]
  · isplitl [HLt] <;> iassumption
  ihave Hscr := (scratch_split c (scr m c)).2 $$ [Hs0 Hq1 Hq2 Hq3]
  · isplitl [Hs0]; · iexact Hs0
    isplitl [Hq1]; · iexact Hq1
    isplitl [Hq2]; · iexact Hq2
    iexact Hq3
  rw [wp_ret]; imodintro
  iapply Hk
  unfold bodyPost Φ₁ closed scrPts Dat.owesAt Pipeline.owesWithin
  rw [show (dats m ρ 0 c).owed t₀.succ = 0 from rfl]
  isplitl [Hscr HzS0 HzS1 HzS2 HzV0 HzV1 HzV2]
  · isplitl [Hscr]; · iexact Hscr
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists (insert (SemLoc.dma (sendS 2), ()) (insert (SemLoc.dma (sendS 1), ()) (insert (SemLoc.dma (sendS 0), ()) (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

end Body

end Cert.KernelIdeal.Proto

end
-- ==== Proof.Proto.Credit.lean ====
/-
  The credit each device may wait for, from what all devices owe at launch.

  A cell's launch credit is the sum over the devices of what they owe it. Each of the six kinds of debt (a unit to the
  barrier cell 1, 2, 3 places on; a transfer's worth to receive cell 0, 1, 2 of the device 1, 2, 3 places on) is owed to
  device c by exactly one device, the one that many places BEFORE c: so c's barrier cell gets three units and each of its
  receive cells one transfer's worth.
-/
import proofs.«900543_g7700000000000544_dist_layernorm_colshard_i_m512_n256_v7x_i4_bf16_1_alg».proof.Proof.Proto.Body
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem creds (c : Dev nD) : (Pipeline.launchCred O₀ c : sProp 𝕄) ⊢ waitCred c := by
  have e0 : (Pipeline.launchCred O₀ c : sProp 𝕄) = Pipeline.launchCred (fun d => OB2 d + tB0 d) c := rfl
  have e1 : (Pipeline.launchCred OB2 c : sProp 𝕄) = Pipeline.launchCred (fun d => OB3 d + tB1 d) c := rfl
  have e2 : (Pipeline.launchCred OB3 c : sProp 𝕄) = Pipeline.launchCred (fun d => OR1 d + tB2 d) c := rfl
  have e3 : (Pipeline.launchCred OR1 c : sProp 𝕄) = Pipeline.launchCred (fun d => OR2 d + tR0 d) c := rfl
  have e4 : (Pipeline.launchCred OR2 c : sProp 𝕄) = Pipeline.launchCred (fun d => OR3 d + tR1 d) c := rfl
  rw [e0, Pipeline.launchCred_add, e1, Pipeline.launchCred_add, e2, Pipeline.launchCred_add, e3, Pipeline.launchCred_add, e4, Pipeline.launchCred_add]
  have hB0 : (Pipeline.launchCred tB0 c : sProp 𝕄) ⊢ cred (tallyAt (barCell c) () 1) :=
    Pipeline.launchCred_tallyAt (.reg barS) (fun d => rot d 1) (fun d => rot d 3) rot13 rot31 () 1 c
  have hB1 : (Pipeline.launchCred tB1 c : sProp 𝕄) ⊢ cred (tallyAt (barCell c) () 1) :=
    Pipeline.launchCred_tallyAt (.reg barS) (fun d => rot d 2) (fun d => rot d 2) rot22 rot22 () 1 c
  have hB2 : (Pipeline.launchCred tB2 c : sProp 𝕄) ⊢ cred (tallyAt (barCell c) () 1) :=
    Pipeline.launchCred_tallyAt (.reg barS) (fun d => rot d 3) (fun d => rot d 1) rot31 rot13 () 1 c
  have hR0 : (Pipeline.launchCred tR0 c : sProp 𝕄) ⊢ cred (tallyAt (recvCell c 0) () N) :=
    Pipeline.launchCred_tallyAt (.dma (recvS 0)) (fun d => rot d 1) (fun d => rot d 3) rot13 rot31 () N c
  have hR1 : (Pipeline.launchCred tR1 c : sProp 𝕄) ⊢ cred (tallyAt (recvCell c 1) () N) :=
    Pipeline.launchCred_tallyAt (.dma (recvS 1)) (fun d => rot d 2) (fun d => rot d 2) rot22 rot22 () N c
  have hR2 : (Pipeline.launchCred OR3 c : sProp 𝕄) ⊢ cred (tallyAt (recvCell c 2) () N) :=
    Pipeline.launchCred_tallyAt (.dma (recvS 2)) (fun d => rot d 3) (fun d => rot d 1) rot31 rot13 () N c
  unfold waitCred
  iintro ⟨⟨⟨⟨⟨H2, H1⟩, H0⟩, B2⟩, B1⟩, B0⟩
  ihave C0 := hB0 $$ B0
  ihave C1 := hB1 $$ B1
  ihave C2 := hB2 $$ B2
  isplitl [C0 C1 C2]
  · rw [← tallyAt_add (barCell c) () 2 1, ← tallyAt_add (barCell c) () 1 1]
    iapply (cred_add _ _).2
    isplitl [C0 C1]
    · iapply (cred_add _ _).2
      isplitl [C0] <;> iassumption
    · iexact C2
  isplitl [H0]; · iapply hR0; iexact H0
  isplitl [H1]; · iapply hR1; iexact H1
  iapply hR2; iexact H2

end Cert.KernelIdeal.Proto

end
-- ==== Proof.Proto.Glob.lean ====
/-
  The launch's global step: the ring's ghost state is minted for every cell of every device at once, every cell's invariant is
  allocated over its counter at zero, and every duty token is dealt to the device that pays the duty — a barrier cell's
  token k to the device 3 - k places on, a receive cell's token j to the device 3 - j places on, a send cell's to its owner.
-/
import proofs.«900543_g7700000000000544_dist_layernorm_colshard_i_m512_n256_v7x_i4_bf16_1_alg».proof.Proof.Proto.Ghost
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its barrier's duties 0, 1, 2, its three sends' and three receives' duty 0. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
/-- The semaphore and the duty of a device's j-th token: they do not depend on the device, and tell the nine apart. -/
abbrev tokCode : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokCode_injective : Function.Injective tokCode := by decide
theorem tokOf_code (c : Dev nD) (j : Fin 9) : ((tokOf (c, j)).1.2, (tokOf (c, j)).2.2) = tokCode j := by fin_cases j <;> rfl
theorem tokOf_dev (c : Dev nD) (j : Fin 9) : (tokOf (c, j)).1.1.1 = c := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    simpa only [tokOf_dev] using this
  subst h1
  have h2 : tokCode j = tokCode j' := by
    rw [← tokOf_code c j, ← tokOf_code c j']
    exact congrArg (fun x : GSem nD τ sig × ℕ × Fin 3 => (x.1.2, x.2.2)) h
  have : j = j' := tokCode_injective h2
  subst this; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c` (the launch theorem's `G`). -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six own semaphores at zero, as the body hands them back. -/
theorem ownSems0_eq (c : Dev nD) : (Pipeline.ownSems0 (Ix := Unit) (Name := ℕ) (U := UU) (Lvl := ℕ) (Val := Elt F) (τ := τ) osem c : sProp 𝕄) = closed c := by
  rw [Pipeline.ownSems0_eq_of_list c osem [0, 1, 2, 3, 4, 5] (by decide) (by decide)]; rfl

/-- The one semaphore of a device that no scope allocates is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's seven counters at zero, in the order of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]; unfold closed
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

/-- One device's share of the global step: each of its seven cells' invariant is allocated over its counter at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! The ring's rotations as permutations of the devices. -/

theorem rot_inv_r (k : Nat) (hk : k ≤ 4) (c : Dev nD) : rot (rot c k) (4 - k) = c := by
  rw [rot_rot, show k + (4 - k) = 4 from by omega, rot_four]
theorem rot_inv_l (k : Nat) (hk : k ≤ 4) (c : Dev nD) : rot (rot c (4 - k)) k = c := by
  rw [rot_rot, show 4 - k + k = 4 from by omega, rot_four]

/-- The rotation by k places, k ≤ 4, with the rotation by 4 - k places as its inverse. -/
def ring (k : Nat) (hk : k ≤ 4) : Dev nD ≃ Dev nD := ⟨fun c => rot c k, fun c => rot c (4 - k), rot_inv_r k hk, rot_inv_l k hk⟩

/-- The tokens dealt around the ring: duty k of a barrier cell goes to the device 3 - k places on, which is to say device c
    receives duty k of the barrier cell k + 1 places on; likewise the duty of receive cell j; the send duties stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 1 (by decide)) (fun c : Dev nD => (dutyTok ER (barCell c) 0 (0 : Fin 3) : sProp 𝕄)),
    bigSep_univ_equiv (ring 2 (by decide)) (fun c : Dev nD => (dutyTok ER (barCell c) 0 (1 : Fin 3) : sProp 𝕄)),
    bigSep_univ_equiv (ring 3 (by decide)) (fun c : Dev nD => (dutyTok ER (barCell c) 0 (2 : Fin 3) : sProp 𝕄)),
    bigSep_univ_equiv (ring 1 (by decide)) (fun c : Dev nD => (dutyTok ER (recvCell c 0) 0 (0 : Fin 3) : sProp 𝕄)),
    bigSep_univ_equiv (ring 2 (by decide)) (fun c : Dev nD => (dutyTok ER (recvCell c 1) 0 (0 : Fin 3) : sProp 𝕄)),
    bigSep_univ_equiv (ring 3 (by decide)) (fun c : Dev nD => (dutyTok ER (recvCell c 2) 0 (0 : Fin 3) : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m K ∗ linear c) ⊢ G' m c := by
  unfold G' ghost
  iintro H
  iexists K
  iexact H

/-- All devices' invariants, marks, positions and tokens regrouped: the persistent part shared by all, the rest dealt. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.Proto.Launch.lean ====
/-
  The launch: from "every device's body is proved" to the run of the program on the four devices.

  At the compiled mesh, from any memory with zero counters, every weakly fair execution of @main — the four kernels
  handshaking on the runtime's barrier semaphore, exchanging their slabs, normalising their blocks — terminates without a
  fault, each device's result array holding its result block and its three argument arrays unchanged.
-/
import proofs.«900543_g7700000000000544_dist_layernorm_colshard_i_m512_n256_v7x_i4_bf16_1_alg».proof.Proof.Proto.Body
import proofs.«900543_g7700000000000544_dist_layernorm_colshard_i_m512_n256_v7x_i4_bf16_1_alg».proof.Proof.Proto.Credit
import proofs.«900543_g7700000000000544_dist_layernorm_colshard_i_m512_n256_v7x_i4_bf16_1_alg».proof.Proof.Proto.Glob
set_option maxRecDepth 16384

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hwc, Hlev⟩, Hscr⟩, Ho, Hx, Hgm, Hb, Hout⟩
  iapply (sound_body m ρ K c fun _ => bodyPost m ρ c)
  unfold bodyPre
  isplitr []
  · isplitl [Hg Hwc Hlev Hscr]
    · isplitl [Hg]; · iexact Hg
      isplitl [Hwc]; · iexact Hwc
      isplitl [Hlev]; · iexact Hlev
      iexact Hscr
    isplitl [Ho]; · iexact Ho
    isplitl [Hx]; · iexact Hx
    isplitl [Hgm]; · iexact Hgm
    isplitl [Hb] <;> iassumption
  · iintro H; iexact H

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (scr m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held. -/
theorem finalA_in0 (c : Dev nD) : finalA m ρ c (0 : Fin 4) = (s₀ m ρ).mem (win0_0.arr.view.loc (c : Thread nD τ)) :=
  (dats (F := F) m ρ 0 c).arrAt_in (0 : Fin 4) rfl _
theorem finalA_in1 (c : Dev nD) : finalA m ρ c (1 : Fin 4) = (s₀ m ρ).mem (win0_1.arr.view.loc (c : Thread nD τ)) :=
  (dats (F := F) m ρ 0 c).arrAt_in (1 : Fin 4) rfl _
theorem finalA_in2 (c : Dev nD) : finalA m ρ c (2 : Fin 4) = (s₀ m ρ).mem (win0_2.arr.view.loc (c : Thread nD τ)) :=
  (dats (F := F) m ρ 0 c).arrAt_in (2 : Fin 4) rfl _

/-- The result array after the run is the result block: the one point's write-back overwrites the whole array. -/
theorem finalA_out (c : Dev nD) : finalA m ρ c (3 : Fin 4) = outv m c := by
  have h : (win0_3.blk (0 : Fin 1)).view.read (Elt F) (finalA m ρ c (3 : Fin 4)) = outv m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← h]
  exact (Memref.read_access_unit_zero (Elt F) main_v1 (off := fun a => win0_3.index (0 : Fin 1) a * win0_3.size a)
    (funext fun a => Nat.zero_mul _) _ _).symm

/-- The run in the form the claims use. -/
theorem run : θ_run defs (onTc (τ := τ) (main (F := F))) ⟨m, fun _ => 0, ρ⟩ (fun r => ∀ c : Dev nD,
    r.2.mem ((c.tc : Thread nD τ).loc main_v1)
        = outAt (fun d => m ((d.tc : Thread nD τ).loc main_arg0)) (fun d => m ((d.tc : Thread nD τ).loc main_arg1)) (fun d => m ((d.tc : Thread nD τ).loc main_arg2)) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨((h c (3 : Fin 4)).trans (finalA_out m ρ c)).trans (outv_eq m c),
     (h c (0 : Fin 4)).trans (finalA_in0 m ρ c), (h c (1 : Fin 4)).trans (finalA_in1 m ρ c), (h c (2 : Fin 4)).trans (finalA_in2 m ρ c)⟩)
    (run_main m ρ)

end Cert.KernelIdeal.Proto

end
-- ==== Proof.KVals.lean ====
/-
  What a device of the mesh computes, as pure functions of the arrays it and its three peers hold.

  Each device owns one block of 256 columns of the 512 x 1024 input. From its block it makes a SLAB of statistics,
  2 x 512: for every row the sum of the block's entries and the sum of their squares. Every device sends its slab to
  the three others; slot k of a device's 4 x 2 x 512 scratch ends up holding the slab of the device k places further
  round the ring (slot 0 its own). The result block is then a function of the device's own input block, its blocks of
  the scale and shift vectors, and the four slabs.
-/
import proofs.«900543_g7700000000000544_dist_layernorm_colshard_i_m512_n256_v7x_i4_bf16_1_alg».proof.Proof.Gen.Kernel.Skeleton
import Idealize.ShloMosaic.Lib.ValueIdx

noncomputable section

namespace Cert.Kernel.Vals

open Cert.Kernel Cert.Kernel.Gen
open Idealize.ShloMosaic Idealize.ShloMosaic.ValueIdx

variable {F : FTy → Type} [FloatOps F]

/-- The device `k` places after `c` round the ring of four. -/
def rot (c : Dev nD) (k : Nat) : Dev nD := ⟨(c.val + k) % 4, Nat.mod_lt _ (by decide)⟩

/-- One device's statistics of its block `x`: plane 0 the row sums, plane 1 the row sums of squares. -/
def slab (x : Vec F S512x256 .f32) : Vec F S1x2x512 .f32 := fun i =>
  if (i 1).val = 0 then k0_pay2 x (ix3 (0 : Fin 1) (0 : Fin 1) (i 2)) else k0_pay3 x (ix3 (0 : Fin 1) (0 : Fin 1) (i 2))

/-- The result block from the device's own blocks and the four slabs in scratch order. -/
def kout (x : Vec F S512x256 .f32) (g b : Vec F S256 .f32) (s0 s1 s2 s3 : Vec F S1x2x512 .f32) : Vec F S512x256 .bf16 :=
  k0_pay7 (k0_pay1 x) (k0_pay4 g) (k0_pay5 b) (k0_pay6 s0 s1) s2 s3

/-- Device `c`'s result block when device `d` holds the blocks `xs d`, `gs d`, `bs d`. -/
def outAt (xs : Dev nD → Vec F S512x256 .f32) (gs bs : Dev nD → Vec F S256 .f32) (c : Dev nD) : Vec F S512x256 .bf16 :=
  kout (xs c) (gs c) (bs c) (slab (xs c)) (slab (xs (rot c 1))) (slab (xs (rot c 2))) (slab (xs (rot c 3)))

end Cert.Kernel.Vals

end
-- ==== Proof.KProto.Cells.lean ====
/-
  The ring of four devices and what each holds.

  Device c signals each of the three others' barrier semaphore once and waits for three units on its own; then it sends its
  slab of statistics (slot 0 of its 4 x 2 x 512 scratch) to the device k places further on, k = 1, 2, 3, where it lands in
  slot 4 - k; the k-th transfer has a send semaphore on the sender and a receive semaphore on the receiver of its own.
  So slot s of device c ends up holding the slab of the device s places further round the ring: `scr c` below is the whole
  scratch in that final state, and every statement about a slot's contents is a statement about `scr c` on that slot.
-/
import proofs.«900543_g7700000000000544_dist_layernorm_colshard_i_m512_n256_v7x_i4_bf16_1_alg».proof.Proof.KVals
import proofs.«900543_g7700000000000544_dist_layernorm_colshard_i_m512_n256_v7x_i4_bf16_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem rot_rot (c : Dev nD) (a b : Nat) : rot (rot c a) b = rot c (a + b) := by
  unfold rot; exact Fin.ext (by simp only []; omega)
theorem rot_four (c : Dev nD) : rot c 4 = c := by revert c; decide
theorem rot_zero (c : Dev nD) : rot c 0 = c := by revert c; decide

/-- The kernel's `device_id` chains: signal k and transfer k name the device k places further on. -/
theorem k0_dev1_eq (c : Dev nD) : k0_dev1 c = (rot c 1).val := by revert c; decide +kernel
theorem k0_dev2_eq (c : Dev nD) : k0_dev2 c = (rot c 2).val := by revert c; decide +kernel
theorem k0_dev3_eq (c : Dev nD) : k0_dev3 c = (rot c 3).val := by revert c; decide +kernel
theorem k0_dev4_eq (c : Dev nD) : k0_dev4 c = (rot c 1).val := by revert c; decide +kernel
theorem k0_dev5_eq (c : Dev nD) : k0_dev5 c = (rot c 2).val := by revert c; decide +kernel
theorem k0_dev6_eq (c : Dev nD) : k0_dev6 c = (rot c 3).val := by revert c; decide +kernel
theorem dev1_eq (c : Dev nD) : (⟨k0_dev1 c, k0_dev1_lt c⟩ : Dev nD) = rot c 1 := Fin.ext (k0_dev1_eq c)
theorem dev2_eq (c : Dev nD) : (⟨k0_dev2 c, k0_dev2_lt c⟩ : Dev nD) = rot c 2 := Fin.ext (k0_dev2_eq c)
theorem dev3_eq (c : Dev nD) : (⟨k0_dev3 c, k0_dev3_lt c⟩ : Dev nD) = rot c 3 := Fin.ext (k0_dev3_eq c)
theorem dev4_eq (c : Dev nD) : (⟨k0_dev4 c, k0_dev4_lt c⟩ : Dev nD) = rot c 1 := Fin.ext (k0_dev4_eq c)
theorem dev5_eq (c : Dev nD) : (⟨k0_dev5 c, k0_dev5_lt c⟩ : Dev nD) = rot c 2 := Fin.ext (k0_dev5_eq c)
theorem dev6_eq (c : Dev nD) : (⟨k0_dev6 c, k0_dev6_lt c⟩ : Dev nD) = rot c 3 := Fin.ext (k0_dev6_eq c)

/-! ## The memrefs and cells -/

abbrev xM : Memref sig .tc .vmem S512x256 .f32 := Memref.whole cc0_stg0_0
abbrev gM : Memref sig .tc .vmem S256 .f32 := Memref.whole cc0_stg1_0
abbrev bM : Memref sig .tc .vmem S256 .f32 := Memref.whole cc0_stg2_0
abbrev oM : Memref sig .tc .vmem S512x256 .bf16 := Memref.whole cc0_stg3_0
abbrev rM : Memref sig .tc .vmem S4x2x512 .f32 := Memref.whole cc0_scratch0

/-- Slot s of the scratch as the 2 x 512 memref the transfers go through. -/
abbrev slot0 : Memref sig .tc .vmem S2x512 .f32 :=
  ((rM.slice (Rect.unit (s := S4x2x512) ![0, 0, 0] S1x2x512.size inb_S4x2x512_S1x2x512_0_0_0) (fun _ => rfl)).squeeze S2x512 squeezes_S1x2x512_S2x512)
abbrev slot1 : Memref sig .tc .vmem S2x512 .f32 :=
  ((rM.slice (Rect.unit (s := S4x2x512) ![1, 0, 0] S1x2x512.size inb_S4x2x512_S1x2x512_1_0_0) (fun _ => rfl)).squeeze S2x512 squeezes_S1x2x512_S2x512)
abbrev slot2 : Memref sig .tc .vmem S2x512 .f32 :=
  ((rM.slice (Rect.unit (s := S4x2x512) ![2, 0, 0] S1x2x512.size inb_S4x2x512_S1x2x512_2_0_0) (fun _ => rfl)).squeeze S2x512 squeezes_S1x2x512_S2x512)
abbrev slot3 : Memref sig .tc .vmem S2x512 .f32 :=
  ((rM.slice (Rect.unit (s := S4x2x512) ![3, 0, 0] S1x2x512.size inb_S4x2x512_S1x2x512_3_0_0) (fun _ => rfl)).squeeze S2x512 squeezes_S1x2x512_S2x512)

/-- The runtime's barrier semaphore of collective id 0 (unscoped); the three send and three receive DMA semaphores. -/
abbrev barS : Sem sig := (SemArray.scalar (sig.barrier 0 rfl) : Sems sig S_).sem
abbrev sendS (j : Fin 3) : DmaSem sig := ⟨4 + j.val, by have := j.isLt; show 4 + j.val < 10; omega⟩
abbrev recvS (j : Fin 3) : DmaSem sig := ⟨7 + j.val, by have := j.isLt; show 7 + j.val < 10; omega⟩

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

example : ((cc0_scratch1.slice (Rect.unit (s := S3) ![0] S1.size inb_S3_S1_0)).squeeze S_ squeezes_S1_S_).sem = sendS 0 := by rfl
example : ((cc0_scratch2.slice (Rect.unit (s := S3) ![2] S1.size inb_S3_S1_2)).squeeze S_ squeezes_S1_S_).sem = recvS 2 := by rfl

abbrev N : ℕ := (slot0 : Memref sig .tc .vmem S2x512 .f32).view.dmaCredit
theorem N_pos : 0 < N := View.dmaCredit_pos _ (by decide)

/-! ## Rectangles the body accesses -/

abbrev rx : Rect S512x256 := Rect.unit (s := S512x256) ![0, 0] S512x256.size inb_S512x256_S512x256_0_0
abbrev rv : Rect S256 := Rect.unit (s := S256) ![0] S256.size inb_S256_S256_0
abbrev r00 : Rect S4x2x512 := Rect.unit (s := S4x2x512) ![0, 0, 0] S1x1x512.size inb_S4x2x512_S1x1x512_0_0_0
abbrev r01 : Rect S4x2x512 := Rect.unit (s := S4x2x512) ![0, 1, 0] S1x1x512.size inb_S4x2x512_S1x1x512_0_1_0
abbrev rs0 : Rect S4x2x512 := Rect.unit (s := S4x2x512) ![0, 0, 0] S1x2x512.size inb_S4x2x512_S1x2x512_0_0_0
abbrev rs1 : Rect S4x2x512 := Rect.unit (s := S4x2x512) ![1, 0, 0] S1x2x512.size inb_S4x2x512_S1x2x512_1_0_0
abbrev rs2 : Rect S4x2x512 := Rect.unit (s := S4x2x512) ![2, 0, 0] S1x2x512.size inb_S4x2x512_S1x2x512_2_0_0
abbrev rs3 : Rect S4x2x512 := Rect.unit (s := S4x2x512) ![3, 0, 0] S1x2x512.size inb_S4x2x512_S1x2x512_3_0_0

/-! ## Contents -/

/-- What the three input staging buffers of device `c` hold when the body runs: its blocks, as launched. -/
def xstg (c : Dev nD) : (cc0_stg0_0 : Ref sig .tc).ty.Contents (Elt F) :=
  (win0_0.blk (0 : Fin 1)).view.read (Elt F) (m ((c : Thread nD τ).loc main_arg0))
def gstg (c : Dev nD) : (cc0_stg1_0 : Ref sig .tc).ty.Contents (Elt F) :=
  (win0_1.blk (0 : Fin 1)).view.read (Elt F) (m ((c : Thread nD τ).loc main_arg1))
def bstg (c : Dev nD) : (cc0_stg2_0 : Ref sig .tc).ty.Contents (Elt F) :=
  (win0_2.blk (0 : Fin 1)).view.read (Elt F) (m ((c : Thread nD τ).loc main_arg2))

/-- The scratch of device `c` in its final state: slot s holds the slab of the device s places further round the ring. -/
def scr (c : Dev nD) : (cc0_scratch0 : Ref sig .tc).ty.Contents (Elt F) := fun i =>
  slab (xstg m (rot c (i 0).val)) (ValueIdx.ix3 (0 : Fin 1) (i 1) (i 2))

/-- The result block device `c` stores. -/
def outv (c : Dev nD) : (cc0_stg3_0 : Ref sig .tc).ty.Contents (Elt F) :=
  kout (xstg m c) (gstg m c) (bstg m c) (slab (xstg m c)) (slab (xstg m (rot c 1))) (slab (xstg m (rot c 2))) (slab (xstg m (rot c 3)))

omit [FloatOps F] in
theorem xstg_eq (c : Dev nD) : xstg m c = m ((c : Thread nD τ).loc main_arg0) := by
  unfold xstg
  exact Memref.read_access_unit_zero (Elt F) main_arg0 (off := fun a => win0_0.index (0 : Fin 1) a * win0_0.size a)
    (funext fun a => Nat.zero_mul _) _ _
omit [FloatOps F] in
theorem gstg_eq (c : Dev nD) : gstg m c = m ((c : Thread nD τ).loc main_arg1) := by
  unfold gstg
  exact Memref.read_access_unit_zero (Elt F) main_arg1 (off := fun a => win0_1.index (0 : Fin 1) a * win0_1.size a)
    (funext fun a => Nat.zero_mul _) _ _
omit [FloatOps F] in
theorem bstg_eq (c : Dev nD) : bstg m c = m ((c : Thread nD τ).loc main_arg2) := by
  unfold bstg
  exact Memref.read_access_unit_zero (Elt F) main_arg2 (off := fun a => win0_2.index (0 : Fin 1) a * win0_2.size a)
    (funext fun a => Nat.zero_mul _) _ _

/-- The result block is `outAt` of the three argument arrays as launched. -/
theorem outv_eq (c : Dev nD) :
    outv m c = outAt (fun d => m ((d : Thread nD τ).loc main_arg0)) (fun d => m ((d : Thread nD τ).loc main_arg1)) (fun d => m ((d : Thread nD τ).loc main_arg2)) c := by
  unfold outv outAt; simp only [xstg_eq, gstg_eq, bstg_eq]

/-! ## Points-to of a slot -/

/-- Share `q` of the elements of slot `s` (one of `slot0` … `slot3`) of device `c`'s scratch, at contents `f` (a valuation of the
    whole scratch, read on the slot only). -/
abbrev slotPts (s : Memref sig .tc .vmem S2x512 .f32) (c : Dev nD) (q : PosShare TreeShare) (f : Buf (Elt F) (s.view.loc (c : Thread nD τ))) : sProp 𝕄 :=
  s.view.loc (c : Thread nD τ) ↦[s.view.set]{q} f

/-! ### The slots' element sets

Slot s is the rectangle of the scratch at first coordinate s, whole on the two other axes: an index lies in it exactly when
its first coordinate is s. -/

/-- An index of the scratch lies in the rectangle 1 x 2 x 512 at offset (s, 0, 0) exactly when its first coordinate is s:
    the two other axes are covered whole. -/
theorem mem_rs (s : Nat) (inb : ∀ a, (![s, 0, 0] : Fin 3 → Nat) a + S1x2x512.size a ≤ S4x2x512.size a) (i : S4x2x512.Idx) :
    i ∈ (Rect.unit (s := S4x2x512) ![s, 0, 0] S1x2x512.size inb).set ↔ (i 0).val = s := by
  rw [Rect.mem_set_unit]
  constructor
  · intro h
    have h0 := h (0 : Fin 3)
    have e1 : (![s, 0, 0] : Fin 3 → Nat) 0 = s := rfl
    have e2 : S1x2x512.size (0 : Fin 3) = 1 := rfl
    rw [e1, e2] at h0
    omega
  · intro h a
    match a with
    | ⟨0, _⟩ =>
      show s ≤ (i 0).val ∧ (i 0).val < s + 1
      omega
    | ⟨1, _⟩ =>
      show 0 ≤ (i 1).val ∧ (i 1).val < 0 + 2
      have h2 : (i 1).val < 2 := (i 1).isLt
      omega
    | ⟨2, _⟩ =>
      show 0 ≤ (i 2).val ∧ (i 2).val < 0 + 512
      have h2 : (i 2).val < 512 := (i 2).isLt
      omega

/-- Dropping the unit axis keeps a slot's elements: they are its rectangle's. -/
theorem slot0_set : (slot0 : Memref sig .tc .vmem S2x512 .f32).view.set = rs0.set := by
  simp only [Memref.view_squeeze, Memref.view_slice, Memref.view_whole, View.set_reshape, View.set_slice_whole]
theorem slot1_set : (slot1 : Memref sig .tc .vmem S2x512 .f32).view.set = rs1.set := by
  simp only [Memref.view_squeeze, Memref.view_slice, Memref.view_whole, View.set_reshape, View.set_slice_whole]
theorem slot2_set : (slot2 : Memref sig .tc .vmem S2x512 .f32).view.set = rs2.set := by
  simp only [Memref.view_squeeze, Memref.view_slice, Memref.view_whole, View.set_reshape, View.set_slice_whole]
theorem slot3_set : (slot3 : Memref sig .tc .vmem S2x512 .f32).view.set = rs3.set := by
  simp only [Memref.view_squeeze, Memref.view_slice, Memref.view_whole, View.set_reshape, View.set_slice_whole]

theorem mem_slot0 (i : S4x2x512.Idx) : i ∈ (slot0 : Memref sig .tc .vmem S2x512 .f32).view.set ↔ (i 0).val = 0 := by
  rw [slot0_set]; exact mem_rs 0 _ i
theorem mem_slot1 (i : S4x2x512.Idx) : i ∈ (slot1 : Memref sig .tc .vmem S2x512 .f32).view.set ↔ (i 0).val = 1 := by
  rw [slot1_set]; exact mem_rs 1 _ i
theorem mem_slot2 (i : S4x2x512.Idx) : i ∈ (slot2 : Memref sig .tc .vmem S2x512 .f32).view.set ↔ (i 0).val = 2 := by
  rw [slot2_set]; exact mem_rs 2 _ i
theorem mem_slot3 (i : S4x2x512.Idx) : i ∈ (slot3 : Memref sig .tc .vmem S2x512 .f32).view.set ↔ (i 0).val = 3 := by
  rw [slot3_set]; exact mem_rs 3 _ i

omit [FloatOps F] in
/-- The whole scratch is its four slots. -/
theorem scratch_split (c : Dev nD) (f : Buf (Elt F) ((c : Thread nD τ).loc cc0_scratch0)) :
    ((((c : Thread nD τ).loc cc0_scratch0) ↦{fullShare} f : sProp 𝕄))
      ⊣⊢ iprop(slotPts slot0 c fullShare f ∗ slotPts slot1 c fullShare f ∗ slotPts slot2 c fullShare f ∗ slotPts slot3 c fullShare f) := by
  -- every index has first coordinate 0, 1, 2 or 3: the four slots cover the scratch
  have hU : (Finset.univ : Finset S4x2x512.Idx) = (slot0 : Memref sig .tc .vmem S2x512 .f32).view.set ∪ ((slot1 : Memref sig .tc .vmem S2x512 .f32).view.set ∪ ((slot2 : Memref sig .tc .vmem S2x512 .f32).view.set ∪ (slot3 : Memref sig .tc .vmem S2x512 .f32).view.set)) := by
    ext i
    refine ⟨fun _ => ?_, fun _ => Finset.mem_univ _⟩
    have h4 : (i 0).val < 4 := (i 0).isLt
    rcases (by omega : (i 0).val = 0 ∨ (i 0).val = 1 ∨ (i 0).val = 2 ∨ (i 0).val = 3) with h | h | h | h
    · exact Finset.mem_union_left _ ((mem_slot0 i).mpr h)
    · exact Finset.mem_union_right _ (Finset.mem_union_left _ ((mem_slot1 i).mpr h))
    · exact Finset.mem_union_right _ (Finset.mem_union_right _ (Finset.mem_union_left _ ((mem_slot2 i).mpr h)))
    · exact Finset.mem_union_right _ (Finset.mem_union_right _ (Finset.mem_union_right _ ((mem_slot3 i).mpr h)))
  -- and slots at different first coordinates share no index
  have d0 : Disjoint (slot0 : Memref sig .tc .vmem S2x512 .f32).view.set ((slot1 : Memref sig .tc .vmem S2x512 .f32).view.set ∪ ((slot2 : Memref sig .tc .vmem S2x512 .f32).view.set ∪ (slot3 : Memref sig .tc .vmem S2x512 .f32).view.set)) := by
    rw [Finset.disjoint_left]
    intro i h0 h
    have e0 := (mem_slot0 i).mp h0
    rcases Finset.mem_union.mp h with h | h
    · have := (mem_slot1 i).mp h; omega
    · rcases Finset.mem_union.mp h with h | h
      · have := (mem_slot2 i).mp h; omega
      · have := (mem_slot3 i).mp h; omega
  have d1 : Disjoint (slot1 : Memref sig .tc .vmem S2x512 .f32).view.set ((slot2 : Memref sig .tc .vmem S2x512 .f32).view.set ∪ (slot3 : Memref sig .tc .vmem S2x512 .f32).view.set) := by
    rw [Finset.disjoint_left]
    intro i h0 h
    have e0 := (mem_slot1 i).mp h0
    rcases Finset.mem_union.mp h with h | h
    · have := (mem_slot2 i).mp h; omega
    · have := (mem_slot3 i).mp h; omega
  have d2 : Disjoint (slot2 : Memref sig .tc .vmem S2x512 .f32).view.set (slot3 : Memref sig .tc .vmem S2x512 .f32).view.set := by
    rw [Finset.disjoint_left]
    intro i h0 h
    have e0 := (mem_slot2 i).mp h0
    have := (mem_slot3 i).mp h; omega
  refine (BIBase.BiEntails.of_eq (congrArg (fun S => (pointsTo ((c : Thread nD τ).loc cc0_scratch0) S fullShare f : sProp 𝕄)) hU)).trans ?_
  refine (pointsTo_union d0).trans (sep_congr_right ?_)
  refine (pointsTo_union d1).trans (sep_congr_right ?_)
  exact pointsTo_union d2

/-! ## The view facts the body needs -/

section ViewFacts
variable (c : Dev nD)

/-- The whole scratch's view places every index at itself. -/
theorem rM_setOn (M : Finset S4x2x512.Idx) : (rM : Memref sig .tc .vmem S4x2x512 .f32).view.setOn M = M := by
  show M.map (Function.Embedding.refl _) = M
  exact Finset.map_refl

/-- A store through a rectangle of the whole scratch touches the rectangle's indices. -/
theorem access_setOn_univ (r : Rect S4x2x512) : ((rM : Memref sig .tc .vmem S4x2x512 .f32).access r).setOn Finset.univ = r.set := by
  show ((View.whole cc0_scratch0).slice r).set = r.set
  exact View.set_slice_whole cc0_scratch0 r

/-- A row of slot 0 (plane a, all 512 columns) lies in slot 0's rectangle: its first coordinate is 0. -/
theorem row_sub_rs0 (a : Nat) (inb : ∀ k, (![0, a, 0] : Fin 3 → Nat) k + S1x1x512.size k ≤ S4x2x512.size k) :
    (Rect.unit (s := S4x2x512) ![0, a, 0] S1x1x512.size inb).set ⊆ rs0.set := by
  intro i hi
  have h0 : (0 : ℕ) ≤ (i 0).val ∧ (i 0).val < 0 + 1 := Rect.mem_set_unit.mp hi (0 : Fin 3)
  exact (mem_rs 0 _ i).mpr (by omega)

omit [FloatOps F] in
theorem sub_r00 : (rM : Memref sig .tc .vmem S4x2x512 .f32).view.setOn r00.toLoadRect.set ⊆ (slot0 : Memref sig .tc .vmem S2x512 .f32).view.set := by
  rw [rM_setOn, slot0_set]; exact row_sub_rs0 0 _
omit [FloatOps F] in
theorem sub_r01 : (rM : Memref sig .tc .vmem S4x2x512 .f32).view.setOn r01.toLoadRect.set ⊆ (slot0 : Memref sig .tc .vmem S2x512 .f32).view.set := by
  rw [rM_setOn, slot0_set]; exact row_sub_rs0 1 _
omit [FloatOps F] in
theorem sub_w00 : ((rM : Memref sig .tc .vmem S4x2x512 .f32).access r00).setOn Finset.univ ⊆ (slot0 : Memref sig .tc .vmem S2x512 .f32).view.set := by
  rw [access_setOn_univ, slot0_set]; exact row_sub_rs0 0 _
omit [FloatOps F] in
theorem sub_w01 : ((rM : Memref sig .tc .vmem S4x2x512 .f32).access r01).setOn Finset.univ ⊆ (slot0 : Memref sig .tc .vmem S2x512 .f32).view.set := by
  rw [access_setOn_univ, slot0_set]; exact row_sub_rs0 1 _
omit [FloatOps F] in
theorem sub_rs0 : (rM : Memref sig .tc .vmem S4x2x512 .f32).view.setOn rs0.toLoadRect.set ⊆ (slot0 : Memref sig .tc .vmem S2x512 .f32).view.set := by
  rw [rM_setOn, slot0_set]
omit [FloatOps F] in
theorem sub_rs1 : (rM : Memref sig .tc .vmem S4x2x512 .f32).view.setOn rs1.toLoadRect.set ⊆ (slot1 : Memref sig .tc .vmem S2x512 .f32).view.set := by
  rw [rM_setOn, slot1_set]
omit [FloatOps F] in
theorem sub_rs2 : (rM : Memref sig .tc .vmem S4x2x512 .f32).view.setOn rs2.toLoadRect.set ⊆ (slot2 : Memref sig .tc .vmem S2x512 .f32).view.set := by
  rw [rM_setOn, slot2_set]
omit [FloatOps F] in
theorem sub_rs3 : (rM : Memref sig .tc .vmem S4x2x512 .f32).view.setOn rs3.toLoadRect.set ⊆ (slot3 : Memref sig .tc .vmem S2x512 .f32).view.set := by
  rw [rM_setOn, slot3_set]

/-! ### Contents at an index

A slab's entry depends on its plane and its row only; slot s of the scratch puts its index (a, r) at (s, a, r). With these two
facts every statement about a slot's contents is an equation between entries of slabs. -/

/-- Entry (plane a, row r) of a device's slab: plane 0 the row sums, any other plane the row sums of squares. -/
def slabAt (x : Vec F S512x256 .f32) (a : ℕ) (r : Fin 512) : F .f32 :=
  if a = 0 then k0_pay2 x (ValueIdx.ix3 (0 : Fin 1) (0 : Fin 1) r) else k0_pay3 x (ValueIdx.ix3 (0 : Fin 1) (0 : Fin 1) r)

theorem slab_apply (x : Vec F S512x256 .f32) (i : S1x2x512.Idx) : slab x i = slabAt x (i 1).val (i 2) := rfl

theorem scr_apply (c : Dev nD) (i : S4x2x512.Idx) : scr m c i = slabAt (xstg m (rot c (i 0).val)) (i 1).val (i 2) := rfl

/-- The 2 x 512 view of the slot at first coordinate s. -/
abbrev slotV (s : Nat) (inb : ∀ a, (![s, 0, 0] : Fin 3 → Nat) a + S1x2x512.size a ≤ S4x2x512.size a) : View sig .tc .vmem S2x512 .f32 :=
  (((rM : Memref sig .tc .vmem S4x2x512 .f32).slice (Rect.unit (s := S4x2x512) ![s, 0, 0] S1x2x512.size inb) (fun _ => rfl)).squeeze S2x512 squeezes_S1x2x512_S2x512).view

/-- Slot s puts its index (a, r) at (s, a, r) of the scratch. -/
theorem slotV_emb (s : Nat) (inb : ∀ a, (![s, 0, 0] : Fin 3 → Nat) a + S1x2x512.size a ≤ S4x2x512.size a) (z : S2x512.Idx) :
    (((slotV s inb).emb z : S4x2x512.Idx) 0).val = s ∧ (((slotV s inb).emb z : S4x2x512.Idx) 1).val = (z 0).val
      ∧ (((slotV s inb).emb z : S4x2x512.Idx) 2).val = (z 1).val := by
  have e : ((slotV s inb).emb z : S4x2x512.Idx) = (Rect.unit (s := S4x2x512) ![s, 0, 0] S1x2x512.size inb).emb (Fin.cons ⟨0, Nat.one_pos⟩ z) :=
    congrArg (Rect.unit (s := S4x2x512) ![s, 0, 0] S1x2x512.size inb).emb
      (Shape.reshapeEquiv_cons_one (n := 2) (d := ![2, 512]) squeezes_S1x2x512_S2x512.numel_eq z)
  rw [e]
  refine ⟨?_, ?_, ?_⟩
  · show s + 1 * 0 = s; omega
  · show 0 + 1 * (z 0).val = (z 0).val; omega
  · show 0 + 1 * (z 1).val = (z 1).val; omega

omit [FloatOps F] in
theorem slotV_read (s : Nat) (inb : ∀ a, (![s, 0, 0] : Fin 3 → Nat) a + S1x2x512.size a ≤ S4x2x512.size a)
    (f : (cc0_scratch0 : Ref sig .tc).ty.Contents (Elt F)) (z : S2x512.Idx) :
    (slotV s inb).read (Elt F) f z = f ((slotV s inb).emb z) := by
  rw [View.read_apply]; exact cast_eq _ _

omit [FloatOps F] in
theorem slotV_write_emb (s : Nat) (inb : ∀ a, (![s, 0, 0] : Fin 3 → Nat) a + S1x2x512.size a ≤ S4x2x512.size a)
    (f : (cc0_scratch0 : Ref sig .tc).ty.Contents (Elt F)) (w : S2x512.Idx → F .f32) (z : S2x512.Idx) :
    (slotV s inb).write (Elt F) f w Finset.univ ((slotV s inb).emb z) = w z := by
  rw [View.write_emb_of_mem _ _ (Finset.mem_univ z)]; exact cast_eq _ _

/-- Every element of slot s is the image of its last two coordinates. -/
theorem eq_slotV_emb (s : Nat) (inb : ∀ a, (![s, 0, 0] : Fin 3 → Nat) a + S1x2x512.size a ≤ S4x2x512.size a)
    (i : S4x2x512.Idx) (h0 : (i 0).val = s) :
    i = (slotV s inb).emb (ValueIdx.ix2 (i 1 : Fin 2) (i 2 : Fin 512)) := by
  obtain ⟨e0, e1, e2⟩ := slotV_emb s inb (ValueIdx.ix2 (i 1 : Fin 2) (i 2 : Fin 512))
  funext k
  match k with
  | ⟨0, _⟩ => exact Fin.ext (h0.trans e0.symm)
  | ⟨1, _⟩ => exact Fin.ext e1.symm
  | ⟨2, _⟩ => exact Fin.ext e2.symm

/-- What slot 0 of a sender holding its own slab reads, written into slot s of a receiver whose s-th successor is the sender,
    is the receiver's final contents on slot s. -/
theorem landing_gen (s : Nat) (inb : ∀ a, (![s, 0, 0] : Fin 3 → Nat) a + S1x2x512.size a ≤ S4x2x512.size a)
    (c d : Dev nD) (hd : rot d s = c)
    (fs : (cc0_scratch0 : Ref sig .tc).ty.Contents (Elt F)) (hfs : ∀ i : S4x2x512.Idx, (i 0).val = 0 → fs i = scr m c i)
    (fd : (cc0_scratch0 : Ref sig .tc).ty.Contents (Elt F)) (i : S4x2x512.Idx) (h0 : (i 0).val = s) :
    ((slotV s inb).write (Elt F) fd ((slotV 0 inb_S4x2x512_S1x2x512_0_0_0).read (Elt F) fs) Finset.univ) i = scr m d i := by
  have hi := eq_slotV_emb s inb i h0
  obtain ⟨a0, a1, a2⟩ := slotV_emb 0 inb_S4x2x512_S1x2x512_0_0_0 (ValueIdx.ix2 (i 1 : Fin 2) (i 2 : Fin 512))
  refine (congrArg ((slotV s inb).write (Elt F) fd ((slotV 0 inb_S4x2x512_S1x2x512_0_0_0).read (Elt F) fs) Finset.univ) hi).trans ?_
  rw [slotV_write_emb, slotV_read, hfs _ a0, scr_apply, scr_apply, a0, a1, h0, hd, rot_zero]
  congr 1
  exact Fin.ext a2

/-- Loading slot s of a scratch that holds its final contents there gives the slab of the device s places further on. -/
theorem read_slot_gen (s : Nat) (inb : ∀ a, (![s, 0, 0] : Fin 3 → Nat) a + S1x2x512.size a ≤ S4x2x512.size a)
    (c : Dev nD) (f : (cc0_scratch0 : Ref sig .tc).ty.Contents (Elt F)) (hf : ∀ i : S4x2x512.Idx, (i 0).val = s → f i = scr m c i) :
    (rM : Memref sig .tc .vmem S4x2x512 .f32).view.readAt (Elt F) (Rect.unit (s := S4x2x512) ![s, 0, 0] S1x2x512.size inb).toLoadRect f
      = slab (xstg m (rot c s)) := by
  funext x
  show f ((Rect.unit (s := S4x2x512) ![s, 0, 0] S1x2x512.size inb).toLoadRect.idx x) = _
  have h0 : (((Rect.unit (s := S4x2x512) ![s, 0, 0] S1x2x512.size inb).toLoadRect.idx x : S4x2x512.Idx) 0).val = s := by
    show s + 1 * (x 0).val = s
    have : (x 0).val < 1 := (x 0).isLt
    omega
  rw [hf _ h0, scr_apply, slab_apply, h0]
  congr 1
  · show 0 + 1 * (x 1).val = (x 1).val; omega
  · apply Fin.ext; show 0 + 1 * (x 2).val = (x 2).val; omega

omit [FloatOps F] in
/-- A store through the row rectangle (plane a of slot 0) leaves its payload at the row's elements, -/
theorem row_write_hit (a : Nat) (inb : ∀ k, (![0, a, 0] : Fin 3 → Nat) k + S1x1x512.size k ≤ S4x2x512.size k)
    (g : (cc0_scratch0 : Ref sig .tc).ty.Contents (Elt F)) (w : S1x1x512.Idx → F .f32) (y : S1x1x512.Idx) :
    (((rM : Memref sig .tc .vmem S4x2x512 .f32).access (Rect.unit (s := S4x2x512) ![0, a, 0] S1x1x512.size inb) : View sig .tc _ _ _).write (Elt F) g w Finset.univ)
      (((rM : Memref sig .tc .vmem S4x2x512 .f32).access (Rect.unit (s := S4x2x512) ![0, a, 0] S1x1x512.size inb) : View sig .tc _ _ _).emb y) = w y := by
  rw [View.write_emb_of_mem _ _ (Finset.mem_univ y)]; exact cast_eq _ _

omit [FloatOps F] in
/-- and every element of another plane as it was. -/
theorem row_write_miss (a : Nat) (inb : ∀ k, (![0, a, 0] : Fin 3 → Nat) k + S1x1x512.size k ≤ S4x2x512.size k)
    (g : (cc0_scratch0 : Ref sig .tc).ty.Contents (Elt F)) (w : S1x1x512.Idx → F .f32) (i : S4x2x512.Idx) (h : (i 1).val ≠ a) :
    (((rM : Memref sig .tc .vmem S4x2x512 .f32).access (Rect.unit (s := S4x2x512) ![0, a, 0] S1x1x512.size inb) : View sig .tc _ _ _).write (Elt F) g w Finset.univ) i = g i := by
  refine View.write_of_not_mem _ _ _ ?_
  rw [access_setOn_univ]
  intro hi
  have h1 : a ≤ (i 1).val ∧ (i 1).val < a + 1 := Rect.mem_set_unit.mp hi (1 : Fin 3)
  omega

/-- An element of slot 0 in plane a is the row rectangle's image of its column. -/
theorem eq_row_emb (a : Nat) (inb : ∀ k, (![0, a, 0] : Fin 3 → Nat) k + S1x1x512.size k ≤ S4x2x512.size k)
    (i : S4x2x512.Idx) (h0 : (i 0).val = 0) (h1 : (i 1).val = a) :
    i = ((rM : Memref sig .tc .vmem S4x2x512 .f32).access (Rect.unit (s := S4x2x512) ![0, a, 0] S1x1x512.size inb) : View sig .tc _ _ _).emb
      (ValueIdx.ix3 (0 : Fin 1) (0 : Fin 1) (i 2 : Fin 512)) := by
  funext k
  match k with
  | ⟨0, _⟩ => exact Fin.ext (show (i 0).val = 0 + 1 * 0 by omega)
  | ⟨1, _⟩ => exact Fin.ext (show (i 1).val = a + 1 * 0 by omega)
  | ⟨2, _⟩ => exact Fin.ext (show (i 2).val = 0 + 1 * (i 2).val by omega)

/-- After the store of the row sums to plane 0 and of the row sums of squares to plane 1, slot 0 holds the device's own slab. -/
theorem stores_gen (c : Dev nD) (f : (cc0_scratch0 : Ref sig .tc).ty.Contents (Elt F)) (i : S4x2x512.Idx) (h0 : (i 0).val = 0) :
    (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ) i = scr m c i := by
  have h2 : (i 1).val < 2 := (i 1).isLt
  rw [scr_apply, h0, rot_zero]
  by_cases h1 : (i 1).val = 0
  · rw [row_write_miss 1 inb_S4x2x512_S1x1x512_0_1_0 _ _ i (by omega)]
    refine (congrArg (((rM : Memref sig .tc .vmem S4x2x512 .f32).access r00 : View sig .tc _ _ _).write (Elt F) f (k0_pay2 (xstg m c)) Finset.univ)
      (eq_row_emb 0 inb_S4x2x512_S1x1x512_0_0_0 i h0 h1)).trans ?_
    rw [row_write_hit 0 inb_S4x2x512_S1x1x512_0_0_0, h1]
    rfl
  · have h1' : (i 1).val = 1 := by omega
    refine (congrArg (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ)
      (eq_row_emb 1 inb_S4x2x512_S1x1x512_0_1_0 i h0 h1')).trans ?_
    rw [row_write_hit 1 inb_S4x2x512_S1x1x512_0_1_0, h1']
    rfl

/-- The two stores of the row sums and the row sums of squares leave slot 0 at the device's own slab. -/
theorem stores_eq (f : Buf (Elt F) ((c : Thread nD τ).loc cc0_scratch0)) :
    ∀ i ∈ (slot0 : Memref sig .tc .vmem S2x512 .f32).view.set,
      (((rM : Memref sig .tc .vmem S4x2x512 .f32).access r01 : View sig .tc _ _ _).write (Elt F)
        (((rM : Memref sig .tc .vmem S4x2x512 .f32).access r00 : View sig .tc _ _ _).write (Elt F) f (k0_pay2 (xstg m c)) Finset.univ)
        (k0_pay3 (xstg m c)) Finset.univ) i = scr m c i :=
  fun i hi => stores_gen m c f i ((mem_slot0 i).mp hi)

/-- A slab sent from slot 0 of device `c` lands in slot s of the device 4 - s places further on as that device's final contents. -/
theorem landing1 (fs : Buf (Elt F) ((c : Thread nD τ).loc cc0_scratch0)) (hfs : ∀ i ∈ (slot0 : Memref sig .tc .vmem S2x512 .f32).view.set, fs i = scr m c i)
    (fd : Buf (Elt F) (((rot c 3 : Dev nD) : Thread nD τ).loc cc0_scratch0)) :
    ∀ i ∈ (slot1 : Memref sig .tc .vmem S2x512 .f32).view.set,
      ((slot1 : Memref sig .tc .vmem S2x512 .f32).view.write (Elt F) fd ((slot0 : Memref sig .tc .vmem S2x512 .f32).view.read (Elt F) fs) Finset.univ) i = scr m (rot c 3) i :=
  fun i hi => landing_gen m 1 _ c (rot c 3) ((rot_rot c 3 1).trans (rot_four c)) fs (fun j hj => hfs j ((mem_slot0 j).mpr hj)) fd i ((mem_slot1 i).mp hi)
theorem landing2 (fs : Buf (Elt F) ((c : Thread nD τ).loc cc0_scratch0)) (hfs : ∀ i ∈ (slot0 : Memref sig .tc .vmem S2x512 .f32).view.set, fs i = scr m c i)
    (fd : Buf (Elt F) (((rot c 2 : Dev nD) : Thread nD τ).loc cc0_scratch0)) :
    ∀ i ∈ (slot2 : Memref sig .tc .vmem S2x512 .f32).view.set,
      ((slot2 : Memref sig .tc .vmem S2x512 .f32).view.write (Elt F) fd ((slot0 : Memref sig .tc .vmem S2x512 .f32).view.read (Elt F) fs) Finset.univ) i = scr m (rot c 2) i :=
  fun i hi => landing_gen m 2 _ c (rot c 2) ((rot_rot c 2 2).trans (rot_four c)) fs (fun j hj => hfs j ((mem_slot0 j).mpr hj)) fd i ((mem_slot2 i).mp hi)
theorem landing3 (fs : Buf (Elt F) ((c : Thread nD τ).loc cc0_scratch0)) (hfs : ∀ i ∈ (slot0 : Memref sig .tc .vmem S2x512 .f32).view.set, fs i = scr m c i)
    (fd : Buf (Elt F) (((rot c 1 : Dev nD) : Thread nD τ).loc cc0_scratch0)) :
    ∀ i ∈ (slot3 : Memref sig .tc .vmem S2x512 .f32).view.set,
      ((slot3 : Memref sig .tc .vmem S2x512 .f32).view.write (Elt F) fd ((slot0 : Memref sig .tc .vmem S2x512 .f32).view.read (Elt F) fs) Finset.univ) i = scr m (rot c 1) i :=
  fun i hi => landing_gen m 3 _ c (rot c 1) ((rot_rot c 1 3).trans (rot_four c)) fs (fun j hj => hfs j ((mem_slot0 j).mpr hj)) fd i ((mem_slot3 i).mp hi)

/-- Reading slot s of a scratch that holds its final contents there gives the slab of the device s places further on. -/
theorem read_slot0 (f : Buf (Elt F) ((c : Thread nD τ).loc cc0_scratch0)) (hf : ∀ i ∈ (slot0 : Memref sig .tc .vmem S2x512 .f32).view.set, f i = scr m c i) :
    (rM : Memref sig .tc .vmem S4x2x512 .f32).view.readAt (Elt F) rs0.toLoadRect f = slab (xstg m c) :=
  (read_slot_gen m 0 _ c f (fun i hi => hf i ((mem_slot0 i).mpr hi))).trans (by rw [rot_zero])
theorem read_slot1 (f : Buf (Elt F) ((c : Thread nD τ).loc cc0_scratch0)) (hf : ∀ i ∈ (slot1 : Memref sig .tc .vmem S2x512 .f32).view.set, f i = scr m c i) :
    (rM : Memref sig .tc .vmem S4x2x512 .f32).view.readAt (Elt F) rs1.toLoadRect f = slab (xstg m (rot c 1)) :=
  read_slot_gen m 1 _ c f (fun i hi => hf i ((mem_slot1 i).mpr hi))
theorem read_slot2 (f : Buf (Elt F) ((c : Thread nD τ).loc cc0_scratch0)) (hf : ∀ i ∈ (slot2 : Memref sig .tc .vmem S2x512 .f32).view.set, f i = scr m c i) :
    (rM : Memref sig .tc .vmem S4x2x512 .f32).view.readAt (Elt F) rs2.toLoadRect f = slab (xstg m (rot c 2)) :=
  read_slot_gen m 2 _ c f (fun i hi => hf i ((mem_slot2 i).mpr hi))
theorem read_slot3 (f : Buf (Elt F) ((c : Thread nD τ).loc cc0_scratch0)) (hf : ∀ i ∈ (slot3 : Memref sig .tc .vmem S2x512 .f32).view.set, f i = scr m c i) :
    (rM : Memref sig .tc .vmem S4x2x512 .f32).view.readAt (Elt F) rs3.toLoadRect f = slab (xstg m (rot c 3)) :=
  read_slot_gen m 3 _ c f (fun i hi => hf i ((mem_slot3 i).mpr hi))

/-- The zero offsets of a rank-2 and of a rank-1 rectangle, as constant functions. -/
theorem zeros2 : (![0, 0] : Fin 2 → Nat) = fun _ => 0 := by
  funext a; match a with | ⟨0, _⟩ => rfl | ⟨1, _⟩ => rfl
theorem zeros1 : (![0] : Fin 1 → Nat) = fun _ => 0 := by
  funext a; match a with | ⟨0, _⟩ => rfl

omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 zeros2 _ f
omit [FloatOps F] in
theorem read_g (f : (cc0_stg1_0 : Ref sig .tc).ty.Contents (Elt F)) : (gM : Memref sig .tc .vmem S256 .f32).view.readAt (Elt F) rv.toLoadRect f = f :=
  Memref.readAt_unit_zero (Elt F) cc0_stg1_0 zeros1 _ f
omit [FloatOps F] in
theorem read_b (f : (cc0_stg2_0 : Ref sig .tc).ty.Contents (Elt F)) : (bM : Memref sig .tc .vmem S256 .f32).view.readAt (Elt F) rv.toLoadRect f = f :=
  Memref.readAt_unit_zero (Elt F) cc0_stg2_0 zeros1 _ f
omit [FloatOps F] in
theorem write_out (f w : (cc0_stg3_0 : Ref sig .tc).ty.Contents (Elt F)) :
    ((oM : Memref sig .tc .vmem S512x256 .bf16).access rx : View sig .tc _ _ _).write (Elt F) f w Finset.univ = w :=
  Memref.write_access_unit_zero_univ (Elt F) cc0_stg3_0 zeros2 _ f w

end ViewFacts

end Cert.Kernel.Proto

end
-- ==== Proof.KProto.Sched.lean ====
/-
  The schedule of the ring's semaphores, one round each.

  A device's barrier cell has three duties of one unit, duty k paid by the device whose (k+1)-th signal reaches it, that is
  the device 3 - k places further on; with its unit that device hands over slot k + 1 of its own scratch — the slot the
  owner's transfer to it will land in — and the fact that its receive cell 2 - k is at round 0.
  Send cell j of a device has one duty: the transfer's credit, which returns the share of slot 0 the transfer read.
  Receive cell j of a device has one duty: the credit of the transfer from the device 3 - j places further on, landing
  in slot 3 - j, which returns that slot at its final contents.
-/
import proofs.«900543_g7700000000000544_dist_layernorm_colshard_i_m512_n256_v7x_i4_bf16_1_alg».proof.Proof.KProto.Cells
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shares of slot 0: one per transfer that reads it, one for the device's own loads -/

abbrev qS (j : Fin 3) : PosShare TreeShare :=
  match j with | 0 => fullShare.left.left | 1 => fullShare.left.right | 2 => fullShare.right.left
abbrev qMine : PosShare TreeShare := fullShare.right.right

/-! ## The schedule -/

/-- The slot of the payer's scratch that barrier duty `k` hands over. -/
abbrev slotOfDuty (k : Fin 3) : Memref sig .tc .vmem S2x512 .f32 := match k with | 0 => slot1 | 1 => slot2 | 2 => slot3
/-- The slot transfer `j` lands in, on the receiver. -/
abbrev slotOfRecv (j : Fin 3) : Memref sig .tc .vmem S2x512 .f32 := match j with | 0 => slot3 | 1 => slot2 | 2 => slot1

/-- What the payer of barrier duty `k` of device `c`'s cell — the device 3 - k places on — hands `c`. -/
def barPay (c : Dev nD) (k : Fin 3) : sProp 𝕄 := match k with
  | 0 => iprop((∃ f, slotPts slot1 (rot c 3) fullShare f) ∗ reached ER (recvCell (rot c 3) 2) 0)
  | 1 => iprop((∃ f, slotPts slot2 (rot c 2) fullShare f) ∗ reached ER (recvCell (rot c 2) 1) 0)
  | 2 => iprop((∃ f, slotPts slot3 (rot c 1) fullShare f) ∗ reached ER (recvCell (rot c 1) 0) 0)
/-- What the landing of transfer `j` hands the receiver `c`: the slot at its final contents. -/
def recvPay (c : Dev nD) (j : Fin 3) : sProp 𝕄 := match j with
  | 0 => slotPts slot3 c fullShare (scr m c)
  | 1 => slotPts slot2 c fullShare (scr m c)
  | 2 => slotPts slot1 c fullShare (scr m c)
/-- What the send credit of transfer `j` hands the sender `c` back: the share of slot 0 the transfer read. -/
def sendPay (c : Dev nD) (j : Fin 3) : sProp 𝕄 := slotPts slot0 c (qS j) (scr m c)

abbrev IsBar (g : GSem nD τ sig) : Prop := g.1.2 = .tc ∧ g.2 = .reg barS
abbrev IsXfer (g : GSem nD τ sig) : Prop := g.1.2 = .tc ∧ ∃ j : Fin 3, g.2 = .dma (sendS j) ∨ g.2 = .dma (recvS j)

def ringRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp)
  amount_pos g _ _ _ := by
    by_cases h : g.2 = .reg barS
    · rw [if_pos h]; exact Nat.one_pos
    · rw [if_neg h]; exact N_pos

instance ringRd_payload_storable (g : GSem nD τ sig) (r : ℕ) (d : Fin 3) :
    BI.Storable (upEmb : UEmb _ 𝕄) ((ringRd (F := F) m).payload g r d) := by
  show BI.Storable upEmb (if g.2 = .reg barS then barPay g.1.1 d
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp))
  unfold barPay recvPay sendPay
  (repeat' split) <;> infer_instance

theorem barPay_0 (c : Dev nD) : (barPay c 0 : sProp 𝕄) = iprop((∃ f, slotPts slot1 (rot c 3) fullShare f) ∗ reached ER (recvCell (rot c 3) 2) 0) := rfl
theorem barPay_1 (c : Dev nD) : (barPay c 1 : sProp 𝕄) = iprop((∃ f, slotPts slot2 (rot c 2) fullShare f) ∗ reached ER (recvCell (rot c 2) 1) 0) := rfl
theorem barPay_2 (c : Dev nD) : (barPay c 2 : sProp 𝕄) = iprop((∃ f, slotPts slot3 (rot c 1) fullShare f) ∗ reached ER (recvCell (rot c 1) 0) 0) := rfl
theorem recvPay_0 (c : Dev nD) : recvPay m c 0 = slotPts slot3 c fullShare (scr m c) := rfl
theorem recvPay_1 (c : Dev nD) : recvPay m c 1 = slotPts slot2 c fullShare (scr m c) := rfl
theorem recvPay_2 (c : Dev nD) : recvPay m c 2 = slotPts slot1 c fullShare (scr m c) := rfl

section Sched
variable (c : Dev nD) (j : Fin 3)

theorem send_ne_bar : (SemLoc.dma (sendS j) : SemLoc sig) ≠ .reg barS := fun h => by cases h
theorem recv_ne_bar : (SemLoc.dma (recvS j) : SemLoc sig) ≠ .reg barS := fun h => by cases h
theorem send_ne_recv (j' : Fin 3) : (SemLoc.dma (sendS j) : SemLoc sig) ≠ .dma (recvS j') := by revert j j'; decide
theorem recv_ne_send (j' : Fin 3) : (SemLoc.dma (recvS j) : SemLoc sig) ≠ .dma (sendS j') := by revert j j'; decide
theorem send_inj {j j' : Fin 3} (h : (SemLoc.dma (sendS j) : SemLoc sig) = .dma (sendS j')) : j = j' := by revert j j'; decide
theorem recv_inj {j j' : Fin 3} (h : (SemLoc.dma (recvS j) : SemLoc sig) = .dma (recvS j')) : j = j' := by revert j j'; decide
theorem not_bar_send : ¬ IsBar (sendCell c j) := fun h => send_ne_bar j h.2
theorem not_bar_recv : ¬ IsBar (recvCell c j) := fun h => recv_ne_bar j h.2

theorem duties_bar : (ringRd (F := F) m).duties (barCell c) 0 = Finset.univ := by dsimp only [ringRd]; exact if_pos ⟨rfl, rfl, rfl⟩
theorem duties_send : (ringRd (F := F) m).duties (sendCell c j) 0 = {0} := by
  dsimp only [ringRd]; rw [if_neg (fun h => not_bar_send c j h.2)]; exact if_pos ⟨rfl, rfl, j, .inl rfl⟩
theorem duties_recv : (ringRd (F := F) m).duties (recvCell c j) 0 = {0} := by
  dsimp only [ringRd]; rw [if_neg (fun h => not_bar_recv c j h.2)]; exact if_pos ⟨rfl, rfl, j, .inr rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Fin 3) : (ringRd (F := F) m).amount (barCell c) 0 d = 1 := by dsimp only [ringRd]; exact if_pos rfl
theorem amount_send (d : Fin 3) : (ringRd (F := F) m).amount (sendCell c j) 0 d = N := by dsimp only [ringRd]; exact if_neg (send_ne_bar j)
theorem amount_recv (d : Fin 3) : (ringRd (F := F) m).amount (recvCell c j) 0 d = N := by dsimp only [ringRd]; exact if_neg (recv_ne_bar j)

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c j) 0 = N := by
  unfold Schedule.expect Schedule.amountOf; rw [duties_recv, Finset.sum_singleton, amount_recv]

theorem payload_bar (d : Fin 3) : (ringRd (F := F) m).payload (barCell c) 0 d = barPay c d := by dsimp only [ringRd]; rw [if_pos rfl]
theorem payload_send (d : Fin 3) : (ringRd (F := F) m).payload (sendCell c j) 0 d = sendPay m c j := by
  dsimp only [ringRd]; rw [if_neg (send_ne_bar j)]
  match j with
  | 0 => exact if_pos rfl
  | 1 => rw [if_neg (by decide)]; exact if_pos rfl
  | 2 => rw [if_neg (by decide), if_neg (by decide)]; exact if_pos rfl
theorem payload_recv (d : Fin 3) : (ringRd (F := F) m).payload (recvCell c j) 0 d = recvPay m c j := by
  dsimp only [ringRd]; rw [if_neg (recv_ne_bar j)]
  match j with
  | 0 => rw [if_neg (by decide), if_neg (by decide), if_neg (by decide)]; exact if_pos rfl
  | 1 => rw [if_neg (by decide), if_neg (by decide), if_neg (by decide), if_neg (by decide)]; exact if_pos rfl
  | 2 => rw [if_neg (by decide), if_neg (by decide), if_neg (by decide), if_neg (by decide), if_neg (by decide)]; exact if_pos rfl

/-- The whole of the barrier cell's round, no duty taken: the three payers' payloads. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_univ_eq_bigSepL [0, 1, 2] (by decide) (by decide)]
  simp only [payload_bar]
  rfl
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c j) 0 \ ∅) (fun d => (ringRd (F := F) m).payload (recvCell c j) 0 d) = recvPay m c j := by
  rw [Finset.sdiff_empty, duties_recv, bigSep_singleton, payload_recv]

end Sched

end Cert.Kernel.Proto

end
-- ==== Proof.KProto.Levels.lean ====
/-
  What each device owes at launch, and why no wait can deadlock.

  At launch device c owes one unit to each other device's barrier cell and one transfer's credit to one receive cell of
  each other device. Levels: a barrier cell is at 1, a receive cell at 2, everything else (the pipeline's staging cells,
  the send cells) at 0. A wait is allowed at a level below everything the waiter still owes: the staging waits happen
  owing barrier and receive cells (levels 1 and 2) or nothing; the barrier wait happens owing receive cells only; the
  receive and send waits happen owing nothing.
-/
import proofs.«900543_g7700000000000544_dist_layernorm_colshard_i_m512_n256_v7x_i4_bf16_1_alg».proof.Proof.KProto.Sched
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def tR0 (c : Dev nD) : CellTallies nD τ sig Unit := tallyAt (recvCell (rot c 1) 0) () N
def tR1 (c : Dev nD) : CellTallies nD τ sig Unit := tallyAt (recvCell (rot c 2) 1) () N
def tR2 (c : Dev nD) : CellTallies nD τ sig Unit := tallyAt (recvCell (rot c 3) 2) () N
def tB0 (c : Dev nD) : CellTallies nD τ sig Unit := tallyAt (barCell (rot c 1)) () 1
def tB1 (c : Dev nD) : CellTallies nD τ sig Unit := tallyAt (barCell (rot c 2)) () 1
def tB2 (c : Dev nD) : CellTallies nD τ sig Unit := tallyAt (barCell (rot c 3)) () 1

/-- Summed so that each signal and each transfer, in program order, peels the last summand. -/
def OR3 (c : Dev nD) : CellTallies nD τ sig Unit := tR2 c
def OR2 (c : Dev nD) : CellTallies nD τ sig Unit := OR3 c + tR1 c
def OR1 (c : Dev nD) : CellTallies nD τ sig Unit := OR2 c + tR0 c
def OB3 (c : Dev nD) : CellTallies nD τ sig Unit := OR1 c + tB2 c
def OB2 (c : Dev nD) : CellTallies nD τ sig Unit := OB3 c + tB1 c
def O₀ (c : Dev nD) : CellTallies nD τ sig Unit := OB2 c + tB0 c

def L (g : GSem nD τ sig) : Finset Unit := if g.1.2 = .tc then {()} else ∅
def lv (g : GSem nD τ sig) (_ : Unit) : ℕ := if g.2 = .reg barS then 1 else if ∃ j : Fin 3, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) (u : Unit) : lv (barCell d) u = 1 := if_pos rfl
theorem lv_recv (d : Dev nD) (j : Fin 3) (u : Unit) : lv (recvCell d j) u = 2 := by
  unfold lv; rw [if_neg (recv_ne_bar j), if_pos ⟨j, rfl⟩]

theorem tally_pos {g0 g : GSem nD τ sig} {n : ℕ} {u : Unit} (h : 0 < tallyAt g0 () n g u) : g = g0 := by
  rw [tallyAt_apply] at h
  by_contra hn
  rw [if_neg (fun h' => hn h'.1)] at h
  exact Nat.lt_irrefl 0 h

theorem OR1_cases {c : Dev nD} {g : GSem nD τ sig} {u : Unit} (h : 0 < OR1 c g u) : ∃ d j, g = recvCell d j := by
  unfold OR1 OR2 OR3 at h
  rcases Pipeline.add_pos_cases h with h | h
  · rcases Pipeline.add_pos_cases h with h | h
    · exact ⟨_, _, tally_pos h⟩
    · exact ⟨_, _, tally_pos h⟩
  · exact ⟨_, _, tally_pos h⟩

theorem O₀_cases {c : Dev nD} {g : GSem nD τ sig} {u : Unit} (h : 0 < O₀ c g u) : (∃ d, g = barCell d) ∨ (∃ d j, g = recvCell d j) := by
  unfold O₀ OB2 OB3 at h
  rcases Pipeline.add_pos_cases h with h | h
  · rcases Pipeline.add_pos_cases h with h | h
    · rcases Pipeline.add_pos_cases h with h | h
      · exact .inr (OR1_cases h)
      · exact .inl ⟨_, tally_pos h⟩
    · exact .inl ⟨_, tally_pos h⟩
  · exact .inl ⟨_, tally_pos h⟩

omit [FloatOps F] in
/-- A wait on a cell at level 0 (a staging cell, a send cell) while owing everything or nothing. -/
theorem mayWait_low (c : Dev nD) (q : DmaSem sig) (hq : ¬ ∃ j : Fin 3, (SemLoc.dma q : SemLoc sig) = .dma (recvS j)) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), SemLoc.dma q) () = 0 := by
      unfold lv; rw [if_neg (fun h => by cases h), if_neg hq]
    rcases O₀_cases hg with ⟨d, rfl⟩ | ⟨d, j, rfl⟩
    · exact ⟨by rw [L_tc]; exact Finset.mem_singleton_self _, by rw [h0, lv_bar]; decide⟩
    · exact ⟨by rw [L_tc]; exact Finset.mem_singleton_self _, by rw [h0, lv_recv]; decide⟩
  · rw [MayWait_zero]; iintro -; iempintro

omit [FloatOps F] in
/-- At its barrier wait a device owes receive credits only: receive cells lie above barrier cells. -/
theorem mayWait_bar (c : Dev nD) :
    (levAts L lv : sProp 𝕄) ⊢ MayWait (c : Thread nD τ) (.reg barS) () (OR1 c) := by
  refine Pipeline.mayWait_of_levAts (by rw [L_tc]; exact Finset.mem_singleton_self _) fun g i hg => ?_
  obtain ⟨d, j, rfl⟩ := OR1_cases hg
  exact ⟨by rw [L_tc]; exact Finset.mem_singleton_self _, by rw [show lv ((c : Thread nD τ), SemLoc.reg barS) () = 1 from if_pos rfl, lv_recv]; decide⟩

end Cert.Kernel.Proto

end
-- ==== Proof.KProto.Ghost.lean ====
/-
  What a device's body starts from and what it hands back: the ghost state of the ring's cells and the pipeline's proof data.

  Persistent, shared by all: every cell's invariant (at some names) and the mark that every cell has reached round 0.
  Linear, per device: its position at round 0 of its own seven cells; the token of every duty IT pays (one duty of each
  other device's barrier cell, one receive duty of each other device, its own three send duties).
  Before the point the device also holds its scratch whole; after it, the scratch at its final contents and its six own
  DMA cells closed at zero.
-/
import proofs.«900543_g7700000000000544_dist_layernorm_colshard_i_m512_n256_v7x_i4_bf16_1_alg».proof.Proof.KProto.Levels
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The ring's seven semaphores of a device, as this proof indexes them: the barrier, the three sends, the three receives; -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- the kernel's OWN (scoped) six, as the launch theorem indexes them. -/
abbrev osem : Fin 6 → SemLoc sig := fun
  | 0 => .dma (sendS 0) | 1 => .dma (sendS 1) | 2 => .dma (sendS 2) | 3 => .dma (recvS 0) | 4 => .dma (recvS 1) | 5 => .dma (recvS 2)

def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records; exact sep_elim_left.trans (bigSep_elim (Finset.mem_univ ck))
theorem reached_at (K : Dev nD × Fin 7 → ℕ) (ck : Dev nD × Fin 7) : records m K ⊢ reached ER (kcell ck) 0 := by
  unfold records; exact sep_elim_right.trans (bigSep_elim (Finset.mem_univ ck))

/-- The tokens of the duties device `c` pays. -/
def payToks (c : Dev nD) : sProp 𝕄 :=
  iprop(dutyTok ER (barCell (rot c 1)) 0 (0 : Fin 3) ∗ dutyTok ER (barCell (rot c 2)) 0 (1 : Fin 3) ∗ dutyTok ER (barCell (rot c 3)) 0 (2 : Fin 3)
    ∗ dutyTok ER (recvCell (rot c 1) 0) 0 (0 : Fin 3) ∗ dutyTok ER (recvCell (rot c 2) 1) 0 (0 : Fin 3) ∗ dutyTok ER (recvCell (rot c 3) 2) 0 (0 : Fin 3)
    ∗ dutyTok ER (sendCell c 0) 0 (0 : Fin 3) ∗ dutyTok ER (sendCell c 1) 0 (0 : Fin 3) ∗ dutyTok ER (sendCell c 2) 0 (0 : Fin 3))

/-- Device `c`'s positions in its own cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

def linear (c : Dev nD) : sProp 𝕄 := iprop(poss c ∗ payToks c)

def ghost (K : Dev nD × Fin 7 → ℕ) (c : Dev nD) : sProp 𝕄 := iprop(records m K ∗ linear c)

/-- The credit device `c` may wait for: three units on its barrier, a transfer's worth on each receive cell. -/
def waitCred (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m K c) ∗ waitCred c ∗ levAts L lv)

def scrPts (c : Dev nD) (f : Buf (Elt F) ((c : Thread nD τ).loc cc0_scratch0)) : sProp 𝕄 := ((c : Thread nD τ).loc cc0_scratch0) ↦{fullShare} f

/-- The six own cells closed, their counters at zero. -/
def closed (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)

def Φ₀ (c : Dev nD) : sProp 𝕄 := iprop(start m c ∗ ∃ f, scrPts c f)
def Φ₁ (c : Dev nD) : sProp 𝕄 := iprop(scrPts c (scr m c) ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => gstg m c
    | ⟨2, _⟩ => bstg m c
    | ⟨3, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.KProto.Body.lean ====
/-
  One device's body, stepped effect by effect.

  The device gives each peer, with its barrier signal, the slot of its scratch that peer will write; computes its own slab
  into slot 0; waits for the three peers' signals, which bring the three slots of theirs it will write and the marks that
  their receive cells are open; sends slot 0 to each of them, each transfer reading slot 0 at a share of its own; waits
  for the three landings, which return slots 3, 2, 1 at their final contents; reads the four slabs (slot 0 at the share it
  kept), computes and stores the result block; waits for the three send credits, which return the shares of slot 0;
  closes its six DMA cells and puts the scratch back together.
-/
import proofs.«900543_g7700000000000544_dist_layernorm_colshard_i_m512_n256_v7x_i4_bf16_1_alg».proof.Proof.KProto.Ghost
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem rot13 (c : Dev nD) : rot (rot c 3) 1 = c := by rw [rot_rot]; exact rot_four c
theorem rot31 (c : Dev nD) : rot (rot c 1) 3 = c := by rw [rot_rot]; exact rot_four c
theorem rot22 (c : Dev nD) : rot (rot c 2) 2 = c := by rw [rot_rot]; exact rot_four c

/-- The program's spellings of the six DMA semaphores. -/
theorem semS0_eq : ((SemArray.slice cc0_scratch1 (Rect.unit (s := S3) ![0] S1.size inb_S3_S1_0)).squeeze S_ squeezes_S1_S_).sem = sendS 0 := rfl
theorem semS1_eq : ((SemArray.slice cc0_scratch1 (Rect.unit (s := S3) ![1] S1.size inb_S3_S1_1)).squeeze S_ squeezes_S1_S_).sem = sendS 1 := rfl
theorem semS2_eq : ((SemArray.slice cc0_scratch1 (Rect.unit (s := S3) ![2] S1.size inb_S3_S1_2)).squeeze S_ squeezes_S1_S_).sem = sendS 2 := rfl
theorem semR0_eq : ((SemArray.slice cc0_scratch2 (Rect.unit (s := S3) ![0] S1.size inb_S3_S1_0)).squeeze S_ squeezes_S1_S_).sem = recvS 0 := rfl
theorem semR1_eq : ((SemArray.slice cc0_scratch2 (Rect.unit (s := S3) ![1] S1.size inb_S3_S1_1)).squeeze S_ squeezes_S1_S_).sem = recvS 1 := rfl
theorem semR2_eq : ((SemArray.slice cc0_scratch2 (Rect.unit (s := S3) ![2] S1.size inb_S3_S1_2)).squeeze S_ squeezes_S1_S_).sem = recvS 2 := rfl

section Body

variable (K : Dev nD × Fin 7 → ℕ)

/-- Transfer 0: slot 0 of `c` to slot3 of the device 1 places on (substituted, not rewritten). -/
theorem wp_send_0 (c n : Dev nD) (hn : n = rot c 1)
    {hsc : (slot3 : Memref sig (Dev.tc n : Thread nD τ).2.kind .vmem S2x512 .f32).view.ref.isScScratch = false}
    {hsrc : (slot0 : Memref sig .tc .vmem S2x512 .f32).view.WordExact} {hdst : (slot3 : Memref sig .tc .vmem S2x512 .f32).view.WordExact}
    {hsem : DmaTarget.Typed .vmem (.dma (recvS 0)) (.remote (Dev.tc n : Thread nD τ) (slot3 : Memref sig .tc .vmem S2x512 .f32) (.dma (sendS 0)) hsc)}
    {α : Type} {Q : α → sProp 𝕄} {k : PUnit → Prog (TpuEff nD τ sig (Elt F) Λ₀ .tc) α}
    (fn : Buf (Elt F) ((slot3 : Memref sig .tc .vmem S2x512 .f32).view.loc (rot c 1 : Thread nD τ))) (W : Waits sig Unit) :
    iprop(cellInv ER (ringRd m) (K (c, 1)) (sendCell c 0) ∗ cellInv ER (ringRd m) (K (rot c 1, 4)) (recvCell (rot c 1) 0)
        ∗ slotPts slot0 c (qS 0) (scr m c) ∗ slotPts slot3 (rot c 1) fullShare fn
        ∗ owes (c : Thread nD τ) (OR1 c) W
        ∗ dutyTok ER (sendCell c 0) 0 (0 : Fin 3) ∗ reached ER (sendCell c 0) 0
        ∗ dutyTok ER (recvCell (rot c 1) 0) 0 (0 : Fin 3) ∗ reached ER (recvCell (rot c 1) 0) 0)
      ⊢ iprop(((cred (tallyAt (sendCell c 0) () N) ∗ owes (c : Thread nD τ) (OR2 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sendS 0)) hsc) (.dma (recvS 0)) hsrc hdst hsem) k) Q) := by
  subst hn
  exact Rounds.wp_send_pointsTo 𝒱₀ ER (ringRd m) (c : Thread nD τ) none (κ₁ := K (c, 1)) (κ₂ := K (rot c 1, 4))
    (src := slot0) (dst := slot3) (q := qS 0) (fs := scr m c) (c' := (rot c 1 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 0 0) (amount_recv m (rot c 1) 0 0) (OR2 c) rfl (W := W)
    (by rw [payload_send]; exact BI.Entails.refl _)
    (by rw [payload_recv, recvPay_0]; exact Entails.of_eq (pointsTo_congr (landing3 m c (scr m c) (fun _ _ => rfl) fn)))

/-- Transfer 1: slot 0 of `c` to slot2 of the device 2 places on (substituted, not rewritten). -/
theorem wp_send_1 (c n : Dev nD) (hn : n = rot c 2)
    {hsc : (slot2 : Memref sig (Dev.tc n : Thread nD τ).2.kind .vmem S2x512 .f32).view.ref.isScScratch = false}
    {hsrc : (slot0 : Memref sig .tc .vmem S2x512 .f32).view.WordExact} {hdst : (slot2 : Memref sig .tc .vmem S2x512 .f32).view.WordExact}
    {hsem : DmaTarget.Typed .vmem (.dma (recvS 1)) (.remote (Dev.tc n : Thread nD τ) (slot2 : Memref sig .tc .vmem S2x512 .f32) (.dma (sendS 1)) hsc)}
    {α : Type} {Q : α → sProp 𝕄} {k : PUnit → Prog (TpuEff nD τ sig (Elt F) Λ₀ .tc) α}
    (fn : Buf (Elt F) ((slot2 : Memref sig .tc .vmem S2x512 .f32).view.loc (rot c 2 : Thread nD τ))) (W : Waits sig Unit) :
    iprop(cellInv ER (ringRd m) (K (c, 2)) (sendCell c 1) ∗ cellInv ER (ringRd m) (K (rot c 2, 5)) (recvCell (rot c 2) 1)
        ∗ slotPts slot0 c (qS 1) (scr m c) ∗ slotPts slot2 (rot c 2) fullShare fn
        ∗ owes (c : Thread nD τ) (OR2 c) W
        ∗ dutyTok ER (sendCell c 1) 0 (0 : Fin 3) ∗ reached ER (sendCell c 1) 0
        ∗ dutyTok ER (recvCell (rot c 2) 1) 0 (0 : Fin 3) ∗ reached ER (recvCell (rot c 2) 1) 0)
      ⊢ iprop(((cred (tallyAt (sendCell c 1) () N) ∗ owes (c : Thread nD τ) (OR3 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sendS 1)) hsc) (.dma (recvS 1)) hsrc hdst hsem) k) Q) := by
  subst hn
  exact Rounds.wp_send_pointsTo 𝒱₀ ER (ringRd m) (c : Thread nD τ) none (κ₁ := K (c, 2)) (κ₂ := K (rot c 2, 5))
    (src := slot0) (dst := slot2) (q := qS 1) (fs := scr m c) (c' := (rot c 2 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 1 0) (amount_recv m (rot c 2) 1 0) (OR3 c) rfl (W := W)
    (by rw [payload_send]; exact BI.Entails.refl _)
    (by rw [payload_recv, recvPay_1]; exact Entails.of_eq (pointsTo_congr (landing2 m c (scr m c) (fun _ _ => rfl) fn)))

/-- Transfer 2: slot 0 of `c` to slot1 of the device 3 places on (substituted, not rewritten). -/
theorem wp_send_2 (c n : Dev nD) (hn : n = rot c 3)
    {hsc : (slot1 : Memref sig (Dev.tc n : Thread nD τ).2.kind .vmem S2x512 .f32).view.ref.isScScratch = false}
    {hsrc : (slot0 : Memref sig .tc .vmem S2x512 .f32).view.WordExact} {hdst : (slot1 : Memref sig .tc .vmem S2x512 .f32).view.WordExact}
    {hsem : DmaTarget.Typed .vmem (.dma (recvS 2)) (.remote (Dev.tc n : Thread nD τ) (slot1 : Memref sig .tc .vmem S2x512 .f32) (.dma (sendS 2)) hsc)}
    {α : Type} {Q : α → sProp 𝕄} {k : PUnit → Prog (TpuEff nD τ sig (Elt F) Λ₀ .tc) α}
    (fn : Buf (Elt F) ((slot1 : Memref sig .tc .vmem S2x512 .f32).view.loc (rot c 3 : Thread nD τ))) (W : Waits sig Unit) :
    iprop(cellInv ER (ringRd m) (K (c, 3)) (sendCell c 2) ∗ cellInv ER (ringRd m) (K (rot c 3, 6)) (recvCell (rot c 3) 2)
        ∗ slotPts slot0 c (qS 2) (scr m c) ∗ slotPts slot1 (rot c 3) fullShare fn
        ∗ owes (c : Thread nD τ) (OR3 c) W
        ∗ dutyTok ER (sendCell c 2) 0 (0 : Fin 3) ∗ reached ER (sendCell c 2) 0
        ∗ dutyTok ER (recvCell (rot c 3) 2) 0 (0 : Fin 3) ∗ reached ER (recvCell (rot c 3) 2) 0)
      ⊢ iprop(((cred (tallyAt (sendCell c 2) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sendS 2)) hsc) (.dma (recvS 2)) hsrc hdst hsem) k) Q) := by
  subst hn
  exact Rounds.wp_send_pointsTo 𝒱₀ ER (ringRd m) (c : Thread nD τ) none (κ₁ := K (c, 3)) (κ₂ := K (rot c 3, 6))
    (src := slot0) (dst := slot1) (q := qS 2) (fs := scr m c) (c' := (rot c 3 : Thread nD τ))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c 2 0) (amount_recv m (rot c 3) 2 0) (0) (by rw [zero_add]; rfl) (W := W)
    (by rw [payload_send]; exact BI.Entails.refl _)
    (by rw [payload_recv, recvPay_2]; exact Entails.of_eq (pointsTo_congr (landing1 m c (scr m c) (fun _ _ => rfl) fn)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ waitCred c ∗ levAts L lv ∗ ∃ f, scrPts c f)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m c) ∗ stg c cc0_stg1_0 (gstg m c) ∗ stg c cc0_stg2_0 (bstg m c)
    ∗ stg c cc0_stg3_0 (outv m c))

set_option maxHeartbeats 3200000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost linear poss payToks waitCred
  iintro ⟨⟨⟨⟨#HR, ⟨HatB, HatS0, HatS1, HatS2, HatV0, HatV1, HatV2⟩, ⟨HtB0, HtB1, HtB2, HtR0, HtR1, HtR2, HtS0, HtS1, HtS2⟩⟩, ⟨HcB, HcV0, HcV1, HcV2⟩, #Hlev, ⟨%f0, Hscr⟩⟩,
    Ho, ⟨%d0, %g0, %hg0, Hx⟩, ⟨%d1, %g1, %hg1, Hg⟩, ⟨%d2, %g2, %hg2, Hb⟩, ⟨%d3, %g3, %hg3, Hout⟩⟩, Hk⟩
  have hx : g0 = xstg m c := by rw [hg0]; unfold Dat.before; rw [if_pos (fetch0_0 t₀)]; rfl
  have hgg : g1 = gstg m c := by rw [hg1]; unfold Dat.before; rw [if_pos (fetch0_1 t₀)]; rfl
  have hbb : g2 = bstg m c := by rw [hg2]; unfold Dat.before; rw [if_pos (fetch0_2 t₀)]; rfl
  subst hx hgg hbb
  unfold Dat.owesAt Pipeline.owesWithin
  icases Ho with ⟨%W, %hW, HO⟩
  rw [show (dats m ρ 0 c).owed t₀.castSucc = O₀ c from rfl]
  simp only [dev1_eq c, dev2_eq c, dev3_eq c]
  -- the scratch by slots
  unfold scrPts
  ihave Hs := (scratch_split c f0).1 $$ Hscr
  icases Hs with ⟨Hs0, Hs1, Hs2, Hs3⟩
  -- the three signals: each hands the peer the slot it will write and the mark that the receive cell it will credit is open
  unfold O₀
  iapply (Rounds.wp_signal 𝒱₀ ER (ringRd m) (c : Thread nD τ) none (dst := (rot c 1 : Thread nD τ)) (κ := K (rot c 1, 0))
      (d := (0 : Fin 3)) (by rw [duties_bar]; exact Finset.mem_univ _) ((amount_bar m (rot c 1) 0).trans (by decide)) () (OB2 c) rfl)
    $$ [HO HtB0 Hs1]
  · isplitr; · iapply (inv_at m K (rot c 1, 0)); iexact HR
    isplitl [HO]; · iexact HO
    isplitl [HtB0]; · iexact HtB0
    isplitl [Hs1]
    · rw [payload_bar, barPay_0, rot31]
      isplitl [Hs1]; · iexists f0; iexact Hs1
      iapply (reached_at m K (c, 6)); iexact HR
    · iapply (reached_at m K (rot c 1, 0)); iexact HR
  iintro HO
  unfold OB2
  iapply (Rounds.wp_signal 𝒱₀ ER (ringRd m) (c : Thread nD τ) none (dst := (rot c 2 : Thread nD τ)) (κ := K (rot c 2, 0))
      (d := (1 : Fin 3)) (by rw [duties_bar]; exact Finset.mem_univ _) ((amount_bar m (rot c 2) 1).trans (by decide)) () (OB3 c) rfl)
    $$ [HO HtB1 Hs2]
  · isplitr; · iapply (inv_at m K (rot c 2, 0)); iexact HR
    isplitl [HO]; · iexact HO
    isplitl [HtB1]; · iexact HtB1
    isplitl [Hs2]
    · rw [payload_bar, barPay_1, rot22]
      isplitl [Hs2]; · iexists f0; iexact Hs2
      iapply (reached_at m K (c, 5)); iexact HR
    · iapply (reached_at m K (rot c 2, 0)); iexact HR
  iintro HO
  unfold OB3
  iapply (Rounds.wp_signal 𝒱₀ ER (ringRd m) (c : Thread nD τ) none (dst := (rot c 3 : Thread nD τ)) (κ := K (rot c 3, 0))
      (d := (2 : Fin 3)) (by rw [duties_bar]; exact Finset.mem_univ _) ((amount_bar m (rot c 3) 2).trans (by decide)) () (OR1 c) rfl)
    $$ [HO HtB2 Hs3]
  · isplitr; · iapply (inv_at m K (rot c 3, 0)); iexact HR
    isplitl [HO]; · iexact HO
    isplitl [HtB2]; · iexact HtB2
    isplitl [Hs3]
    · rw [payload_bar, barPay_2, rot13]
      isplitl [Hs3]; · iexists f0; iexact Hs3
      iapply (reached_at m K (c, 4)); iexact HR
    · iapply (reached_at m K (rot c 3, 0)); iexact HR
  iintro HO
  -- the block is read, its row sums and row sums of squares stored into slot 0
  iapply (wp_load 𝒱₀ (c : Thread nD τ) none Set.univ (m := xM) (Finset.subset_univ _)) $$ Hx; iintro Hx
  rw [read_x]
  iapply (wp_load 𝒱₀ (c : Thread nD τ) none Set.univ (m := rM) sub_r00) $$ Hs0; iintro Hs0
  iapply (wp_store 𝒱₀ (c : Thread nD τ) none Set.univ (m := rM) (r := r00) (Mk := Finset.univ) sub_w00) $$ Hs0; iintro Hs0
  iapply (wp_load 𝒱₀ (c : Thread nD τ) none Set.univ (m := rM) sub_r01) $$ Hs0; iintro Hs0
  iapply (wp_store 𝒱₀ (c : Thread nD τ) none Set.univ (m := rM) (r := r01) (Mk := Finset.univ) sub_w01) $$ Hs0; iintro Hs0
  ihave Hs0 := (Entails.of_eq (pointsTo_congr (stores_eq m c f0))) $$ Hs0
  -- the WAIT for 3 on its own barrier, owing the three receive credits: the peers' slots come with it
  iapply (Rounds.wp_wait_rest_token 𝒱₀ ER (ringRd m) (c : Thread nD τ) none (κ := K (c, 0))
      (wpE_semWait_eq 𝒱₀ (c : Thread nD τ) none Set.univ) (Set.mem_univ _) () (O := OR1 c) (W := W) (R := 0) (m := 0) (T := ∅)
      (by rw [expect_bar]; decide)) $$ [HcB HO HatB]
  · isplitr; · iapply (inv_at m K (c, 0)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [barPay_0, barPay_1, barPay_2]
  icases Hp with ⟨⟨⟨%fa, Hp1⟩, -⟩, ⟨⟨%fb, Hp2⟩, -⟩, ⟨%fc, Hp3⟩, -⟩
  -- slot 0 in four shares: one per transfer, one kept
  ihave Hs0 := (pointsTo_share (PosShare.mem_left_op_right fullShare)).1 $$ Hs0
  icases Hs0 with ⟨HLt, HRt⟩
  ihave HLt := (pointsTo_share (PosShare.mem_left_op_right fullShare.left)).1 $$ HLt
  icases HLt with ⟨H0a, H0b⟩
  ihave HRt := (pointsTo_share (PosShare.mem_left_op_right fullShare.right)).1 $$ HRt
  icases HRt with ⟨H0c, H0m⟩
  -- the three TRANSFERS
  unfold OR1
  iapply (wp_send_0 m K c _ (dev4_eq c) fc (insert (SemLoc.reg barS, ()) W)) $$ [H0a Hp3 HO HtS0 HtR0]
  · isplitr; · iapply (inv_at m K (c, 1)); iexact HR
    isplitr; · iapply (inv_at m K (rot c 1, 4)); iexact HR
    isplitl [H0a]; · iexact H0a
    isplitl [Hp3]; · iexact Hp3
    isplitl [HO]; · iexact HO
    isplitl [HtS0]; · iexact HtS0
    isplitr; · iapply (reached_at m K (c, 1)); iexact HR
    isplitl [HtR0]; · iexact HtR0
    iapply (reached_at m K (rot c 1, 4)); iexact HR
  iintro ⟨HcS0, HO⟩
  unfold OR2
  iapply (wp_send_1 m K c _ (dev5_eq c) fb (insert (SemLoc.reg barS, ()) W)) $$ [H0b Hp2 HO HtS1 HtR1]
  · isplitr; · iapply (inv_at m K (c, 2)); iexact HR
    isplitr; · iapply (inv_at m K (rot c 2, 5)); iexact HR
    isplitl [H0b]; · iexact H0b
    isplitl [Hp2]; · iexact Hp2
    isplitl [HO]; · iexact HO
    isplitl [HtS1]; · iexact HtS1
    isplitr; · iapply (reached_at m K (c, 2)); iexact HR
    isplitl [HtR1]; · iexact HtR1
    iapply (reached_at m K (rot c 2, 5)); iexact HR
  iintro ⟨HcS1, HO⟩
  unfold OR3
  iapply (wp_send_2 m K c _ (dev6_eq c) fa (insert (SemLoc.reg barS, ()) W)) $$ [H0c Hp1 HO HtS2 HtR2]
  · isplitr; · iapply (inv_at m K (c, 3)); iexact HR
    isplitr; · iapply (inv_at m K (rot c 3, 6)); iexact HR
    isplitl [H0c]; · iexact H0c
    isplitl [Hp1]; · iexact Hp1
    isplitl [HO]; · iexact HO
    isplitl [HtS2]; · iexact HtS2
    isplitr; · iapply (reached_at m K (c, 3)); iexact HR
    isplitl [HtR2]; · iexact HtR2
    iapply (reached_at m K (rot c 3, 6)); iexact HR
  iintro ⟨HcS2, HO⟩
  -- the scale and shift blocks
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  -- the three LANDINGS: slots 3, 2, 1 at their final contents
  iapply (Rounds.wp_wait_rest_token 𝒱₀ ER (ringRd m) (c : Thread nD τ) none (κ := K (c, 4)) (sm := SemLoc.dma (recvS 0))
      (wpE_waitDma2_eq 𝒱₀ (c : Thread nD τ) none Set.univ) (Set.mem_univ _) () (O := 0) (W := insert (SemLoc.reg barS, ()) W) (R := 0) (m := 0) (T := ∅)
      (by rw [Nat.zero_add, expect_recv])) $$ [HcV0 HO HatV0]
  · isplitr; · iapply (inv_at m K (c, 4)); iexact HR
    isplitl [HcV0]; · iexact HcV0
    isplitl [HO]; · iexact HO
    isplitr; · rw [MayWait_zero]; iempintro
    iexact HatV0
  iintro ⟨HO, HatV0, -, Hpay⟩
  ihave Hq3 := (Entails.of_eq ((rest_recv m c 0).trans (recvPay_0 m c))) $$ Hpay
  iapply (Rounds.wp_wait_rest_token 𝒱₀ ER (ringRd m) (c : Thread nD τ) none (κ := K (c, 5)) (sm := SemLoc.dma (recvS 1))
      (wpE_waitDma2_eq 𝒱₀ (c : Thread nD τ) none Set.univ) (Set.mem_univ _) () (O := 0) (W := insert (SemLoc.dma (recvS 0), ()) (insert (SemLoc.reg barS, ()) W)) (R := 0) (m := 0) (T := ∅)
      (by rw [Nat.zero_add, expect_recv])) $$ [HcV1 HO HatV1]
  · isplitr; · iapply (inv_at m K (c, 5)); iexact HR
    isplitl [HcV1]; · iexact HcV1
    isplitl [HO]; · iexact HO
    isplitr; · rw [MayWait_zero]; iempintro
    iexact HatV1
  iintro ⟨HO, HatV1, -, Hpay⟩
  ihave Hq2 := (Entails.of_eq ((rest_recv m c 1).trans (recvPay_1 m c))) $$ Hpay
  iapply (Rounds.wp_wait_rest_token 𝒱₀ ER (ringRd m) (c : Thread nD τ) none (κ := K (c, 6)) (sm := SemLoc.dma (recvS 2))
      (wpE_waitDma2_eq 𝒱₀ (c : Thread nD τ) none Set.univ) (Set.mem_univ _) () (O := 0) (W := insert (SemLoc.dma (recvS 1), ()) (insert (SemLoc.dma (recvS 0), ()) (insert (SemLoc.reg barS, ()) W))) (R := 0) (m := 0) (T := ∅)
      (by rw [Nat.zero_add, expect_recv])) $$ [HcV2 HO HatV2]
  · isplitr; · iapply (inv_at m K (c, 6)); iexact HR
    isplitl [HcV2]; · iexact HcV2
    isplitl [HO]; · iexact HO
    isplitr; · rw [MayWait_zero]; iempintro
    iexact HatV2
  iintro ⟨HO, HatV2, -, Hpay⟩
  ihave Hq1 := (Entails.of_eq ((rest_recv m c 2).trans (recvPay_2 m c))) $$ Hpay
  -- the four slabs are read, the result block computed and stored
  iapply (wp_load 𝒱₀ (c : Thread nD τ) none Set.univ (m := rM) sub_rs0) $$ H0m; iintro H0m
  rw [read_slot0 m c _ (fun _ _ => rfl)]
  iapply (wp_load 𝒱₀ (c : Thread nD τ) none Set.univ (m := rM) sub_rs1) $$ Hq1; iintro Hq1
  rw [read_slot1 m c _ (fun _ _ => rfl)]
  iapply (wp_load 𝒱₀ (c : Thread nD τ) none Set.univ (m := rM) sub_rs2) $$ Hq2; iintro Hq2
  rw [read_slot2 m c _ (fun _ _ => rfl)]
  iapply (wp_load 𝒱₀ (c : Thread nD τ) none Set.univ (m := rM) sub_rs3) $$ Hq3; iintro Hq3
  rw [read_slot3 m c _ (fun _ _ => rfl)]
  iapply (wp_load 𝒱₀ (c : Thread nD τ) none Set.univ (m := oM) (Finset.subset_univ _)) $$ Hout; iintro Hout
  iapply (wp_store 𝒱₀ (c : Thread nD τ) none Set.univ (m := oM) (r := rx) (Mk := Finset.univ) (Finset.subset_univ _)) $$ Hout; iintro Hout
  rw [write_out]
  -- the three SEND credits: the shares of slot 0 come back
  iapply (Rounds.wp_wait_rest_token 𝒱₀ ER (ringRd m) (c : Thread nD τ) none (κ := K (c, 1)) (sm := SemLoc.dma (sendS 0))
      (wpE_waitDma2_eq 𝒱₀ (c : Thread nD τ) none Set.univ) (Set.mem_univ _) () (O := 0) (W := insert (SemLoc.dma (recvS 2), ()) (insert (SemLoc.dma (recvS 1), ()) (insert (SemLoc.dma (recvS 0), ()) (insert (SemLoc.reg barS, ()) W)))) (R := 0) (m := 0) (T := ∅)
      (by rw [Nat.zero_add, expect_send])) $$ [HcS0 HO HatS0]
  · isplitr; · iapply (inv_at m K (c, 1)); iexact HR
    isplitl [HcS0]; · iexact HcS0
    isplitl [HO]; · iexact HO
    isplitr; · rw [MayWait_zero]; iempintro
    iexact HatS0
  iintro ⟨HO, HatS0, -, Hpay⟩
  ihave H0a := (Entails.of_eq (rest_send m c 0)) $$ Hpay
  iapply (Rounds.wp_wait_rest_token 𝒱₀ ER (ringRd m) (c : Thread nD τ) none (κ := K (c, 2)) (sm := SemLoc.dma (sendS 1))
      (wpE_waitDma2_eq 𝒱₀ (c : Thread nD τ) none Set.univ) (Set.mem_univ _) () (O := 0) (W := insert (SemLoc.dma (sendS 0), ()) (insert (SemLoc.dma (recvS 2), ()) (insert (SemLoc.dma (recvS 1), ()) (insert (SemLoc.dma (recvS 0), ()) (insert (SemLoc.reg barS, ()) W))))) (R := 0) (m := 0) (T := ∅)
      (by rw [Nat.zero_add, expect_send])) $$ [HcS1 HO HatS1]
  · isplitr; · iapply (inv_at m K (c, 2)); iexact HR
    isplitl [HcS1]; · iexact HcS1
    isplitl [HO]; · iexact HO
    isplitr; · rw [MayWait_zero]; iempintro
    iexact HatS1
  iintro ⟨HO, HatS1, -, Hpay⟩
  ihave H0b := (Entails.of_eq (rest_send m c 1)) $$ Hpay
  iapply (Rounds.wp_wait_rest_token 𝒱₀ ER (ringRd m) (c : Thread nD τ) none (κ := K (c, 3)) (sm := SemLoc.dma (sendS 2))
      (wpE_waitDma2_eq 𝒱₀ (c : Thread nD τ) none Set.univ) (Set.mem_univ _) () (O := 0) (W := insert (SemLoc.dma (sendS 1), ()) (insert (SemLoc.dma (sendS 0), ()) (insert (SemLoc.dma (recvS 2), ()) (insert (SemLoc.dma (recvS 1), ()) (insert (SemLoc.dma (recvS 0), ()) (insert (SemLoc.reg barS, ()) W)))))) (R := 0) (m := 0) (T := ∅)
      (by rw [Nat.zero_add, expect_send])) $$ [HcS2 HO HatS2]
  · isplitr; · iapply (inv_at m K (c, 3)); iexact HR
    isplitl [HcS2]; · iexact HcS2
    isplitl [HO]; · iexact HO
    isplitr; · rw [MayWait_zero]; iempintro
    iexact HatS2
  iintro ⟨HO, HatS2, -, Hpay⟩
  ihave H0c := (Entails.of_eq (rest_send m c 2)) $$ Hpay
  -- the six own cells close: their counters at zero are the core's again
  imod (Rounds.cell_close ER (ringRd m) (Set.mem_univ (K (c, 1))) (fun h => h) (R := 0 + 1) (duties_later m (sendCell c 0))) $$ [HatS0] with HzS0
  · isplitr; · iapply (inv_at m K (c, 1)); iexact HR
    iexact HatS0
  imod (Rounds.cell_close ER (ringRd m) (Set.mem_univ (K (c, 2))) (fun h => h) (R := 0 + 1) (duties_later m (sendCell c 1))) $$ [HatS1] with HzS1
  · isplitr; · iapply (inv_at m K (c, 2)); iexact HR
    iexact HatS1
  imod (Rounds.cell_close ER (ringRd m) (Set.mem_univ (K (c, 3))) (fun h => h) (R := 0 + 1) (duties_later m (sendCell c 2))) $$ [HatS2] with HzS2
  · isplitr; · iapply (inv_at m K (c, 3)); iexact HR
    iexact HatS2
  imod (Rounds.cell_close ER (ringRd m) (Set.mem_univ (K (c, 4))) (fun h => h) (R := 0 + 1) (duties_later m (recvCell c 0))) $$ [HatV0] with HzV0
  · isplitr; · iapply (inv_at m K (c, 4)); iexact HR
    iexact HatV0
  imod (Rounds.cell_close ER (ringRd m) (Set.mem_univ (K (c, 5))) (fun h => h) (R := 0 + 1) (duties_later m (recvCell c 1))) $$ [HatV1] with HzV1
  · isplitr; · iapply (inv_at m K (c, 5)); iexact HR
    iexact HatV1
  imod (Rounds.cell_close ER (ringRd m) (Set.mem_univ (K (c, 6))) (fun h => h) (R := 0 + 1) (duties_later m (recvCell c 2))) $$ [HatV2] with HzV2
  · isplitr; · iapply (inv_at m K (c, 6)); iexact HR
    iexact HatV2
  -- slot 0's shares and the four slots are put back together
  unfold sendPay
  ihave HLt := (pointsTo_share (PosShare.mem_left_op_right fullShare.left)).2 $$ [H0a H0b]
  · isplitl [H0a] <;> iassumption
  ihave HRt := (pointsTo_share (PosShare.mem_left_op_right fullShare.right)).2 $$ [H0c H0m]
  · isplitl [H0c] <;> iassumption
  ihave Hs0 := (pointsTo_share (PosShare.mem_left_op_right fullShare)).2 $$ [HLt HRt]
  · isplitl [HLt] <;> iassumption
  ihave Hscr := (scratch_split c (scr m c)).2 $$ [Hs0 Hq1 Hq2 Hq3]
  · isplitl [Hs0]; · iexact Hs0
    isplitl [Hq1]; · iexact Hq1
    isplitl [Hq2]; · iexact Hq2
    iexact Hq3
  rw [wp_ret]; imodintro
  iapply Hk
  unfold bodyPost Φ₁ closed scrPts Dat.owesAt Pipeline.owesWithin
  rw [show (dats m ρ 0 c).owed t₀.succ = 0 from rfl]
  isplitl [Hscr HzS0 HzS1 HzS2 HzV0 HzV1 HzV2]
  · isplitl [Hscr]; · iexact Hscr
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists (insert (SemLoc.dma (sendS 2), ()) (insert (SemLoc.dma (sendS 1), ()) (insert (SemLoc.dma (sendS 0), ()) (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Hout

end Body

end Cert.Kernel.Proto

end
-- ==== Proof.KProto.Credit.lean ====
/-
  The credit each device may wait for, from what all devices owe at launch.

  A cell's launch credit is the sum over the devices of what they owe it. Each of the six kinds of debt (a unit to the
  barrier cell 1, 2, 3 places on; a transfer's worth to receive cell 0, 1, 2 of the device 1, 2, 3 places on) is owed to
  device c by exactly one device, the one that many places BEFORE c: so c's barrier cell gets three units and each of its
  receive cells one transfer's worth.
-/
import proofs.«900543_g7700000000000544_dist_layernorm_colshard_i_m512_n256_v7x_i4_bf16_1_alg».proof.Proof.KProto.Body
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem creds (c : Dev nD) : (Pipeline.launchCred O₀ c : sProp 𝕄) ⊢ waitCred c := by
  have e0 : (Pipeline.launchCred O₀ c : sProp 𝕄) = Pipeline.launchCred (fun d => OB2 d + tB0 d) c := rfl
  have e1 : (Pipeline.launchCred OB2 c : sProp 𝕄) = Pipeline.launchCred (fun d => OB3 d + tB1 d) c := rfl
  have e2 : (Pipeline.launchCred OB3 c : sProp 𝕄) = Pipeline.launchCred (fun d => OR1 d + tB2 d) c := rfl
  have e3 : (Pipeline.launchCred OR1 c : sProp 𝕄) = Pipeline.launchCred (fun d => OR2 d + tR0 d) c := rfl
  have e4 : (Pipeline.launchCred OR2 c : sProp 𝕄) = Pipeline.launchCred (fun d => OR3 d + tR1 d) c := rfl
  rw [e0, Pipeline.launchCred_add, e1, Pipeline.launchCred_add, e2, Pipeline.launchCred_add, e3, Pipeline.launchCred_add, e4, Pipeline.launchCred_add]
  have hB0 : (Pipeline.launchCred tB0 c : sProp 𝕄) ⊢ cred (tallyAt (barCell c) () 1) :=
    Pipeline.launchCred_tallyAt (.reg barS) (fun d => rot d 1) (fun d => rot d 3) rot13 rot31 () 1 c
  have hB1 : (Pipeline.launchCred tB1 c : sProp 𝕄) ⊢ cred (tallyAt (barCell c) () 1) :=
    Pipeline.launchCred_tallyAt (.reg barS) (fun d => rot d 2) (fun d => rot d 2) rot22 rot22 () 1 c
  have hB2 : (Pipeline.launchCred tB2 c : sProp 𝕄) ⊢ cred (tallyAt (barCell c) () 1) :=
    Pipeline.launchCred_tallyAt (.reg barS) (fun d => rot d 3) (fun d => rot d 1) rot31 rot13 () 1 c
  have hR0 : (Pipeline.launchCred tR0 c : sProp 𝕄) ⊢ cred (tallyAt (recvCell c 0) () N) :=
    Pipeline.launchCred_tallyAt (.dma (recvS 0)) (fun d => rot d 1) (fun d => rot d 3) rot13 rot31 () N c
  have hR1 : (Pipeline.launchCred tR1 c : sProp 𝕄) ⊢ cred (tallyAt (recvCell c 1) () N) :=
    Pipeline.launchCred_tallyAt (.dma (recvS 1)) (fun d => rot d 2) (fun d => rot d 2) rot22 rot22 () N c
  have hR2 : (Pipeline.launchCred OR3 c : sProp 𝕄) ⊢ cred (tallyAt (recvCell c 2) () N) :=
    Pipeline.launchCred_tallyAt (.dma (recvS 2)) (fun d => rot d 3) (fun d => rot d 1) rot31 rot13 () N c
  unfold waitCred
  iintro ⟨⟨⟨⟨⟨H2, H1⟩, H0⟩, B2⟩, B1⟩, B0⟩
  ihave C0 := hB0 $$ B0
  ihave C1 := hB1 $$ B1
  ihave C2 := hB2 $$ B2
  isplitl [C0 C1 C2]
  · rw [← tallyAt_add (barCell c) () 2 1, ← tallyAt_add (barCell c) () 1 1]
    iapply (cred_add _ _).2
    isplitl [C0 C1]
    · iapply (cred_add _ _).2
      isplitl [C0] <;> iassumption
    · iexact C2
  isplitl [H0]; · iapply hR0; iexact H0
  isplitl [H1]; · iapply hR1; iexact H1
  iapply hR2; iexact H2

end Cert.Kernel.Proto

end
-- ==== Proof.KProto.Glob.lean ====
/-
  The launch's global step: the ring's ghost state is minted for every cell of every device at once, every cell's invariant is
  allocated over its counter at zero, and every duty token is dealt to the device that pays the duty — a barrier cell's
  token k to the device 3 - k places on, a receive cell's token j to the device 3 - j places on, a send cell's to its owner.
-/
import proofs.«900543_g7700000000000544_dist_layernorm_colshard_i_m512_n256_v7x_i4_bf16_1_alg».proof.Proof.KProto.Ghost
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its barrier's duties 0, 1, 2, its three sends' and three receives' duty 0. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
/-- The semaphore and the duty of a device's j-th token: they do not depend on the device, and tell the nine apart. -/
abbrev tokCode : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokCode_injective : Function.Injective tokCode := by decide
theorem tokOf_code (c : Dev nD) (j : Fin 9) : ((tokOf (c, j)).1.2, (tokOf (c, j)).2.2) = tokCode j := by fin_cases j <;> rfl
theorem tokOf_dev (c : Dev nD) (j : Fin 9) : (tokOf (c, j)).1.1.1 = c := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    simpa only [tokOf_dev] using this
  subst h1
  have h2 : tokCode j = tokCode j' := by
    rw [← tokOf_code c j, ← tokOf_code c j']
    exact congrArg (fun x : GSem nD τ sig × ℕ × Fin 3 => (x.1.2, x.2.2)) h
  have : j = j' := tokCode_injective h2
  subst this; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c` (the launch theorem's `G`). -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six own semaphores at zero, as the body hands them back. -/
theorem ownSems0_eq (c : Dev nD) : (Pipeline.ownSems0 (Ix := Unit) (Name := ℕ) (U := UU) (Lvl := ℕ) (Val := Elt F) (τ := τ) osem c : sProp 𝕄) = closed c := by
  rw [Pipeline.ownSems0_eq_of_list c osem [0, 1, 2, 3, 4, 5] (by decide) (by decide)]; rfl

/-- The one semaphore of a device that no scope allocates is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's seven counters at zero, in the order of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]; unfold closed
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

/-- One device's share of the global step: each of its seven cells' invariant is allocated over its counter at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! The ring's rotations as permutations of the devices. -/

theorem rot_inv_r (k : Nat) (hk : k ≤ 4) (c : Dev nD) : rot (rot c k) (4 - k) = c := by
  rw [rot_rot, show k + (4 - k) = 4 from by omega, rot_four]
theorem rot_inv_l (k : Nat) (hk : k ≤ 4) (c : Dev nD) : rot (rot c (4 - k)) k = c := by
  rw [rot_rot, show 4 - k + k = 4 from by omega, rot_four]

/-- The rotation by k places, k ≤ 4, with the rotation by 4 - k places as its inverse. -/
def ring (k : Nat) (hk : k ≤ 4) : Dev nD ≃ Dev nD := ⟨fun c => rot c k, fun c => rot c (4 - k), rot_inv_r k hk, rot_inv_l k hk⟩

/-- The tokens dealt around the ring: duty k of a barrier cell goes to the device 3 - k places on, which is to say device c
    receives duty k of the barrier cell k + 1 places on; likewise the duty of receive cell j; the send duties stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 1 (by decide)) (fun c : Dev nD => (dutyTok ER (barCell c) 0 (0 : Fin 3) : sProp 𝕄)),
    bigSep_univ_equiv (ring 2 (by decide)) (fun c : Dev nD => (dutyTok ER (barCell c) 0 (1 : Fin 3) : sProp 𝕄)),
    bigSep_univ_equiv (ring 3 (by decide)) (fun c : Dev nD => (dutyTok ER (barCell c) 0 (2 : Fin 3) : sProp 𝕄)),
    bigSep_univ_equiv (ring 1 (by decide)) (fun c : Dev nD => (dutyTok ER (recvCell c 0) 0 (0 : Fin 3) : sProp 𝕄)),
    bigSep_univ_equiv (ring 2 (by decide)) (fun c : Dev nD => (dutyTok ER (recvCell c 1) 0 (0 : Fin 3) : sProp 𝕄)),
    bigSep_univ_equiv (ring 3 (by decide)) (fun c : Dev nD => (dutyTok ER (recvCell c 2) 0 (0 : Fin 3) : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m K ∗ linear c) ⊢ G' m c := by
  unfold G' ghost
  iintro H
  iexists K
  iexact H

/-- All devices' invariants, marks, positions and tokens regrouped: the persistent part shared by all, the rest dealt. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.KProto.Launch.lean ====
/-
  The launch: from "every device's body is proved" to the run of the program on the four devices.

  At the compiled mesh, from any memory with zero counters, every weakly fair execution of @main — the four kernels
  handshaking on the runtime's barrier semaphore, exchanging their slabs, normalising their blocks — terminates without a
  fault, each device's result array holding its result block and its three argument arrays unchanged.
-/
import proofs.«900543_g7700000000000544_dist_layernorm_colshard_i_m512_n256_v7x_i4_bf16_1_alg».proof.Proof.KProto.Body
import proofs.«900543_g7700000000000544_dist_layernorm_colshard_i_m512_n256_v7x_i4_bf16_1_alg».proof.Proof.KProto.Credit
import proofs.«900543_g7700000000000544_dist_layernorm_colshard_i_m512_n256_v7x_i4_bf16_1_alg».proof.Proof.KProto.Glob
set_option maxRecDepth 16384

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hwc, Hlev⟩, Hscr⟩, Ho, Hx, Hgm, Hb, Hout⟩
  iapply (sound_body m ρ K c fun _ => bodyPost m ρ c)
  unfold bodyPre
  isplitr []
  · isplitl [Hg Hwc Hlev Hscr]
    · isplitl [Hg]; · iexact Hg
      isplitl [Hwc]; · iexact Hwc
      isplitl [Hlev]; · iexact Hlev
      iexact Hscr
    isplitl [Ho]; · iexact Ho
    isplitl [Hx]; · iexact Hx
    isplitl [Hgm]; · iexact Hgm
    isplitl [Hb] <;> iassumption
  · iintro H; iexact H

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (scr m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument arrays after the run hold what they held. -/
theorem finalA_in0 (c : Dev nD) : finalA m ρ c (0 : Fin 4) = (s₀ m ρ).mem (win0_0.arr.view.loc (c : Thread nD τ)) :=
  (dats (F := F) m ρ 0 c).arrAt_in (0 : Fin 4) rfl _
theorem finalA_in1 (c : Dev nD) : finalA m ρ c (1 : Fin 4) = (s₀ m ρ).mem (win0_1.arr.view.loc (c : Thread nD τ)) :=
  (dats (F := F) m ρ 0 c).arrAt_in (1 : Fin 4) rfl _
theorem finalA_in2 (c : Dev nD) : finalA m ρ c (2 : Fin 4) = (s₀ m ρ).mem (win0_2.arr.view.loc (c : Thread nD τ)) :=
  (dats (F := F) m ρ 0 c).arrAt_in (2 : Fin 4) rfl _

/-- The result array after the run is the result block: the one point's write-back overwrites the whole array. -/
theorem finalA_out (c : Dev nD) : finalA m ρ c (3 : Fin 4) = outv m c := by
  have h : (win0_3.blk (0 : Fin 1)).view.read (Elt F) (finalA m ρ c (3 : Fin 4)) = outv m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← h]
  exact (Memref.read_access_unit_zero (Elt F) main_v1 (off := fun a => win0_3.index (0 : Fin 1) a * win0_3.size a)
    (funext fun a => Nat.zero_mul _) _ _).symm

/-- The run in the form the claims use. -/
theorem run : θ_run defs (onTc (τ := τ) (main (F := F))) ⟨m, fun _ => 0, ρ⟩ (fun r => ∀ c : Dev nD,
    r.2.mem ((c.tc : Thread nD τ).loc main_v1)
        = outAt (fun d => m ((d.tc : Thread nD τ).loc main_arg0)) (fun d => m ((d.tc : Thread nD τ).loc main_arg1)) (fun d => m ((d.tc : Thread nD τ).loc main_arg2)) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨((h c (3 : Fin 4)).trans (finalA_out m ρ c)).trans (outv_eq m c),
     (h c (0 : Fin 4)).trans (finalA_in0 m ρ c), (h c (1 : Fin 4)).trans (finalA_in1 m ρ c), (h c (2 : Fin 4)).trans (finalA_in2 m ρ c)⟩)
    (run_main m ρ)

end Cert.Kernel.Proto

end
-- ==== Proof.RefDef.lean ====
/-
  The reference's result array as one pure function of its three whole argument arrays: the operations of its @main,
  composed in program order (the variance helper's operations inlined where it is called).
-/
import proofs.«900543_g7700000000000544_dist_layernorm_colshard_i_m512_n256_v7x_i4_bf16_1_alg».proof.ReferenceIdeal
import proofs.«900543_g7700000000000544_dist_layernorm_colshard_i_m512_n256_v7x_i4_bf16_1_alg».proof.Proof.Gen.ReferenceIdeal
import Idealize.ShloMosaic.Lib.ValueIdx

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-- The reference's result array as a function of its three whole argument arrays: one line per operation, in program
    order. Lines `w…` are the variance helper's (its own mean, the squared deviations, their sum over the row, the divisor
    1024 - 0 and the test that it is positive), lines `u…` the selection helper's inside it. -/
def refOut (X : FVec Ideal S512x1024 .f32) (G B : FVec Ideal S1024 .f32) : FVec Ideal S512x1024 .bf16 :=
  let cst : FVec Ideal S_ .f32 := constant S_ .f32 0x00000000#32
  let v0 : FVec Ideal S512 .f32 := Host.reduceAdd X cst reducesTo_S512x1024_S512_d1 h_S_
  let v1 : FVec Ideal S512x1 .f32 := broadcastInDim S512x1 ![0] bcast_S512_S512x1_0 v0
  let cst_0 : FVec Ideal S_ .f32 := constant S_ .f32 0x44800000#32
  let v2 : FVec Ideal S512x1 .f32 := broadcastInDim S512x1 ![] bcast_S_S512x1 cst_0
  let v3 : FVec Ideal S512x1 .f32 := Host.divf v1 v2
  let c : IVec S_ 32 := constantI S_ 32 0#32
  let w_cst : FVec Ideal S_ .f32 := constant S_ .f32 0x00000000#32
  let w0 : FVec Ideal S512 .f32 := Host.reduceAdd X w_cst reducesTo_S512x1024_S512_d1 h_S_
  let w1 : FVec Ideal S512x1 .f32 := broadcastInDim S512x1 ![0] bcast_S512_S512x1_0 w0
  let w_cst_0 : FVec Ideal S_ .f32 := constant S_ .f32 0x44800000#32
  let w2 : FVec Ideal S512x1 .f32 := broadcastInDim S512x1 ![] bcast_S_S512x1 w_cst_0
  let w3 : FVec Ideal S512x1 .f32 := Host.divf w1 w2
  let w4 : FVec Ideal S512x1024 .f32 := broadcastInDim S512x1024 ![0, 1] bcast_S512x1_S512x1024_0_1 w3
  let w5 : FVec Ideal S512x1024 .f32 := subf X w4
  let w6 : FVec Ideal S512x1024 .f32 := mulf w5 w5
  let w7 : FVec Ideal S_ .f32 := sitofp .f32 c
  let w_cst_1 : FVec Ideal S_ .f32 := constant S_ .f32 0x44800000#32
  let w8 : FVec Ideal S_ .f32 := subf w_cst_1 w7
  let w_cst_2 : FVec Ideal S_ .f32 := constant S_ .f32 0x00000000#32
  let w9 : FVec Ideal S512 .f32 := Host.reduceAdd w6 w_cst_2 reducesTo_S512x1024_S512_d1 h_S_
  let w10 : FVec Ideal S512x1 .f32 := broadcastInDim S512x1 ![0] bcast_S512_S512x1_0 w9
  let w11 : FVec Ideal S512x1 .f32 := broadcastInDim S512x1 ![] bcast_S_S512x1 w8
  let w12 : FVec Ideal S512x1 .f32 := Host.divf w10 w11
  let w_cst_3 : FVec Ideal S_ .f32 := constant S_ .f32 0x00000000#32
  let w13 : IVec S_ 1 := cmpf .ogt w8 w_cst_3
  let w_cst_4 : FVec Ideal S_ .f32 := constant S_ .f32 0x7FC00000#32
  let u0 : FVec Ideal S_ .f32 := id w_cst_4
  let u1 : FVec Ideal S512x1 .f32 := broadcastInDim S512x1 ![] bcast_S_S512x1 u0
  let v4 : FVec Ideal S512x1 .f32 := select (broadcastInDim S512x1 ![] bcast_S_S512x1 w13) w12 u1
  let v5 : FVec Ideal S512x1024 .f32 := broadcastInDim S512x1024 ![0, 1] bcast_S512x1_S512x1024_0_1 v3
  let v6 : FVec Ideal S512x1024 .f32 := subf X v5
  let v7 : FVec Ideal S1x1024 .f32 := broadcastInDim S1x1024 ![1] bcast_S1024_S1x1024_1 G
  let v8 : FVec Ideal S512x1024 .f32 := broadcastInDim S512x1024 ![0, 1] bcast_S1x1024_S512x1024_0_1 v7
  let v9 : FVec Ideal S512x1024 .f32 := mulf v8 v6
  let cst_1 : FVec Ideal S_ .f32 := constant S_ .f32 0x3727C5AC#32
  let v10 : FVec Ideal S512x1 .f32 := broadcastInDim S512x1 ![] bcast_S_S512x1 cst_1
  let v11 : FVec Ideal S512x1 .f32 := addf v4 v10
  let v12 : FVec Ideal S512x1 .f32 := Host.sqrt v11
  let v13 : FVec Ideal S512x1024 .f32 := broadcastInDim S512x1024 ![0, 1] bcast_S512x1_S512x1024_0_1 v12
  let v14 : FVec Ideal S512x1024 .f32 := Host.divf v9 v13
  let v15 : FVec Ideal S1x1024 .f32 := broadcastInDim S1x1024 ![1] bcast_S1024_S1x1024_1 B
  let v16 : FVec Ideal S512x1024 .f32 := broadcastInDim S512x1024 ![0, 1] bcast_S1x1024_S512x1024_0_1 v15
  let v17 : FVec Ideal S512x1024 .f32 := addf v14 v16
  truncf .bf16 v17 bitsLt_bf16_f32

end Cert.ReferenceIdeal.RefValue

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.RefRun.lean ====
/-
  The one-device reference run by hand: every weakly fair execution of its @main ends with the result array holding
  `refOut` of the three argument arrays and the arguments unchanged.
-/
import proofs.«900543_g7700000000000544_dist_layernorm_colshard_i_m512_n256_v7x_i4_bf16_1_alg».proof.Proof.RefDef
import proofs.«900543_g7700000000000544_dist_layernorm_colshard_i_m512_n256_v7x_i4_bf16_1_alg».proof.Proof.LibTypedRead
import Idealize.ShloMosaic.Lib.StableHlo.Run

noncomputable section

namespace Cert.ReferenceIdeal.RefValue

open Cert.ReferenceIdeal Cert.ReferenceIdeal.Gen
open Idealize.ShloMosaic Idealize.ShloMosaic.TcCoe Idealize.SL.Sem Idealize.ShloMosaic.ValueIdx Idealize.ShloMosaic.StableHlo
open Cert.TypedRead

namespace Line

variable {F : FTy → Type} [FloatOps F]

/-- The whole input array and the integer zero, as the variance helper's two typed arguments. -/
abbrev aX : TRef sig ⟨S512x1024, .f32⟩ := .of main_arg0
abbrev aC : TRef sig ⟨S_, .i32⟩ := .of main_c

/-- The operations before the call: the row means and the integer zero. -/
abbrev ops1 : List (HloOp τ sig (Elt F)) :=
  [ nullary main_cst (constant S_ .f32 0x00000000#32),
    binary main_arg0 main_cst main_v0 ((fun x v => Host.reduceAdd x v reducesTo_S512x1024_S512_d1 h_S_) : (⟨S512x1024, .f32⟩ : BufTy).Contents (Elt F) → (⟨S_, .f32⟩ : BufTy).Contents (Elt F) → (⟨S512, .f32⟩ : BufTy).Contents (Elt F)),
    unary main_v0 main_v1 (broadcastInDim S512x1 ![0] bcast_S512_S512x1_0 : (⟨S512, .f32⟩ : BufTy).Contents (Elt F) → (⟨S512x1, .f32⟩ : BufTy).Contents (Elt F)),
    nullary main_cst_0 (constant S_ .f32 0x44800000#32),
    unary main_cst_0 main_v2 (broadcastInDim S512x1 ![] bcast_S_S512x1 : (⟨S_, .f32⟩ : BufTy).Contents (Elt F) → (⟨S512x1, .f32⟩ : BufTy).Contents (Elt F)),
    binary main_v1 main_v2 main_v3 (Host.divf : (⟨S512x1, .f32⟩ : BufTy).Contents (Elt F) → (⟨S512x1, .f32⟩ : BufTy).Contents (Elt F) → (⟨S512x1, .f32⟩ : BufTy).Contents (Elt F)),
    nullary main_c (constantI S_ 32 0#32) ]

/-- The variance helper's operations over the call's buffers, the selection helper's three at its end. -/
abbrev ops2 : List (HloOp τ sig (Elt F)) :=
  [ TRef.nullary main_call0.cst (constant S_ .f32 0x00000000#32),
    TRef.binary aX main_call0.cst main_call0.v0 (fun x v => Host.reduceAdd x v reducesTo_S512x1024_S512_d1 h_S_),
    TRef.unary main_call0.v0 main_call0.v1 (broadcastInDim S512x1 ![0] bcast_S512_S512x1_0),
    TRef.nullary main_call0.cst_0 (constant S_ .f32 0x44800000#32),
    TRef.unary main_call0.cst_0 main_call0.v2 (broadcastInDim S512x1 ![] bcast_S_S512x1),
    TRef.binary main_call0.v1 main_call0.v2 main_call0.v3 Host.divf,
    TRef.unary main_call0.v3 main_call0.v4 (broadcastInDim S512x1024 ![0, 1] bcast_S512x1_S512x1024_0_1),
    TRef.binary aX main_call0.v4 main_call0.v5 subf,
    TRef.binary main_call0.v5 main_call0.v5 main_call0.v6 mulf,
    TRef.unary aC main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x1024_S512_d1 h_S_),
    TRef.unary main_call0.v9 main_call0.v10 (broadcastInDim S512x1 ![0] bcast_S512_S512x1_0),
    TRef.unary main_call0.v8 main_call0.v11 (broadcastInDim S512x1 ![] bcast_S_S512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1 ![] bcast_S_S512x1),
    TRef.ternary main_call0.v13 main_call0.v12 main_call0.call0.v1 main_call0.call0.v2 (fun p a b => select (broadcastInDim S512x1 ![] bcast_S_S512x1 p) a b) ]

/-- The operations after the call: centre, scale, divide by the root of the variance plus the constant, shift, round. -/
abbrev ops3 : List (HloOp τ sig (Elt F)) :=
  [ unary main_v3 main_v5 (broadcastInDim S512x1024 ![0, 1] bcast_S512x1_S512x1024_0_1 : (⟨S512x1, .f32⟩ : BufTy).Contents (Elt F) → (⟨S512x1024, .f32⟩ : BufTy).Contents (Elt F)),
    binary main_arg0 main_v5 main_v6 (subf : (⟨S512x1024, .f32⟩ : BufTy).Contents (Elt F) → (⟨S512x1024, .f32⟩ : BufTy).Contents (Elt F) → (⟨S512x1024, .f32⟩ : BufTy).Contents (Elt F)),
    unary main_arg1 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S512x1024 ![0, 1] bcast_S1x1024_S512x1024_0_1 : (⟨S1x1024, .f32⟩ : BufTy).Contents (Elt F) → (⟨S512x1024, .f32⟩ : BufTy).Contents (Elt F)),
    binary main_v8 main_v6 main_v9 (mulf : (⟨S512x1024, .f32⟩ : BufTy).Contents (Elt F) → (⟨S512x1024, .f32⟩ : BufTy).Contents (Elt F) → (⟨S512x1024, .f32⟩ : BufTy).Contents (Elt F)),
    nullary main_cst_1 (constant S_ .f32 0x3727C5AC#32),
    unary main_cst_1 main_v10 (broadcastInDim S512x1 ![] bcast_S_S512x1 : (⟨S_, .f32⟩ : BufTy).Contents (Elt F) → (⟨S512x1, .f32⟩ : BufTy).Contents (Elt F)),
    binary main_v4 main_v10 main_v11 (addf : (⟨S512x1, .f32⟩ : BufTy).Contents (Elt F) → (⟨S512x1, .f32⟩ : BufTy).Contents (Elt F) → (⟨S512x1, .f32⟩ : BufTy).Contents (Elt F)),
    unary main_v11 main_v12 (Host.sqrt : (⟨S512x1, .f32⟩ : BufTy).Contents (Elt F) → (⟨S512x1, .f32⟩ : BufTy).Contents (Elt F)),
    unary main_v12 main_v13 (broadcastInDim S512x1024 ![0, 1] bcast_S512x1_S512x1024_0_1 : (⟨S512x1, .f32⟩ : BufTy).Contents (Elt F) → (⟨S512x1024, .f32⟩ : BufTy).Contents (Elt F)),
    binary main_v9 main_v13 main_v14 (Host.divf : (⟨S512x1024, .f32⟩ : BufTy).Contents (Elt F) → (⟨S512x1024, .f32⟩ : BufTy).Contents (Elt F) → (⟨S512x1024, .f32⟩ : BufTy).Contents (Elt F)),
    unary main_arg2 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S512x1024 ![0, 1] bcast_S1x1024_S512x1024_0_1 : (⟨S1x1024, .f32⟩ : BufTy).Contents (Elt F) → (⟨S512x1024, .f32⟩ : BufTy).Contents (Elt F)),
    binary main_v14 main_v16 main_v17 (addf : (⟨S512x1024, .f32⟩ : BufTy).Contents (Elt F) → (⟨S512x1024, .f32⟩ : BufTy).Contents (Elt F) → (⟨S512x1024, .f32⟩ : BufTy).Contents (Elt F)),
    unary main_v17 main_v18 ((truncf .bf16 · bitsLt_bf16_f32) : (⟨S512x1024, .f32⟩ : BufTy).Contents (Elt F) → (⟨S512x1024, .bf16⟩ : BufTy).Contents (Elt F)) ]

/-- @main's operations in order, the two calls unfolded: the three stretches above, one after the other. -/
abbrev ops : List (HloOp τ sig (Elt F)) :=
  [ nullary main_cst (constant S_ .f32 0x00000000#32),
    binary main_arg0 main_cst main_v0 ((fun x v => Host.reduceAdd x v reducesTo_S512x1024_S512_d1 h_S_) : (⟨S512x1024, .f32⟩ : BufTy).Contents (Elt F) → (⟨S_, .f32⟩ : BufTy).Contents (Elt F) → (⟨S512, .f32⟩ : BufTy).Contents (Elt F)),
    unary main_v0 main_v1 (broadcastInDim S512x1 ![0] bcast_S512_S512x1_0 : (⟨S512, .f32⟩ : BufTy).Contents (Elt F) → (⟨S512x1, .f32⟩ : BufTy).Contents (Elt F)),
    nullary main_cst_0 (constant S_ .f32 0x44800000#32),
    unary main_cst_0 main_v2 (broadcastInDim S512x1 ![] bcast_S_S512x1 : (⟨S_, .f32⟩ : BufTy).Contents (Elt F) → (⟨S512x1, .f32⟩ : BufTy).Contents (Elt F)),
    binary main_v1 main_v2 main_v3 (Host.divf : (⟨S512x1, .f32⟩ : BufTy).Contents (Elt F) → (⟨S512x1, .f32⟩ : BufTy).Contents (Elt F) → (⟨S512x1, .f32⟩ : BufTy).Contents (Elt F)),
    nullary main_c (constantI S_ 32 0#32),
    TRef.nullary main_call0.cst (constant S_ .f32 0x00000000#32),
    TRef.binary aX main_call0.cst main_call0.v0 (fun x v => Host.reduceAdd x v reducesTo_S512x1024_S512_d1 h_S_),
    TRef.unary main_call0.v0 main_call0.v1 (broadcastInDim S512x1 ![0] bcast_S512_S512x1_0),
    TRef.nullary main_call0.cst_0 (constant S_ .f32 0x44800000#32),
    TRef.unary main_call0.cst_0 main_call0.v2 (broadcastInDim S512x1 ![] bcast_S_S512x1),
    TRef.binary main_call0.v1 main_call0.v2 main_call0.v3 Host.divf,
    TRef.unary main_call0.v3 main_call0.v4 (broadcastInDim S512x1024 ![0, 1] bcast_S512x1_S512x1024_0_1),
    TRef.binary aX main_call0.v4 main_call0.v5 subf,
    TRef.binary main_call0.v5 main_call0.v5 main_call0.v6 mulf,
    TRef.unary aC main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x1024_S512_d1 h_S_),
    TRef.unary main_call0.v9 main_call0.v10 (broadcastInDim S512x1 ![0] bcast_S512_S512x1_0),
    TRef.unary main_call0.v8 main_call0.v11 (broadcastInDim S512x1 ![] bcast_S_S512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1 ![] bcast_S_S512x1),
    TRef.ternary main_call0.v13 main_call0.v12 main_call0.call0.v1 main_call0.call0.v2 (fun p a b => select (broadcastInDim S512x1 ![] bcast_S_S512x1 p) a b),
    unary main_v3 main_v5 (broadcastInDim S512x1024 ![0, 1] bcast_S512x1_S512x1024_0_1 : (⟨S512x1, .f32⟩ : BufTy).Contents (Elt F) → (⟨S512x1024, .f32⟩ : BufTy).Contents (Elt F)),
    binary main_arg0 main_v5 main_v6 (subf : (⟨S512x1024, .f32⟩ : BufTy).Contents (Elt F) → (⟨S512x1024, .f32⟩ : BufTy).Contents (Elt F) → (⟨S512x1024, .f32⟩ : BufTy).Contents (Elt F)),
    unary main_arg1 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S512x1024 ![0, 1] bcast_S1x1024_S512x1024_0_1 : (⟨S1x1024, .f32⟩ : BufTy).Contents (Elt F) → (⟨S512x1024, .f32⟩ : BufTy).Contents (Elt F)),
    binary main_v8 main_v6 main_v9 (mulf : (⟨S512x1024, .f32⟩ : BufTy).Contents (Elt F) → (⟨S512x1024, .f32⟩ : BufTy).Contents (Elt F) → (⟨S512x1024, .f32⟩ : BufTy).Contents (Elt F)),
    nullary main_cst_1 (constant S_ .f32 0x3727C5AC#32),
    unary main_cst_1 main_v10 (broadcastInDim S512x1 ![] bcast_S_S512x1 : (⟨S_, .f32⟩ : BufTy).Contents (Elt F) → (⟨S512x1, .f32⟩ : BufTy).Contents (Elt F)),
    binary main_v4 main_v10 main_v11 (addf : (⟨S512x1, .f32⟩ : BufTy).Contents (Elt F) → (⟨S512x1, .f32⟩ : BufTy).Contents (Elt F) → (⟨S512x1, .f32⟩ : BufTy).Contents (Elt F)),
    unary main_v11 main_v12 (Host.sqrt : (⟨S512x1, .f32⟩ : BufTy).Contents (Elt F) → (⟨S512x1, .f32⟩ : BufTy).Contents (Elt F)),
    unary main_v12 main_v13 (broadcastInDim S512x1024 ![0, 1] bcast_S512x1_S512x1024_0_1 : (⟨S512x1, .f32⟩ : BufTy).Contents (Elt F) → (⟨S512x1024, .f32⟩ : BufTy).Contents (Elt F)),
    binary main_v9 main_v13 main_v14 (Host.divf : (⟨S512x1024, .f32⟩ : BufTy).Contents (Elt F) → (⟨S512x1024, .f32⟩ : BufTy).Contents (Elt F) → (⟨S512x1024, .f32⟩ : BufTy).Contents (Elt F)),
    unary main_arg2 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S512x1024 ![0, 1] bcast_S1x1024_S512x1024_0_1 : (⟨S1x1024, .f32⟩ : BufTy).Contents (Elt F) → (⟨S512x1024, .f32⟩ : BufTy).Contents (Elt F)),
    binary main_v14 main_v16 main_v17 (addf : (⟨S512x1024, .f32⟩ : BufTy).Contents (Elt F) → (⟨S512x1024, .f32⟩ : BufTy).Contents (Elt F) → (⟨S512x1024, .f32⟩ : BufTy).Contents (Elt F)),
    unary main_v17 main_v18 ((truncf .bf16 · bitsLt_bf16_f32) : (⟨S512x1024, .f32⟩ : BufTy).Contents (Elt F) → (⟨S512x1024, .bf16⟩ : BufTy).Contents (Elt F)) ]

set_option maxRecDepth 1024 in
/-- @main is that straight line: the helpers' definitions unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

/-- The line's contents are the third stretch's after the second's after the first's. -/
theorem after_ops (V : Valuation τ sig (Elt F)) : after ops V = after ops3 (after ops2 (after ops1 V)) := rfl

/-! ## The three stretches as pure functions -/

/-- The row means as a column: each row's sum divided by 1024. -/
def rowMean (X : FVec Ideal S512x1024 .f32) : FVec Ideal S512x1 .f32 :=
  let cst : FVec Ideal S_ .f32 := constant S_ .f32 0x00000000#32
  let v0 : FVec Ideal S512 .f32 := Host.reduceAdd X cst reducesTo_S512x1024_S512_d1 h_S_
  let v1 : FVec Ideal S512x1 .f32 := broadcastInDim S512x1 ![0] bcast_S512_S512x1_0 v0
  let cst_0 : FVec Ideal S_ .f32 := constant S_ .f32 0x44800000#32
  let v2 : FVec Ideal S512x1 .f32 := broadcastInDim S512x1 ![] bcast_S_S512x1 cst_0
  Host.divf v1 v2

/-- The integer zero the variance helper is called with (its "degrees of freedom" correction). -/
def zeroI : IVec S_ 32 := constantI S_ 32 0#32

/-- The variance helper: the row sums of the squared deviations from the row mean, divided by 1024 minus the
    correction where that divisor is positive and replaced by the not-a-number constant where it is not. -/
def rowVar (X : FVec Ideal S512x1024 .f32) (c : IVec S_ 32) : FVec Ideal S512x1 .f32 :=
  let w_cst : FVec Ideal S_ .f32 := constant S_ .f32 0x00000000#32
  let w0 : FVec Ideal S512 .f32 := Host.reduceAdd X w_cst reducesTo_S512x1024_S512_d1 h_S_
  let w1 : FVec Ideal S512x1 .f32 := broadcastInDim S512x1 ![0] bcast_S512_S512x1_0 w0
  let w_cst_0 : FVec Ideal S_ .f32 := constant S_ .f32 0x44800000#32
  let w2 : FVec Ideal S512x1 .f32 := broadcastInDim S512x1 ![] bcast_S_S512x1 w_cst_0
  let w3 : FVec Ideal S512x1 .f32 := Host.divf w1 w2
  let w4 : FVec Ideal S512x1024 .f32 := broadcastInDim S512x1024 ![0, 1] bcast_S512x1_S512x1024_0_1 w3
  let w5 : FVec Ideal S512x1024 .f32 := subf X w4
  let w6 : FVec Ideal S512x1024 .f32 := mulf w5 w5
  let w7 : FVec Ideal S_ .f32 := sitofp .f32 c
  let w_cst_1 : FVec Ideal S_ .f32 := constant S_ .f32 0x44800000#32
  let w8 : FVec Ideal S_ .f32 := subf w_cst_1 w7
  let w_cst_2 : FVec Ideal S_ .f32 := constant S_ .f32 0x00000000#32
  let w9 : FVec Ideal S512 .f32 := Host.reduceAdd w6 w_cst_2 reducesTo_S512x1024_S512_d1 h_S_
  let w10 : FVec Ideal S512x1 .f32 := broadcastInDim S512x1 ![0] bcast_S512_S512x1_0 w9
  let w11 : FVec Ideal S512x1 .f32 := broadcastInDim S512x1 ![] bcast_S_S512x1 w8
  let w12 : FVec Ideal S512x1 .f32 := Host.divf w10 w11
  let w_cst_3 : FVec Ideal S_ .f32 := constant S_ .f32 0x00000000#32
  let w13 : IVec S_ 1 := cmpf .ogt w8 w_cst_3
  let w_cst_4 : FVec Ideal S_ .f32 := constant S_ .f32 0x7FC00000#32
  let u0 : FVec Ideal S_ .f32 := id w_cst_4
  let u1 : FVec Ideal S512x1 .f32 := broadcastInDim S512x1 ![] bcast_S_S512x1 u0
  select (broadcastInDim S512x1 ![] bcast_S_S512x1 w13) w12 u1

/-- The operations after the call, from the arguments, the row means `v3` and the row variances `v4`. -/
def finish (X : FVec Ideal S512x1024 .f32) (G B : FVec Ideal S1024 .f32) (v3 v4 : FVec Ideal S512x1 .f32) :
    FVec Ideal S512x1024 .bf16 :=
  let v5 : FVec Ideal S512x1024 .f32 := broadcastInDim S512x1024 ![0, 1] bcast_S512x1_S512x1024_0_1 v3
  let v6 : FVec Ideal S512x1024 .f32 := subf X v5
  let v7 : FVec Ideal S1x1024 .f32 := broadcastInDim S1x1024 ![1] bcast_S1024_S1x1024_1 G
  let v8 : FVec Ideal S512x1024 .f32 := broadcastInDim S512x1024 ![0, 1] bcast_S1x1024_S512x1024_0_1 v7
  let v9 : FVec Ideal S512x1024 .f32 := mulf v8 v6
  let cst_1 : FVec Ideal S_ .f32 := constant S_ .f32 0x3727C5AC#32
  let v10 : FVec Ideal S512x1 .f32 := broadcastInDim S512x1 ![] bcast_S_S512x1 cst_1
  let v11 : FVec Ideal S512x1 .f32 := addf v4 v10
  let v12 : FVec Ideal S512x1 .f32 := Host.sqrt v11
  let v13 : FVec Ideal S512x1024 .f32 := broadcastInDim S512x1024 ![0, 1] bcast_S512x1_S512x1024_0_1 v12
  let v14 : FVec Ideal S512x1024 .f32 := Host.divf v9 v13
  let v15 : FVec Ideal S1x1024 .f32 := broadcastInDim S1x1024 ![1] bcast_S1024_S1x1024_1 B
  let v16 : FVec Ideal S512x1024 .f32 := broadcastInDim S512x1024 ![0, 1] bcast_S1x1024_S512x1024_0_1 v15
  let v17 : FVec Ideal S512x1024 .f32 := addf v14 v16
  truncf .bf16 v17 bitsLt_bf16_f32

/-- The composed term is the three stretches composed. -/
theorem refOut_eq (X : FVec Ideal S512x1024 .f32) (G B : FVec Ideal S1024 .f32) :
    refOut X G B = finish X G B (rowMean X) (rowVar X zeroI) := rfl

/-! ## A three-operand typed operation read at its own reference, and at any other -/

section Ternary
variable {τ' : Topo} {sig' : RefSig} {Val : EltTy → Type} {T Tc Ta Tb Ty : BufTy}

theorem read_ternary (c : TRef sig' Tc) (a : TRef sig' Ta) (b : TRef sig' Tb) (y : TRef sig' Ty)
    (f : Tc.Contents Val → Ta.Contents Val → Tb.Contents Val → Ty.Contents Val) (V : Valuation τ' sig' Val) :
    TypedRead.read y ((no_index (TRef.ternary (τ := τ') c a b y f)).result V) = f (TypedRead.read c V) (TypedRead.read a V) (TypedRead.read b V) := by
  unfold TypedRead.read
  exact (congrArg y.ofBuf (ternary_result c.ref a.ref b.ref y.ref
    (fun w u v => y.toBuf (f (c.ofBuf w) (a.ofBuf u) (b.ofBuf v))) c.dev a.dev b.dev y.dev V)).trans (ofBuf_toBuf y _)

theorem read_ternary_ne (z : TRef sig' T) (c : TRef sig' Tc) (a : TRef sig' Ta) (b : TRef sig' Tb) (y : TRef sig' Ty)
    (f : Tc.Contents Val → Ta.Contents Val → Tb.Contents Val → Ty.Contents Val) (V : Valuation τ' sig' Val)
    (h : z.ref ≠ y.ref) :
    TypedRead.read z ((no_index (TRef.ternary (τ := τ') c a b y f)).result V) = TypedRead.read z V := by
  unfold TypedRead.read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

end Ternary

/-! ## What each stretch leaves -/

theorem seg1_v3 (W : Valuation τ sig (Elt Ideal)) :
    after ops1 W (main_v3 : DevRef τ sig) = rowMean (W (main_arg0 : DevRef τ sig)) := by
  after_results_simp
  rfl

theorem seg1_c (W : Valuation τ sig (Elt Ideal)) :
    after ops1 W (main_c : DevRef τ sig) = zeroI := by
  after_results_simp
  rfl

theorem seg2_v4 (W : Valuation τ sig (Elt Ideal)) :
    after ops2 W (main_v4 : DevRef τ sig) = rowVar (W (main_arg0 : DevRef τ sig)) (W (main_c : DevRef τ sig)) := by
  show TypedRead.read (TRef.of main_v4 : TRef sig ⟨S512x1, .f32⟩) (after ops2 W) = rowVar (TypedRead.read aX W) (TypedRead.read aC W)
  simp (disch := decide) only [after_cons, after_nil, read_nullary, read_unary, read_binary, read_ternary,
    read_nullary_ne, read_unary_ne, read_binary_ne, read_ternary_ne]
  rfl

theorem seg2_v3 (W : Valuation τ sig (Elt Ideal)) :
    after ops2 W (main_v3 : DevRef τ sig) = W (main_v3 : DevRef τ sig) := by
  after_results_simp

theorem seg2_arg0 (W : Valuation τ sig (Elt Ideal)) :
    after ops2 W (main_arg0 : DevRef τ sig) = W (main_arg0 : DevRef τ sig) := by
  after_results_simp

theorem seg2_arg1 (W : Valuation τ sig (Elt Ideal)) :
    after ops2 W (main_arg1 : DevRef τ sig) = W (main_arg1 : DevRef τ sig) := by
  after_results_simp

theorem seg2_arg2 (W : Valuation τ sig (Elt Ideal)) :
    after ops2 W (main_arg2 : DevRef τ sig) = W (main_arg2 : DevRef τ sig) := by
  after_results_simp

theorem seg1_arg0 (W : Valuation τ sig (Elt Ideal)) :
    after ops1 W (main_arg0 : DevRef τ sig) = W (main_arg0 : DevRef τ sig) := by
  after_results_simp

theorem seg1_arg1 (W : Valuation τ sig (Elt Ideal)) :
    after ops1 W (main_arg1 : DevRef τ sig) = W (main_arg1 : DevRef τ sig) := by
  after_results_simp

theorem seg1_arg2 (W : Valuation τ sig (Elt Ideal)) :
    after ops1 W (main_arg2 : DevRef τ sig) = W (main_arg2 : DevRef τ sig) := by
  after_results_simp

theorem seg3_out (W : Valuation τ sig (Elt Ideal)) :
    after ops3 W (main_v18 : DevRef τ sig)
      = finish (W (main_arg0 : DevRef τ sig)) (W (main_arg1 : DevRef τ sig)) (W (main_arg2 : DevRef τ sig))
          (W (main_v3 : DevRef τ sig)) (W (main_v4 : DevRef τ sig)) := by
  after_results_simp
  rfl

theorem seg3_arg0 (W : Valuation τ sig (Elt Ideal)) :
    after ops3 W (main_arg0 : DevRef τ sig) = W (main_arg0 : DevRef τ sig) := by
  after_results_simp

theorem seg3_arg1 (W : Valuation τ sig (Elt Ideal)) :
    after ops3 W (main_arg1 : DevRef τ sig) = W (main_arg1 : DevRef τ sig) := by
  after_results_simp

theorem seg3_arg2 (W : Valuation τ sig (Elt Ideal)) :
    after ops3 W (main_arg2 : DevRef τ sig) = W (main_arg2 : DevRef τ sig) := by
  after_results_simp

/-! ## The whole line -/

theorem arg0_eq (V : Valuation τ sig (Elt Ideal)) :
    after ops V (main_arg0 : DevRef τ sig) = V (main_arg0 : DevRef τ sig) := by
  rw [after_ops, seg3_arg0, seg2_arg0, seg1_arg0]

theorem arg1_eq (V : Valuation τ sig (Elt Ideal)) :
    after ops V (main_arg1 : DevRef τ sig) = V (main_arg1 : DevRef τ sig) := by
  rw [after_ops, seg3_arg1, seg2_arg1, seg1_arg1]

theorem arg2_eq (V : Valuation τ sig (Elt Ideal)) :
    after ops V (main_arg2 : DevRef τ sig) = V (main_arg2 : DevRef τ sig) := by
  rw [after_ops, seg3_arg2, seg2_arg2, seg1_arg2]

/-- The result buffer after the whole line holds the composed term of the three argument buffers. -/
theorem out_eq (V : Valuation τ sig (Elt Ideal)) :
    after ops V (main_v18 : DevRef τ sig)
      = refOut (V (main_arg0 : DevRef τ sig)) (V (main_arg1 : DevRef τ sig)) (V (main_arg2 : DevRef τ sig)) := by
  rw [after_ops, seg3_out, seg2_arg0, seg2_arg1, seg2_arg2, seg2_v3, seg2_v4, seg1_arg0, seg1_arg1, seg1_arg2, seg1_v3,
    seg1_c, refOut_eq]

end Line

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v18).trans (Line.out_eq (launchContents m c)),
      (h c main_arg0).trans (Line.arg0_eq (launchContents m c)),
      (h c main_arg1).trans (Line.arg1_eq (launchContents m c)),
      (h c main_arg2).trans (Line.arg2_eq (launchContents m c))⟩)
    (run_seq Line.scopedRefs_eq Line.scopedSems_eq defs main (fun _ => Line.ops) Line.main_eq (fun _ => Line.ops_sub) m ρ)

end Cert.ReferenceIdeal.RefValue

end
-- ==== Proof.Spec.lean ====
/-
  Layer normalisation of one row of 1024 numbers, written twice over the extended reals.

  `refElt` is the textbook form: subtract the row's mean, divide by the square root of the row's variance plus a small
  constant, scale and shift. `kerElt` is the form a device computes that holds one quarter of the row (256 columns) and is
  told the other three quarters' sums and sums of squares: the mean is the total sum times 1/1024, the variance the mean
  of the squares minus the square of the mean, and the division is a product with the reciprocal square root.
  For finite entries the two agree (`kerElt_eq_refElt`): the variance identity E[(x-μ)²] = E[x²] - μ² holds in the reals,
  the variance plus the constant is positive, and there a reciprocal square root is one over the square root.
-/
import Idealize.ShloMosaic.PureOps.Ideal
import Mathlib.Algebra.BigOperators.Fin
import Mathlib.Logic.Equiv.Fin.Basic
import Mathlib.Data.Fintype.BigOperators
import Mathlib.Analysis.Real.Sqrt

noncomputable section

open scoped BigOperators

namespace Cert.Spec

open Idealize.ShloMosaic

/-- The small constant under the square root, as both programs spell it (the binary32 number nearest 1e-5). -/
def eps : EReal := Ideal.ofBits .f32 0x3727C5AC#32

/-- The mean of a row. -/
def mean (x : Fin 1024 → EReal) : EReal := Ideal.div (∑ k, x k) ((1024 : ℝ) : EReal)

/-- The (population) variance of a row: the mean of the squared deviations from the mean. -/
def var (x : Fin 1024 → EReal) : EReal := Ideal.div (∑ k, (x k - mean x) * (x k - mean x)) ((1024 : ℝ) : EReal)

/-- The reference's entry at column `j` of a row `x`, with that column's scale `g` and shift `b`. -/
def refElt (x : Fin 1024 → EReal) (g b : EReal) (j : Fin 1024) : EReal :=
  Ideal.div (g * (x j - mean x)) (Ideal.sqrt (var x + eps)) + b

/-- The sum of a quarter row, and of its squares. -/
def s1 (y : Fin 256 → EReal) : EReal := ∑ l, y l
def s2 (y : Fin 256 → EReal) : EReal := ∑ l, y l * y l

/-- The kernel's entry at column `l` of its own quarter `y0`, the other quarters `y1 y2 y3` entering only through
    their sums and sums of squares, added in the kernel's order (own + next) + (second next + third next). -/
def kerElt (y0 y1 y2 y3 : Fin 256 → EReal) (g b : EReal) (l : Fin 256) : EReal :=
  let a1 := (s1 y0 + s1 y1) + (s1 y2 + s1 y3)
  let a2 := (s2 y0 + s2 y1) + (s2 y2 + s2 y3)
  let μ := a1 * ((1 / 1024 : ℝ) : EReal)
  let v := a2 * ((1 / 1024 : ℝ) : EReal) - μ * μ
  let inv := Ideal.rsqrt (v + eps)
  (y0 l * inv + (0 - μ) * inv) * g + b

/-- Quarter `c` of a row: columns 256c … 256c+255. -/
def quarter (x : Fin 1024 → EReal) (c : Fin 4) : Fin 256 → EReal := fun l => x ⟨c.val * 256 + l.val, by omega⟩

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over 1024 columns is the sum over the four quarters of the sums over each quarter's 256 columns. -/
theorem sum_quarters {M : Type*} [AddCommMonoid M] (f : Fin 1024 → M) :
    ∑ k, f k = ∑ c : Fin 4, ∑ l : Fin 256, f ⟨c.val * 256 + l.val, by omega⟩ := by
  rw [← Fintype.sum_prod_type' (f := fun (c : Fin 4) (l : Fin 256) => f ⟨c.val * 256 + l.val, by omega⟩)]
  symm
  refine Fintype.sum_equiv (finProdFinEquiv (m := 4) (n := 256)) _ _ ?_
  rintro ⟨c, l⟩
  congr 1
  apply Fin.ext
  simp [finProdFinEquiv]
  omega

/-- Four terms indexed round a ring of four, added as (own + next) + (second next + third next) from any start,
    make the sum over the ring. -/
theorem sum_cyclic {M : Type*} [AddCommMonoid M] (S : Fin 4 → M) (c : Fin 4) :
    (S c + S (c + 1)) + (S (c + 2) + S (c + 3)) = ∑ d, S d := by
  rw [Fin.sum_univ_four]
  fin_cases c
  · show (S 0 + S 1) + (S 2 + S 3) = _
    ac_rfl
  · show (S 1 + S 2) + (S 3 + S 0) = _
    ac_rfl
  · show (S 2 + S 3) + (S 0 + S 1) = _
    ac_rfl
  · show (S 3 + S 0) + (S 1 + S 2) = _
    ac_rfl

/-- The small constant is a positive real number. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- At a positive real the square root is the real square root. -/
theorem sqrt_coe_pos {w : ℝ} (hw : 0 < w) : Ideal.sqrt (w : EReal) = ((Real.sqrt w : ℝ) : EReal) := by
  rw [Ideal.sqrt_coe, if_neg (not_lt.mpr hw.le)]

/-- At a positive real the reciprocal square root is one over the real square root. -/
theorem rsqrt_coe_pos {w : ℝ} (hw : 0 < w) : Ideal.rsqrt (w : EReal) = (((Real.sqrt w)⁻¹ : ℝ) : EReal) := by
  rw [Ideal.rsqrt_coe, if_neg (not_lt.mpr hw.le), if_neg hw.ne']

/-- The variance identity over the reals: the mean of the squared deviations from the mean is the mean of the
    squares minus the square of the mean. -/
theorem var_identity (t : Fin 1024 → ℝ) :
    (∑ k, (t k - (∑ k, t k) * (1 / 1024)) * (t k - (∑ k, t k) * (1 / 1024))) * (1 / 1024)
      = (∑ k, t k * t k) * (1 / 1024) - ((∑ k, t k) * (1 / 1024)) * ((∑ k, t k) * (1 / 1024)) := by
  set T := ∑ k, t k with hT
  have h : ∀ k, (t k - T * (1 / 1024)) * (t k - T * (1 / 1024))
      = t k * t k - (2 * (T * (1 / 1024))) * t k + (T * (1 / 1024)) * (T * (1 / 1024)) := fun k => by ring
  simp_rw [h, Finset.sum_add_distrib, Finset.sum_sub_distrib, ← Finset.mul_sum, Finset.sum_const, Finset.card_univ,
    Fintype.card_fin, nsmul_eq_mul, ← hT]
  push_cast
  ring

/-- For a row of finite numbers, a finite scale and a finite shift, the kernel's entry in quarter `c` (the other quarters
    taken in the cyclic order c+1, c+2, c+3) is the reference's entry at the same column. -/
theorem kerElt_eq_refElt (x : Fin 1024 → EReal) (hx : ∀ k, ∃ t : ℝ, x k = (t : EReal)) (g b : EReal)
    (hg : ∃ t : ℝ, g = (t : EReal)) (hb : ∃ t : ℝ, b = (t : EReal)) (c : Fin 4) (l : Fin 256) :
    kerElt (quarter x c) (quarter x (c + 1)) (quarter x (c + 2)) (quarter x (c + 3)) g b l
      = refElt x g b ⟨c.val * 256 + l.val, by omega⟩ := by
  choose t ht using hx
  obtain ⟨gr, rfl⟩ := hg
  obtain ⟨br, rfl⟩ := hb
  obtain ⟨e, he, hee⟩ := eps_pos
  -- the real quantities: the two totals, the mean, the variance
  set T1 : ℝ := ∑ k, t k with hT1
  set T2 : ℝ := ∑ k, t k * t k with hT2
  set μ : ℝ := T1 * (1 / 1024) with hμ
  set V : ℝ := (∑ k, (t k - μ) * (t k - μ)) * (1 / 1024) with hV
  have hVid : T2 * (1 / 1024) - μ * μ = V := (var_identity t).symm
  have hV0 : 0 ≤ V := mul_nonneg (Finset.sum_nonneg (fun k _ => mul_self_nonneg _)) (by norm_num)
  have hpos : 0 < V + e := add_pos_of_nonneg_of_pos hV0 he
  have hsq : Real.sqrt (V + e) ≠ 0 := (Real.sqrt_pos.mpr hpos).ne'
  -- the two totals as extended reals
  have hS1 : ∑ k, x k = ((T1 : ℝ) : EReal) := by
    rw [hT1, ← coe_sum]; exact Finset.sum_congr rfl (fun k _ => ht k)
  have hS2 : ∑ k, x k * x k = ((T2 : ℝ) : EReal) := by
    rw [hT2, ← coe_sum]; exact Finset.sum_congr rfl (fun k _ => by rw [ht k, EReal.coe_mul])
  -- the kernel's four partial sums make the totals
  have hA1 : (s1 (quarter x c) + s1 (quarter x (c + 1))) + (s1 (quarter x (c + 2)) + s1 (quarter x (c + 3)))
      = ((T1 : ℝ) : EReal) :=
    (sum_cyclic (fun d => s1 (quarter x d)) c).trans ((sum_quarters (fun k => x k)).symm.trans hS1)
  have hA2 : (s2 (quarter x c) + s2 (quarter x (c + 1))) + (s2 (quarter x (c + 2)) + s2 (quarter x (c + 3)))
      = ((T2 : ℝ) : EReal) :=
    (sum_cyclic (fun d => s2 (quarter x d)) c).trans ((sum_quarters (fun k => x k * x k)).symm.trans hS2)
  -- the reference's mean and variance
  have hmean : mean x = ((μ : ℝ) : EReal) := by
    rw [mean, hS1, Ideal.div_coe (by norm_num : (1024 : ℝ) ≠ 0), ← EReal.coe_mul]
  have hvar : var x = ((V : ℝ) : EReal) := by
    have hsum : ∑ k, (x k - mean x) * (x k - mean x) = ((∑ k, (t k - μ) * (t k - μ) : ℝ) : EReal) := by
      rw [← coe_sum]
      exact Finset.sum_congr rfl (fun k _ => by rw [hmean, ht k, ← EReal.coe_sub, ← EReal.coe_mul])
    rw [var, hsum, Ideal.div_coe (by norm_num : (1024 : ℝ) ≠ 0), ← EReal.coe_mul]
  -- both sides as real numbers
  have hq : quarter x c l = ((t ⟨c.val * 256 + l.val, by omega⟩ : ℝ) : EReal) := ht _
  have hker : kerElt (quarter x c) (quarter x (c + 1)) (quarter x (c + 2)) (quarter x (c + 3)) (gr : EReal) (br : EReal) l
      = (((t ⟨c.val * 256 + l.val, by omega⟩ * (Real.sqrt (V + e))⁻¹ + (0 - μ) * (Real.sqrt (V + e))⁻¹) * gr + br : ℝ) : EReal) := by
    simp only [kerElt]
    rw [hA1, hA2, hq, hee, ← EReal.coe_mul, ← EReal.coe_mul, ← EReal.coe_mul, ← EReal.coe_sub, hVid, ← EReal.coe_add,
      rsqrt_coe_pos hpos, ← EReal.coe_zero, ← EReal.coe_sub, ← EReal.coe_mul, ← EReal.coe_mul, ← EReal.coe_add,
      ← EReal.coe_mul, ← EReal.coe_add]
  have href : refElt x (gr : EReal) (br : EReal) ⟨c.val * 256 + l.val, by omega⟩
      = ((gr * (t ⟨c.val * 256 + l.val, by omega⟩ - μ) * (1 / Real.sqrt (V + e)) + br : ℝ) : EReal) := by
    rw [refElt, hmean, hvar, hee, ← EReal.coe_add, sqrt_coe_pos hpos, Ideal.div_coe hsq, ht, ← EReal.coe_sub,
      ← EReal.coe_mul, ← EReal.coe_mul, ← EReal.coe_add]
  rw [hker, href, EReal.coe_eq_coe_iff]
  ring

end Cert.Spec

end
-- ==== Proof.KernelValue.lean ====
/-
  The kernel's result block read at an index, at the ideal instance: entry (r, l) of `kout` over four slabs made from
  four blocks is `Spec.kerElt` of row r of those blocks.

  The road. Every arithmetic operation of the payloads acts entry by entry over the extended reals, so the work is in
  the operations that move entries: a vector of 512 row scalars seen as a 512 x 1 column and laid along the 256 columns
  (entry (r, l) is the scalar of row r); a vector of 256 column scalars seen as one row and laid down the 512 rows
  (entry (r, l) is the scalar of column l); row 0 or row 1 cut out of a 2 x 512 array; a 1 x 2 x 512 slab seen as
  2 x 512; and the sum over the 256 columns, which at row r is the finite sum of the row's entries. With these, plane 0
  and plane 1 of a block's slab at row r are the row's sum and sum of squares (`Spec.s1`, `Spec.s2`), the four slabs add
  in the order (own + next) + (second next + third next), and the final entry is
  (x * inv + (0 - mean) * inv) * scale + shift with mean = total * 2^-10, variance = total of squares * 2^-10 - mean^2,
  inv = 1 / sqrt (variance + eps).
-/
import proofs.«900543_g7700000000000544_dist_layernorm_colshard_i_m512_n256_v7x_i4_bf16_1_alg».proof.Proof.Vals
import proofs.«900543_g7700000000000544_dist_layernorm_colshard_i_m512_n256_v7x_i4_bf16_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValsIdeal

open Cert.KernelIdeal Cert.KernelIdeal.Gen Cert.KernelIdeal.Vals
open Idealize.ShloMosaic Idealize.ShloMosaic.ValueIdx
open scoped BigOperators

/-! ## The one constant that is evaluated -/

/-- The binary32 word 0x3A800000 (sign 0, exponent field 117, fraction 0) denotes 2^(117 - 127) = 2^-10 = 1/1024. -/
theorem ofBits_inv1024 : Ideal.ofBits .f32 0x3A800000#32 = ((1 / 1024 : ℝ) : EReal) := by
  simp [Ideal.ofBits, Ideal.ieee, -EReal.coe_mul]; norm_num

/-! ## The operations that move entries, at explicit coordinates -/

/-- A vector of 512 entries seen as a 512 x 1 column reads, at (r, u), the vector at r: the row-major position of
    (r, u) in 512 x 1 is r * 1 + 0. -/
theorem shapeCast_a_a1_apply (w : FVec Ideal S512 .f32) (h : S512.ShapeCasts S512x1) (r : Fin 512) (u : Fin 1) :
    shapeCast S512x1 w h (ix2 r u) = w (ix1 r) :=
  shapeCast_apply w h _ _ (by
    have hu : u.val = 0 := by omega
    rw [Shape.rowMajor_val_two, Shape.rowMajor_val_one]
    show r.val = r.val * 1 + u.val
    rw [hu, Nat.mul_one, Nat.add_zero])

/-- A 512 x 1 column broadcast to 512 x 256 reads, at (r, l), the column at (r, 0): the row axis is kept, the unit
    axis is read at 0. -/
theorem broadcastTo_a1_ab_apply (v : FVec Ideal S512x1 .f32) (h : S512x1.Broadcasts S512x256) (r : Fin 512) (l : Fin 256) :
    broadcastTo S512x256 v h (ix2 r l) = v (ix2 r (0 : Fin 1)) := by
  refine broadcastTo_apply v h (ix2 r l) (ix2 r (0 : Fin 1)) fun ax => ?_
  match ax with
  | ⟨0, _⟩ => rfl
  | ⟨1, _⟩ => rfl

/-- A per-row scalar laid along the 256 columns of its row: entry (r, l) is the scalar of row r. -/
theorem col_apply (w : FVec Ideal S512 .f32) (h : S512.ShapeCasts S512x1) (hb : S512x1.Broadcasts S512x256)
    (r : Fin 512) (l : Fin 256) :
    broadcastTo S512x256 (shapeCast S512x1 w h) hb (ix2 r l) = w (ix1 r) :=
  (broadcastTo_a1_ab_apply _ hb r l).trans (shapeCast_a_a1_apply w h r 0)

/-- A per-column scalar (a vector of 256 entries seen as one row) laid down the 512 rows: entry (r, l) is the scalar
    of column l. -/
theorem row_apply (g : FVec Ideal S256 .f32) (h0 : S256.ShapeCasts S256) (h1 : S256.ShapeCasts S1x256)
    (hb : S1x256.Broadcasts S512x256) (r : Fin 512) (l : Fin 256) :
    broadcastTo S512x256 (shapeCast S1x256 (shapeCast S256 g h0) h1) hb (ix2 r l) = g (ix1 l) := by
  refine (broadcastTo_1b_ab_apply _ hb r l).trans ?_
  refine (shapeCast_a_1a_apply _ h1 0 l).trans ?_
  rw [shapeCast_self]

/-- Row 0 of a 2 x 512 array, as a vector of 512 entries. -/
theorem rowOf0_apply (t : FVec Ideal S2x512 .f32) (hs : S2x512.Slices ![0, 0] S1x512) (hc : S1x512.ShapeCasts S512)
    (r : Fin 512) :
    shapeCast S512 (extractStridedSlice S1x512 ![0, 0] t hs) hc (ix1 r) = t (ix2 (0 : Fin 2) r) :=
  (shapeCast_1a_a_apply _ hc r).trans (slice2_axis0_apply 0 t hs 0 r 0 rfl)

/-- Row 1 of a 2 x 512 array, as a vector of 512 entries. -/
theorem rowOf1_apply (t : FVec Ideal S2x512 .f32) (hs : S2x512.Slices ![1, 0] S1x512) (hc : S1x512.ShapeCasts S512)
    (r : Fin 512) :
    shapeCast S512 (extractStridedSlice S1x512 ![1, 0] t hs) hc (ix1 r) = t (ix2 (1 : Fin 2) r) :=
  (shapeCast_1a_a_apply _ hc r).trans (slice2_axis0_apply 1 t hs 0 r 1 rfl)

/-- A 1 x 2 x 512 slab seen as 2 x 512: entry (p, r) is the slab at (0, p, r). -/
theorem slab2_apply (s : FVec Ideal S1x2x512 .f32) (h : S1x2x512.ShapeCasts S2x512) (p : Fin 2) (r : Fin 512) :
    shapeCast S2x512 s h (ix2 p r) = s (ix3 (0 : Fin 1) p r) :=
  shapeCast_1ab_ab_apply s h p r

/-- A vector of 512 entries seen as 1 x 1 x 512: entry (u, u', r) is the vector at r. -/
theorem shapeCast_a_11a_apply (w : FVec Ideal S512 .f32) (h : S512.ShapeCasts S1x1x512) (u u' : Fin 1) (r : Fin 512) :
    shapeCast S1x1x512 w h (ix3 u u' r) = w (ix1 r) :=
  shapeCast_apply w h _ _ (by
    have hu : u.val = 0 := by omega
    have hu' : u'.val = 0 := by omega
    rw [Shape.rowMajor_val_three, Shape.rowMajor_val_one]
    show r.val = (u.val * 1 + u'.val) * 512 + r.val
    rw [hu, hu']; omega)

/-- The sum over the 256 columns of a 512 x 256 array, at row r, is the finite sum of that row's entries: the index
    with column k put back into the reduced index r is (r, k). -/
theorem laneSum_apply (v : FVec Ideal S512x256 .f32) (h : S512x256.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ l : Fin 256, v (ix2 r l) := by
  refine (Ideal.multiReduction_add_single v 0x00000000#32 h hφ hacc (ix1 r)).trans ?_
  show ∑ k : Fin 256, v (h.lift (ix1 r) k) = _
  refine Finset.sum_congr rfl fun k _ => congrArg v ?_
  funext a
  match a with
  | ⟨0, _⟩ => rfl
  | ⟨1, _⟩ => rfl

/-- A reciprocal square root at an index is the reciprocal square root of the element. -/
theorem rsqrt_apply {s : Shape} {φ : FTy} (a : FVec Ideal s φ) (i : s.Idx) : rsqrt a i = Ideal.rsqrt (a i) := rfl

/-! ## A block's statistics at a row -/

/-- Plane 0 of a block's slab at row r: the sum of the row's 256 entries. -/
theorem slab_apply0 (x : Vec Ideal S512x256 .f32) (r : Fin 512) :
    (slab (F := Ideal) x (ix3 (0 : Fin 1) (0 : Fin 2) r) : EReal) = Cert.Spec.s1 (fun l => (x (ix2 r l) : EReal)) := by
  show k0_pay2 (F := Ideal) x (ix3 (0 : Fin 1) (0 : Fin 1) r) = _
  unfold k0_pay2 k0_pay1
  refine (shapeCast_a_11a_apply _ _ 0 0 r).trans ?_
  refine (laneSum_apply _ _ _ _ r).trans ?_
  rw [shapeCast_self]
  rfl

/-- Plane 1 of a block's slab at row r: the sum of the squares of the row's 256 entries. -/
theorem slab_apply1 (x : Vec Ideal S512x256 .f32) (r : Fin 512) :
    (slab (F := Ideal) x (ix3 (0 : Fin 1) (1 : Fin 2) r) : EReal) = Cert.Spec.s2 (fun l => (x (ix2 r l) : EReal)) := by
  show k0_pay3 (F := Ideal) x (ix3 (0 : Fin 1) (0 : Fin 1) r) = _
  unfold k0_pay3 k0_pay1
  refine (shapeCast_a_11a_apply _ _ 0 0 r).trans ?_
  refine (laneSum_apply _ _ _ _ r).trans ?_
  rw [shapeCast_self]
  rfl

/-! ## The four slabs added, the row scalars, the final entry -/

/-- The sum of the first two slabs at (p, r). -/
theorem pay6_apply (s0 s1 : FVec Ideal S1x2x512 .f32) (p : Fin 2) (r : Fin 512) :
    k0_pay6 (F := Ideal) s0 s1 (ix2 p r) = s0 (ix3 (0 : Fin 1) p r) + s1 (ix3 (0 : Fin 1) p r) := by
  unfold k0_pay6
  simp only [addf_apply, slab2_apply]

/-- The block a device holds, cast to its own shape, is the block. -/
theorem pay1_eq (x : FVec Ideal S512x256 .f32) : k0_pay1 (F := Ideal) x = x := by
  unfold k0_pay1
  exact shapeCast_self _ _

/-- The result block at (r, l), from the device's block `x`, its scale `g` and shift `b`, the sum `t0` of the first two
    slabs and the other two slabs `s2`, `s3`: the totals `a1`, `a2` of row r (plane 0 and plane 1), the mean
    μ = a1 * 2^-10, the variance v = a2 * 2^-10 - μ * μ, the reciprocal square root of v + eps, and the entry
    (x * inv + (0 - μ) * inv) * g + b; the change of format at the end is the identity on extended reals. -/
theorem pay7_apply (x : FVec Ideal S512x256 .f32) (g b : FVec Ideal S256 .f32) (t0 : FVec Ideal S2x512 .f32)
    (s2 s3 : FVec Ideal S1x2x512 .f32) (r : Fin 512) (l : Fin 256) :
    (k0_pay7 (F := Ideal) x (k0_pay4 g) (k0_pay5 b) t0 s2 s3 (ix2 r l) : EReal) =
      (let a1 := t0 (ix2 (0 : Fin 2) r) + (s2 (ix3 (0 : Fin 1) (0 : Fin 2) r) + s3 (ix3 (0 : Fin 1) (0 : Fin 2) r))
       let a2 := t0 (ix2 (1 : Fin 2) r) + (s2 (ix3 (0 : Fin 1) (1 : Fin 2) r) + s3 (ix3 (0 : Fin 1) (1 : Fin 2) r))
       let μ := a1 * Ideal.ofBits .f32 0x3A800000#32
       let v := a2 * Ideal.ofBits .f32 0x3A800000#32 - μ * μ
       let inv := Ideal.rsqrt (v + Cert.Spec.eps)
       (x (ix2 r l) * inv + (0 - μ) * inv) * g (ix1 l) + b (ix1 l)) := by
  unfold k0_pay7 k0_pay4 k0_pay5
  simp only [truncf_apply, addf_apply, mulf_apply, subf_apply, broadcast_apply, rsqrt_apply, col_apply, row_apply,
    rowOf0_apply, rowOf1_apply, slab2_apply, Scalar.ofBits, Ideal.ofBits_def, Ideal.ofBits_zero_f32]
  rfl

/-- Entry (r, l) of the result block over four slabs made from four blocks is the specification's entry for row r of
    those blocks: the slabs' planes at row r are the quarter rows' sums and sums of squares, added in the order
    (own + next) + (second next + third next), and 2^-10 is 1/1024. -/
theorem kout_apply (x0 x1 x2 x3 : Vec Ideal S512x256 .f32) (g b : Vec Ideal S256 .f32) (r : Fin 512) (l : Fin 256) :
    (kout (F := Ideal) x0 g b (slab x0) (slab x1) (slab x2) (slab x3) (ix2 r l) : EReal)
      = Cert.Spec.kerElt (fun l' => (x0 (ix2 r l') : EReal)) (fun l' => (x1 (ix2 r l') : EReal))
          (fun l' => (x2 (ix2 r l') : EReal)) (fun l' => (x3 (ix2 r l') : EReal)) (g (ix1 l)) (b (ix1 l)) l := by
  unfold kout
  refine (pay7_apply (k0_pay1 x0) g b (k0_pay6 (slab x0) (slab x1)) (slab x2) (slab x3) r l).trans ?_
  unfold Cert.Spec.kerElt
  simp only [pay6_apply, slab_apply0, slab_apply1, ofBits_inv1024, pay1_eq]

end Cert.KernelIdeal.ValsIdeal

end
-- ==== Proof.RefApply.lean ====
/-
  The reference's result read at an index: entry (r, j) of `refOut` is the textbook layer normalisation of row r at
  column j (`Spec.refElt`).

  Every operation of the reference is read at an index, outermost first. A change of number format is the identity on
  the extended reals; sums, differences, products, quotients and the square root act entry by entry; a broadcast reads
  its operand at the coordinates it keeps; the sum over the columns from the literal zero is the sum of the row's 1024
  entries. The literal divisor is the real number 1024, the variance's divisor 1024 - 0 is 1024 again and is above zero,
  so the selection that guards the variance reads the quotient and never the not-a-number literal. What is left is the
  textbook expression: the mean is the row sum over 1024, the variance the sum of the squared deviations from that mean
  over 1024, and the entry is scale * (x - mean) / sqrt (variance + eps) + shift.
-/
import proofs.«900543_g7700000000000544_dist_layernorm_colshard_i_m512_n256_v7x_i4_bf16_1_alg».proof.Proof.RefDef
import proofs.«900543_g7700000000000544_dist_layernorm_colshard_i_m512_n256_v7x_i4_bf16_1_alg».proof.Proof.Spec
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open scoped BigOperators

namespace RefApply

variable {α : Type}

/-! ## The literal divisor -/

/-- The binary32 pattern 0x44800000 (exponent field 137, significand field 0) is 2^10 = 1024. -/
theorem ofBits_1024 : Ideal.ofBits .f32 0x44800000#32 = ((1024 : ℝ) : EReal) := by
  simp [Ideal.ofBits, Ideal.ieee, -EReal.coe_mul]
  norm_num

/-! ## The five broadcasts, each read at an index -/

/-- A vector of 512 entries made a 512 x 1 column: entry (r, c) is entry r. -/
theorem bc_col (v : S512.Idx → α) (r : Fin 512) (c : Fin 1) :
    broadcastInDim S512x1 ![0] bcast_S512_S512x1_0 v (ix2 r c) = v (ix1 r) :=
  broadcastInDim_apply ![0] bcast_S512_S512x1_0 v (ix2 r c) (ix1 r) (fun a => match a with | ⟨0, _⟩ => rfl)

/-- A scalar made a 512 x 1 column: every entry is the scalar. -/
theorem bc_scalar (v : S_.Idx → α) (i : S512x1.Idx) :
    broadcastInDim S512x1 ![] bcast_S_S512x1 v i = v ix0 := by
  unfold broadcastInDim; exact congrArg v (funext fun a => a.elim0)

/-- A 512 x 1 column copied along the 1024 columns: entry (r, j) is entry (r, 0). -/
theorem bc_row (v : S512x1.Idx → α) (r : Fin 512) (j : Fin 1024) :
    broadcastInDim S512x1024 ![0, 1] bcast_S512x1_S512x1024_0_1 v (ix2 r j) = v (ix2 r (0 : Fin 1)) :=
  broadcastInDim_apply ![0, 1] bcast_S512x1_S512x1024_0_1 v (ix2 r j) (ix2 r (0 : Fin 1))
    (fun a => match a with | ⟨0, _⟩ => rfl | ⟨1, _⟩ => rfl)

/-- A vector of 1024 entries made a 1 x 1024 row: entry (c, j) is entry j. -/
theorem bc_vec (v : S1024.Idx → α) (c : Fin 1) (j : Fin 1024) :
    broadcastInDim S1x1024 ![1] bcast_S1024_S1x1024_1 v (ix2 c j) = v (ix1 j) :=
  broadcastInDim_apply ![1] bcast_S1024_S1x1024_1 v (ix2 c j) (ix1 j) (fun a => match a with | ⟨0, _⟩ => rfl)

/-- A 1 x 1024 row copied down the 512 rows: entry (r, j) is entry (0, j). -/
theorem bc_down (v : S1x1024.Idx → α) (r : Fin 512) (j : Fin 1024) :
    broadcastInDim S512x1024 ![0, 1] bcast_S1x1024_S512x1024_0_1 v (ix2 r j) = v (ix2 (0 : Fin 1) j) :=
  broadcastInDim_apply ![0, 1] bcast_S1x1024_S512x1024_0_1 v (ix2 r j) (ix2 (0 : Fin 1) j)
    (fun a => match a with | ⟨0, _⟩ => rfl | ⟨1, _⟩ => rfl)

/-! ## The sum over the columns -/

/-- Dropping axis 1 of a 512 x 1024 array leaves its 512 rows. -/
theorem reduces_rows : S512x1024.Reduces [1] S512 := by decide

/-- The sum over the columns from the literal zero, read at row r: the sum of the row's 1024 entries (the index over
    row r with column k inserted is (r, k), and 0 + s = s). -/
theorem rowSum_apply (Y : FVec Ideal S512x1024 .f32) (r : Fin 512) :
    (Host.reduceAdd Y (constant S_ .f32 0x00000000#32) reducesTo_S512x1024_S512_d1 h_S_ (ix1 r) : EReal)
      = ∑ k : Fin 1024, (Y (ix2 r k) : EReal) := by
  show Ideal.hostReduceAdd reducesTo_S512x1024_S512_d1 Y (Ideal.ofBits .f32 0x00000000#32) (ix1 r) = _
  rw [Ideal.hostReduceAdd_single reducesTo_S512x1024_S512_d1 reduces_rows, Ideal.ofBits_zero_f32, zero_add]
  refine Finset.sum_congr rfl (fun k _ => congrArg Y ?_)
  funext a
  match a with
  | ⟨0, _⟩ => exact Fin.ext rfl
  | ⟨1, _⟩ => exact Fin.ext rfl

/-! ## The quotient and the square root, entry by entry -/

theorem hdiv_apply {s : Shape} {φ : FTy} (a b : FVec Ideal s φ) (i : s.Idx) :
    Host.divf a b i = Ideal.div (a i) (b i) := rfl

theorem hsqrt_apply {s : Shape} {φ : FTy} (a : FVec Ideal s φ) (i : s.Idx) :
    Host.sqrt a i = Ideal.sqrt (a i) := rfl

/-! ## The mean, the divisor and its test, the variance -/

/-- The column of row means: entry (r, c) is the sum of row r over 1024. -/
theorem meanCol_apply (Y : FVec Ideal S512x1024 .f32) (r : Fin 512) (c : Fin 1) :
    (Host.divf (broadcastInDim S512x1 ![0] bcast_S512_S512x1_0
        (Host.reduceAdd Y (constant S_ .f32 0x00000000#32) reducesTo_S512x1024_S512_d1 h_S_))
      (broadcastInDim S512x1 ![] bcast_S_S512x1 (constant S_ .f32 0x44800000#32)) (ix2 r c) : EReal)
      = Cert.Spec.mean (fun k => (Y (ix2 r k) : EReal)) := by
  rw [hdiv_apply, bc_col, bc_scalar, rowSum_apply, constant_apply, ofBits_1024]
  rfl

/-- The variance's divisor, 1024 minus the integer 0 converted, is 1024. -/
theorem divisor_apply :
    (subf (constant S_ .f32 0x44800000#32) (sitofp (F := Ideal) .f32 (constantI S_ 32 0#32)) ix0 : EReal)
      = ((1024 : ℝ) : EReal) := by
  rw [subf_apply, constant_apply, ofBits_1024]
  show ((1024 : ℝ) : EReal) - ((((0#32 : BitVec 32).toInt : ℤ) : ℝ) : EReal) = _
  simp

/-- The divisor is above zero: the test that guards the variance holds. -/
theorem positive_apply :
    cmpf .ogt (subf (constant S_ .f32 0x44800000#32) (sitofp (F := Ideal) .f32 (constantI S_ 32 0#32)))
      (constant S_ .f32 0x00000000#32) ix0 = 1#1 := by
  rw [cmpf_apply, divisor_apply, constant_apply, Ideal.ofBits_zero_f32, Ideal.cmpf_def]
  simp [Ideal.cmp]

/-- Where the test holds the selection reads its first operand, whatever the second. -/
theorem sel_apply (A N : FVec Ideal S512x1 .f32) (i : S512x1.Idx) :
    select (broadcastInDim S512x1 ![] bcast_S_S512x1
        (cmpf .ogt (subf (constant S_ .f32 0x44800000#32) (sitofp (F := Ideal) .f32 (constantI S_ 32 0#32)))
          (constant S_ .f32 0x00000000#32))) A N i = A i := by
  rw [select_apply, bc_scalar, positive_apply, select_one]

/-- The column of row variances about a column M of centres: entry (r, c) is the sum over row r of the squared
    deviations from M's entry (r, 0), over 1024. -/
theorem varCol_apply (Y : FVec Ideal S512x1024 .f32) (M : FVec Ideal S512x1 .f32) (r : Fin 512) (c : Fin 1) :
    (Host.divf (broadcastInDim S512x1 ![0] bcast_S512_S512x1_0
        (Host.reduceAdd
          (mulf (subf Y (broadcastInDim S512x1024 ![0, 1] bcast_S512x1_S512x1024_0_1 M))
            (subf Y (broadcastInDim S512x1024 ![0, 1] bcast_S512x1_S512x1024_0_1 M)))
          (constant S_ .f32 0x00000000#32) reducesTo_S512x1024_S512_d1 h_S_))
      (broadcastInDim S512x1 ![] bcast_S_S512x1
        (subf (constant S_ .f32 0x44800000#32) (sitofp (F := Ideal) .f32 (constantI S_ 32 0#32)))) (ix2 r c) : EReal)
      = Ideal.div
          (∑ k : Fin 1024, ((Y (ix2 r k) : EReal) - M (ix2 r (0 : Fin 1))) * ((Y (ix2 r k) : EReal) - M (ix2 r (0 : Fin 1))))
          ((1024 : ℝ) : EReal) := by
  rw [hdiv_apply, bc_col, bc_scalar, rowSum_apply, divisor_apply]
  refine congrArg (fun s => Ideal.div s ((1024 : ℝ) : EReal)) (Finset.sum_congr rfl (fun k _ => ?_))
  rw [mulf_apply, subf_apply, bc_row]

end RefApply

open RefApply

/-- Entry (r, j) of the reference's result is the textbook layer normalisation of row r at column j: the outer
    operations are read entry by entry down to the two columns of statistics, the variance's guard is resolved, and the
    two columns are the row's mean and its variance about that mean. -/
theorem refOut_apply (X : FVec Ideal S512x1024 .f32) (G B : FVec Ideal S1024 .f32) (r : Fin 512) (j : Fin 1024) :
    (refOut X G B (ix2 r j) : EReal)
      = Cert.Spec.refElt (fun k => (X (ix2 r k) : EReal)) (G (ix1 j)) (B (ix1 j)) j := by
  simp only [refOut, truncf_apply, addf_apply, mulf_apply, subf_apply, hdiv_apply]
  rw [bc_down, bc_vec, bc_row, bc_row, bc_down, bc_vec]
  rw [hsqrt_apply, addf_apply, sel_apply, varCol_apply, meanCol_apply, bc_scalar, constant_apply]
  rfl

end Cert.ReferenceIdeal.RefValue

end
-- ==== Proof.Finite.lean ====
/-
  Under the precondition every entry of every device's three argument blocks is a real number.

  The precondition says, of each block, that the conjunction over all entries x of the test |x| < +∞ came out true.
  A conjunction that is true has every conjunct true; and an extended real whose absolute value max(x, -x) lies
  strictly below +∞ is neither +∞ nor -∞ (the absolute value of either is +∞), hence a real.
-/
import proofs.«900543_g7700000000000544_dist_layernorm_colshard_i_m512_n256_v7x_i4_bf16_1_alg».proof.Defs
import proofs.«900543_g7700000000000544_dist_layernorm_colshard_i_m512_n256_v7x_i4_bf16_1_alg».proof.Proof.Gen.KernelIdeal
import proofs.«900543_g7700000000000544_dist_layernorm_colshard_i_m512_n256_v7x_i4_bf16_1_alg».proof.Proof.Gen.Pre_finite_inputs_Kernel
import Idealize.ShloMosaic.Lib.ReduceAll
import Idealize.ShloMosaic.Lib.ValueIdx

noncomputable section

namespace Cert.KernelIdeal.Finite

open Cert.KernelIdeal Cert.KernelIdeal.Gen
open Idealize.ShloMosaic Idealize.ShloMosaic.TcCoe Idealize.SL.Sem

/-- The scalar shape has exactly one index. -/
instance : Subsingleton (Cert.Pre_finite_inputs_Kernel.S_).Idx := ⟨fun a b => funext fun d => d.elim0⟩

/-- An extended real whose absolute value max(x, -x) is strictly below the binary32 pattern of +∞ is a real:
    that pattern denotes ⊤, and both ⊤ and ⊥ have absolute value ⊤, which is not below ⊤. -/
theorem real_of_abs_lt (x : EReal)
    (h : Ideal.cmp .olt (max x (-x)) (Ideal.ofBits .f32 0x7F800000#32) = 1#1) : ∃ t : ℝ, x = (t : EReal) := by
  have htop : Ideal.ofBits .f32 0x7F800000#32 = (⊤ : EReal) := by simp [Ideal.ofBits, Ideal.ieee]
  rw [htop] at h
  induction x using EReal.rec with
  | bot => simp [Ideal.cmp] at h
  | coe t => exact ⟨t, rfl⟩
  | top => simp [Ideal.cmp] at h

theorem finite_of_pre (m : (ℓ : Loc nD τ sig) → Buf (Elt Ideal) ℓ) (h : Cert.Pre_KernelIdeal m) (c : Dev nD) :
    (∀ i, ∃ t : ℝ, (m ((c.tc : Thread nD τ).loc main_arg0) i : EReal) = (t : EReal))
    ∧ (∀ i, ∃ t : ℝ, (m ((c.tc : Thread nD τ).loc main_arg1) i : EReal) = (t : EReal))
    ∧ (∀ i, ∃ t : ℝ, (m ((c.tc : Thread nD τ).loc main_arg2) i : EReal) = (t : EReal)) := by
  -- the predicate's one result entry, on device c, is 1
  have h0 := congrFun (h c) ValueIdx.ix0
  dsimp only [Cert.Pre_finite_inputs_Kernel.fn] at h0
  -- it is (all₀ ∧ all₁) ∧ all₂, so each of the three conjunctions over a block is 1
  obtain ⟨h01, h2⟩ := IntOp.andi_eq_one.1 h0
  obtain ⟨h0', h1⟩ := IntOp.andi_eq_one.1 h01
  -- and then each entry's own test |x| < +∞ is 1
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.KernelIdeal.Finite

end
-- ==== Proof.Bridge.lean ====
/-
  Each device's result block is its block of the reference's result: when every device's argument blocks are the
  blocks of the reference's whole arrays and all entries are finite, `outAt` at device c is block c (columns
  256c … 256c+255) of `refOut` of the whole arrays.

  Entry by entry. Entry (r, l) of device c's result is `Spec.kerElt` of row r of the four blocks held by the devices
  c, c+1, c+2, c+3 round the ring. Row r of device d's block is quarter d of row r of the whole array, so those are the
  quarters c, c+1, c+2, c+3 of one row of 1024 numbers; every number of that row is an entry of some device's block and
  so a real, as are the scale and the shift at column 256c + l, which are entry l of device c's own blocks. For such a
  row the kernel's entry is the reference's entry at column 256c + l, which is entry (r, l) of block c of the
  reference's result.
-/
import proofs.«900543_g7700000000000544_dist_layernorm_colshard_i_m512_n256_v7x_i4_bf16_1_alg».proof.Defs
import proofs.«900543_g7700000000000544_dist_layernorm_colshard_i_m512_n256_v7x_i4_bf16_1_alg».proof.Proof.Vals
import proofs.«900543_g7700000000000544_dist_layernorm_colshard_i_m512_n256_v7x_i4_bf16_1_alg».proof.Proof.Spec
import proofs.«900543_g7700000000000544_dist_layernorm_colshard_i_m512_n256_v7x_i4_bf16_1_alg».proof.Proof.KernelValue
import proofs.«900543_g7700000000000544_dist_layernorm_colshard_i_m512_n256_v7x_i4_bf16_1_alg».proof.Proof.RefApply
import proofs.«900543_g7700000000000544_dist_layernorm_colshard_i_m512_n256_v7x_i4_bf16_1_alg».proof.Proof.Finite
import Idealize.ShloMosaic.Lib.Layout

noncomputable section

namespace Cert.Bridge

open Idealize.ShloMosaic Idealize.ShloMosaic.TcCoe Idealize.SL.Sem Idealize.ShloMosaic.ValueIdx

/-- Where entry (r, l) of block d lands in the whole 512 x 1024 array: row r, column 256 d + l. -/
theorem idx_cols (h : Layout.Tiles ⟨2, ![512, 256]⟩ ⟨2, ![512, 1024]⟩ 1 4) (d : Fin 4) (r : Fin 512) (l : Fin 256) :
    h.idx d (ix2 r l) = ix2 r (⟨d.val * 256 + l.val, by omega⟩ : Fin 1024) := by
  funext b
  match b with
  | ⟨0, _⟩ => rfl
  | ⟨1, _⟩ => rfl

/-- Where entry l of block d lands in the whole vector of 1024: entry 256 d + l. -/
theorem idx_vec (h : Layout.Tiles ⟨1, ![256]⟩ ⟨1, ![1024]⟩ 0 4) (d : Fin 4) (l : Fin 256) :
    h.idx d (ix1 l) = ix1 (⟨d.val * 256 + l.val, by omega⟩ : Fin 1024) := by
  funext b
  match b with
  | ⟨0, _⟩ => rfl

/-- Round a ring of four, k places after c is c + k. -/
theorem rot_one (c : Fin 4) : Cert.KernelIdeal.Vals.rot c 1 = c + 1 := by revert c; decide
theorem rot_two (c : Fin 4) : Cert.KernelIdeal.Vals.rot c 2 = c + 2 := by revert c; decide
theorem rot_three (c : Fin 4) : Cert.KernelIdeal.Vals.rot c 3 = c + 3 := by revert c; decide

/-- Entry (r, l) of device c's result is entry (r, 256c + l) of the reference's result, for blocks `xs d`, `gs d`, `bs d`
    that are the blocks of whole arrays X, G, B and hold only reals. -/
theorem core_apply (xs : Fin 4 → Vec Ideal Cert.KernelIdeal.S512x256 .f32) (gs bs : Fin 4 → Vec Ideal Cert.KernelIdeal.S256 .f32)
    (X : FVec Ideal Cert.ReferenceIdeal.S512x1024 .f32) (G B : FVec Ideal Cert.ReferenceIdeal.S1024 .f32)
    (hx : ∀ d, xs d = Layout.block ⟨2, ![512, 256]⟩ ⟨2, ![512, 1024]⟩ 1 4 d X)
    (hg : ∀ d, gs d = Layout.block ⟨1, ![256]⟩ ⟨1, ![1024]⟩ 0 4 d G)
    (hb : ∀ d, bs d = Layout.block ⟨1, ![256]⟩ ⟨1, ![1024]⟩ 0 4 d B)
    (fx : ∀ d i, ∃ t : ℝ, (xs d i : EReal) = (t : EReal))
    (fg : ∀ d i, ∃ t : ℝ, (gs d i : EReal) = (t : EReal))
    (fb : ∀ d i, ∃ t : ℝ, (bs d i : EReal) = (t : EReal))
    (c : Fin 4) (r : Fin 512) (l : Fin 256) :
    (Cert.KernelIdeal.Vals.outAt (F := Ideal) xs gs bs c (ix2 r l) : EReal)
      = (Cert.ReferenceIdeal.RefValue.refOut X G B (ix2 r (⟨c.val * 256 + l.val, by omega⟩ : Fin 1024)) : EReal) := by
  -- row r of the whole array
  let x : Fin 1024 → EReal := fun k => (X (ix2 r k) : EReal)
  -- device d's block, row r, is quarter d of that row
  have hxs : ∀ (d : Fin 4) (l' : Fin 256), (xs d (ix2 r l') : EReal) = x ⟨d.val * 256 + l'.val, by omega⟩ := by
    intro d l'
    rw [hx d, Layout.block_apply, idx_cols]
  have hq : ∀ d : Fin 4, (fun l' : Fin 256 => (xs d (ix2 r l') : EReal)) = Cert.Spec.quarter x d := by
    intro d; funext l'; exact hxs d l'
  -- every entry of the row is an entry of some device's block, hence a real
  have hfin : ∀ k, ∃ t : ℝ, x k = (t : EReal) := by
    intro k
    obtain ⟨t, ht⟩ := fx ⟨k.val / 256, by omega⟩ (ix2 r ⟨k.val % 256, by omega⟩)
    refine ⟨t, ?_⟩
    rw [← ht, hxs]
    exact congrArg x (Fin.ext (by simp only []; omega))
  -- the scale and the shift at column 256 c + l are entry l of device c's blocks
  have hgc : (gs c (ix1 l) : EReal) = G (ix1 (⟨c.val * 256 + l.val, by omega⟩ : Fin 1024)) := by
    rw [hg c, Layout.block_apply, idx_vec]
  have hbc : (bs c (ix1 l) : EReal) = B (ix1 (⟨c.val * 256 + l.val, by omega⟩ : Fin 1024)) := by
    rw [hb c, Layout.block_apply, idx_vec]
  unfold Cert.KernelIdeal.Vals.outAt
  rw [Cert.KernelIdeal.ValsIdeal.kout_apply, rot_one, rot_two, rot_three, hq c, hq (c + 1), hq (c + 2), hq (c + 3),
    Cert.ReferenceIdeal.RefValue.refOut_apply, ← hgc, ← hbc]
  exact Cert.Spec.kerElt_eq_refElt x hfin _ _ (fg c _) (fb c _) c l

theorem outAt_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg2)))
    (c : Dev Cert.KernelIdeal.nD) :
    Cert.KernelIdeal.Vals.outAt (F := Ideal)
        (fun d => m ((d.tc : Thread Cert.KernelIdeal.nD Cert.KernelIdeal.τ).loc Cert.KernelIdeal.main_arg0))
        (fun d => m ((d.tc : Thread Cert.KernelIdeal.nD Cert.KernelIdeal.τ).loc Cert.KernelIdeal.main_arg1))
        (fun d => m ((d.tc : Thread Cert.KernelIdeal.nD Cert.KernelIdeal.τ).loc Cert.KernelIdeal.main_arg2)) c
      = Layout.block ⟨2, ![512, 256]⟩ ⟨2, ![512, 1024]⟩ 1 4 c
          (Cert.ReferenceIdeal.RefValue.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))) := by
  funext i
  obtain ⟨r, l, rfl⟩ : ∃ (r : Fin 512) (l : Fin 256), i = ix2 r l := ⟨i 0, i 1, eq_ix2 i⟩
  rw [Layout.block_apply, idx_cols]
  exact core_apply _ _ _ _ _ _ (fun d => (hagree d).1) (fun d => (hagree d).2.1) (fun d => (hagree d).2.2)
    (fun d => (Cert.KernelIdeal.Finite.finite_of_pre m hpre d).1)
    (fun d => (Cert.KernelIdeal.Finite.finite_of_pre m hpre d).2.1)
    (fun d => (Cert.KernelIdeal.Finite.finite_of_pre m hpre d).2.2) c r l

end Cert.Bridge

end
-- ==== Proof.lean ====
/-
  Layer normalisation over the rows of a 512 x 1024 array whose columns are cut into four blocks of 256, one per device of a
  ring of four, against the one-device reference over the whole arrays.

  Each device computes, per row, the sum and the sum of squares of its own 256 columns, sends these to the three others and
  adds the four contributions; from the totals it forms the mean (the sum times 2^-10), the variance (the mean of the squares
  minus the square of the mean) and the reciprocal square root of the variance plus a small constant, and normalises its own
  block. The reference subtracts the mean, divides by the square root of the mean squared deviation plus the same constant,
  scales and shifts. Over the extended reals, on finite inputs, the two agree entry by entry: E[(x - μ)²] = E[x²] - μ² in the
  reals, the variance plus the constant is positive, and there the reciprocal square root is one over the square root.

  The three frames: each program runs to the end without a fault from any memory with zero counters and leaves its
  arguments as they were — for the kernel, at both instances, by the ring's protocol (the barrier handshake, the three
  transfers per device, the levels that forbid a deadlock); for the reference, by its run. The idealization rewrote
  nothing, so there is nothing to preserve. The algebraic claim puts the kernel's run and the reference's run side by side:
  each device's result block is its block of the reference's result.
-/
import proofs.«900543_g7700000000000544_dist_layernorm_colshard_i_m512_n256_v7x_i4_bf16_1_alg».proof.Defs
import proofs.«900543_g7700000000000544_dist_layernorm_colshard_i_m512_n256_v7x_i4_bf16_1_alg».proof.Proof.Gen.Kernel
import proofs.«900543_g7700000000000544_dist_layernorm_colshard_i_m512_n256_v7x_i4_bf16_1_alg».proof.Proof.Gen.Kernel.Skeleton
import proofs.«900543_g7700000000000544_dist_layernorm_colshard_i_m512_n256_v7x_i4_bf16_1_alg».proof.Proof.Gen.Kernel.Launch
import proofs.«900543_g7700000000000544_dist_layernorm_colshard_i_m512_n256_v7x_i4_bf16_1_alg».proof.Proof.Gen.Kernel.Points
import proofs.«900543_g7700000000000544_dist_layernorm_colshard_i_m512_n256_v7x_i4_bf16_1_alg».proof.Proof.Gen.Kernel.Frame
import proofs.«900543_g7700000000000544_dist_layernorm_colshard_i_m512_n256_v7x_i4_bf16_1_alg».proof.Proof.Gen.KernelIdeal
import proofs.«900543_g7700000000000544_dist_layernorm_colshard_i_m512_n256_v7x_i4_bf16_1_alg».proof.Proof.Gen.KernelIdeal.Skeleton
import proofs.«900543_g7700000000000544_dist_layernorm_colshard_i_m512_n256_v7x_i4_bf16_1_alg».proof.Proof.Gen.KernelIdeal.Launch
import proofs.«900543_g7700000000000544_dist_layernorm_colshard_i_m512_n256_v7x_i4_bf16_1_alg».proof.Proof.Gen.KernelIdeal.Points
import proofs.«900543_g7700000000000544_dist_layernorm_colshard_i_m512_n256_v7x_i4_bf16_1_alg».proof.Proof.Gen.KernelIdeal.Frame
import proofs.«900543_g7700000000000544_dist_layernorm_colshard_i_m512_n256_v7x_i4_bf16_1_alg».proof.Proof.Gen.ReferenceIdeal
import proofs.«900543_g7700000000000544_dist_layernorm_colshard_i_m512_n256_v7x_i4_bf16_1_alg».proof.Proof.Gen.Pre_finite_inputs_Kernel
import proofs.«900543_g7700000000000544_dist_layernorm_colshard_i_m512_n256_v7x_i4_bf16_1_alg».proof.Proof.Gen.Pre_finite_inputs_ReferenceIdeal
import proofs.«900543_g7700000000000544_dist_layernorm_colshard_i_m512_n256_v7x_i4_bf16_1_alg».proof.Proof.Proto.Launch
import proofs.«900543_g7700000000000544_dist_layernorm_colshard_i_m512_n256_v7x_i4_bf16_1_alg».proof.Proof.KProto.Launch
import proofs.«900543_g7700000000000544_dist_layernorm_colshard_i_m512_n256_v7x_i4_bf16_1_alg».proof.Proof.RefRun
import proofs.«900543_g7700000000000544_dist_layernorm_colshard_i_m512_n256_v7x_i4_bf16_1_alg».proof.Proof.Bridge
import Idealize.ShloMosaic.Adequacy
import Idealize.ShloMosaic.Init

noncomputable section

namespace Cert.Proof

open Idealize.ShloMosaic Idealize.SL.Sem

/-- The word-level kernel runs and leaves its arguments: its run with the result dropped. -/
theorem frame_k : Cert.frame_Kernel := fun m ρ _ =>
  (θ_run Cert.Kernel.defs _ _).mono (fun _ h c => (h c).2) (Cert.Kernel.Proto.run (F := Bits) m ρ)

/-- The idealized kernel likewise. -/
theorem frame_ki : Cert.frame_KernelIdeal := fun m ρ _ =>
  (θ_run Cert.KernelIdeal.defs _ _).mono (fun _ h c => (h c).2) (Cert.KernelIdeal.Proto.run (F := Ideal) m ρ)

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both runs end, the reference's result array at the layer normalisation of the whole arrays, each device's result
    array at its block of it. -/
theorem algebraic : Cert.algebraic_KernelIdeal_ReferenceIdeal := by
  intro m ρ m' ρ' hpre hagree
  refine ⟨Cert.ReferenceIdeal.RefValue.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono
      (fun _ h c => ⟨(h c).1.trans (Cert.Bridge.outAt_eq_block m m' hpre hagree c), (h c).2⟩)
      (Cert.KernelIdeal.Proto.run (F := Ideal) m ρ)
  · exact (θ_run Cert.ReferenceIdeal.defs _ _).mono (fun _ h => h 0) (Cert.ReferenceIdeal.RefValue.run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
